-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![1024, 512]⟩ ⟨2, ![4096, 512]⟩ 0 4 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v3) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S1024x512 : Shape := ⟨2, ![1024, 512]⟩
abbrev S_ : Shape := ⟨0, ![]⟩

class Facts : Prop where
  bcast_S_S1024x512 : S_.BroadcastsInDim S1024x512 (![] : Fin 0 → Fin S1024x512.rank)
  reducesTo_S1024x512_S_d0_1 : S1024x512.ReducesTo [0, 1] S_
  h_S_ : 0 < S_.numel

variable [Facts]

def fn {F : FTy → Type} [FloatOps F] (main_arg0 : FVec F S1024x512 .f32) : IVec S_ 1 :=
  let main_v0 : FVec F S1024x512 .f32 := Host.absf main_arg0
  let main_cst : FVec F S_ .f32 := constant S_ .f32 0x7F800000#32
  let main_v1 : FVec F S1024x512 .f32 := broadcastInDim S1024x512 ![] bcast_S_S1024x512 main_cst
  let main_v2 : IVec S1024x512 1 := cmpf .olt main_v0 main_v1
  let main_c : IVec S_ 1 := constantI S_ 1 1#1
  let main_v3 : IVec S_ 1 := (fun x v => Host.reduce IntOp.andi x v reducesTo_S1024x512_S_d0_1 h_S_) main_v2 main_c
  main_v3
-- ==== Pre_finite_inputs_ReferenceIdeal.lean ====
abbrev S4096x512 : Shape := ⟨2, ![4096, 512]⟩
abbrev S_ : Shape := ⟨0, ![]⟩

class Facts : Prop where
  bcast_S_S4096x512 : S_.BroadcastsInDim S4096x512 (![] : Fin 0 → Fin S4096x512.rank)
  reducesTo_S4096x512_S_d0_1 : S4096x512.ReducesTo [0, 1] S_
  h_S_ : 0 < S_.numel

variable [Facts]

def fn {F : FTy → Type} [FloatOps F] (main_arg0 : FVec F S4096x512 .f32) : IVec S_ 1 :=
  let main_v0 : FVec F S4096x512 .f32 := Host.absf main_arg0
  let main_cst : FVec F S_ .f32 := constant S_ .f32 0x7F800000#32
  let main_v1 : FVec F S4096x512 .f32 := broadcastInDim S4096x512 ![] bcast_S_S4096x512 main_cst
  let main_v2 : IVec S4096x512 1 := cmpf .olt main_v0 main_v1
  let main_c : IVec S_ 1 := constantI S_ 1 1#1
  let main_v3 : IVec S_ 1 := (fun x v => Host.reduce IntOp.andi x v reducesTo_S4096x512_S_d0_1 h_S_) main_v2 main_c
  main_v3
-- ==== Kernel.lean ====
abbrev S1024x512 : Shape := ⟨2, ![1024, 512]⟩
abbrev S1x512 : Shape := ⟨2, ![1, 512]⟩
abbrev S4x1x512 : Shape := ⟨3, ![4, 1, 512]⟩
abbrev S3 : Shape := ⟨1, ![3]⟩
abbrev S_ : Shape := ⟨0, ![]⟩
abbrev S512 : Shape := ⟨1, ![512]⟩
abbrev S1x1x512 : Shape := ⟨3, ![1, 1, 512]⟩
abbrev S1 : Shape := ⟨1, ![1]⟩

abbrev nBuf : Space → Nat
  | .hbm => 2
  | .vmem => 3
  | .smem => 0
  | _ => 0

abbrev bufTy : (tb : Table) → Fin (tcTables nBuf tb) → BufTy
  | .hbm, ⟨0, _⟩ => ⟨S1024x512, .f32⟩
  | .hbm, ⟨1, _⟩ => ⟨S1x512, .f32⟩
  | .local _ .vmem, ⟨0, _⟩ => ⟨S1024x512, .f32⟩
  | .local _ .vmem, ⟨1, _⟩ => ⟨S1x512, .f32⟩
  | .local _ .vmem, ⟨2, _⟩ => ⟨S4x1x512, .f32⟩
  | _, _ => ⟨S1024x512, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 1 → Bool
  | ⟨0, _⟩ => false
  | _ => false

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  (ofTc nBuf bufTy 1 8 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_sem0_0 : DmaSem sig := 0
abbrev cc0_sem1_0 : DmaSem sig := 1
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.addi v2 c1_i32_0
  let c4_i32_1 : BitVec 32 := 4#32
  let c0_i32 : BitVec 32 := 0#32
  let v5 : BitVec 1 := Scalar.cmpi .eq c4_i32_1 c0_i32
  let c1_i32_2 : BitVec 32 := 1#32
  let v6 : BitVec 32 := Scalar.select v5 c1_i32_2 c4_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1_i32_7 : BitVec 32 := 1#32
  let v15 : BitVec 32 := Scalar.muli v14 c1_i32_7
  let v16 : BitVec 32 := Scalar.addi c0_i32_8 v15
  v16.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v17 : BitVec 32 := Scalar.addi v2 c2_i32
  let c4_i32_9 : BitVec 32 := 4#32
  let c0_i32_10 : BitVec 32 := 0#32
  let v18 : BitVec 1 := Scalar.cmpi .eq c4_i32_9 c0_i32_10
  let c1_i32_11 : BitVec 32 := 1#32
  let v19 : BitVec 32 := Scalar.select v18 c1_i32_11 c4_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v30 : BitVec 32 := Scalar.addi v2 c3_i32
  let c4_i32_18 : BitVec 32 := 4#32
  let c0_i32_19 : BitVec 32 := 0#32
  let v31 : BitVec 1 := Scalar.cmpi .eq c4_i32_18 c0_i32_19
  let c1_i32_20 : BitVec 32 := 1#32
  let v32 : BitVec 32 := Scalar.select v31 c1_i32_20 c4_i32_18
  let v33 : BitVec 32 := Scalar.remsi v30 v32
  let c0_i32_22 : BitVec 32 := 0#32
  let v35 : BitVec 1 := Scalar.cmpi .slt v33 c0_i32_22
  let c0_i32_23 : BitVec 32 := 0#32
  let v36 : BitVec 1 := Scalar.cmpi .slt v32 c0_i32_23
  let v37 : BitVec 1 := Scalar.xori v35 v36
  let c0_i32_21 : BitVec 32 := 0#32
  let v34 : BitVec 1 := Scalar.cmpi .ne v33 c0_i32_21
  let v38 : BitVec 1 := Scalar.andi v37 v34
  let v39 : BitVec 32 := Scalar.addi v33 v32
  let v40 : BitVec 32 := Scalar.select v38 v39 v33
  let c1_i32_25 : BitVec 32 := 1#32
  let v41 : BitVec 32 := Scalar.muli v40 c1_i32_25
  let v42 : BitVec 32 := Scalar.addi c0_i32_26 v41
  v42.toNat
def k0_dev4 (d0 : Dev nD) : Nat :=
  let c0_i32_44 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_32 : BitVec 32 := 1#32
  let v52 : BitVec 32 := Scalar.addi v2 c1_i32_32
  let c4_i32_33 : BitVec 32 := 4#32
  let c0_i32_34 : BitVec 32 := 0#32
  let v53 : BitVec 1 := Scalar.cmpi .eq c4_i32_33 c0_i32_34
  let c1_i32_35 : BitVec 32 := 1#32
  let v54 : BitVec 32 := Scalar.select v53 c1_i32_35 c4_i32_33
  let v55 : BitVec 32 := Scalar.remsi v52 v54
  let c0_i32_37 : BitVec 32 := 0#32
  let v57 : BitVec 1 := Scalar.cmpi .slt v55 c0_i32_37
  let c0_i32_38 : BitVec 32 := 0#32
  let v58 : BitVec 1 := Scalar.cmpi .slt v54 c0_i32_38
  let v59 : BitVec 1 := Scalar.xori v57 v58
  let c0_i32_36 : BitVec 32 := 0#32
  let v56 : BitVec 1 := Scalar.cmpi .ne v55 c0_i32_36
  let v60 : BitVec 1 := Scalar.andi v59 v56
  let v61 : BitVec 32 := Scalar.addi v55 v54
  let v62 : BitVec 32 := Scalar.select v60 v61 v55
  let c1_i32_43 : BitVec 32 := 1#32
  let v63 : BitVec 32 := Scalar.muli v62 c1_i32_43
  let v64 : BitVec 32 := Scalar.addi c0_i32_44 v63
  v64.toNat
def k0_dev5 (d0 : Dev nD) : Nat :=
  let c0_i32_61 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_49 : BitVec 32 := 2#32
  let v73 : BitVec 32 := Scalar.addi v2 c2_i32_49
  let c4_i32_50 : BitVec 32 := 4#32
  let c0_i32_51 : BitVec 32 := 0#32
  let v74 : BitVec 1 := Scalar.cmpi .eq c4_i32_50 c0_i32_51
  let c1_i32_52 : BitVec 32 := 1#32
  let v75 : BitVec 32 := Scalar.select v74 c1_i32_52 c4_i32_50
  let v76 : BitVec 32 := Scalar.remsi v73 v75
  let c0_i32_54 : BitVec 32 := 0#32
  let v78 : BitVec 1 := Scalar.cmpi .slt v76 c0_i32_54
  let c0_i32_55 : BitVec 32 := 0#32
  let v79 : BitVec 1 := Scalar.cmpi .slt v75 c0_i32_55
  let v80 : BitVec 1 := Scalar.xori v78 v79
  let c0_i32_53 : BitVec 32 := 0#32
  let v77 : BitVec 1 := Scalar.cmpi .ne v76 c0_i32_53
  let v81 : BitVec 1 := Scalar.andi v80 v77
  let v82 : BitVec 32 := Scalar.addi v76 v75
  let v83 : BitVec 32 := Scalar.select v81 v82 v76
  let c1_i32_60 : BitVec 32 := 1#32
  let v84 : BitVec 32 := Scalar.muli v83 c1_i32_60
  let v85 : BitVec 32 := Scalar.addi c0_i32_61 v84
  v85.toNat
def k0_dev6 (d0 : Dev nD) : Nat :=
  let c0_i32_78 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_66 : BitVec 32 := 3#32
  let v94 : BitVec 32 := Scalar.addi v2 c3_i32_66
  let c4_i32_67 : BitVec 32 := 4#32
  let c0_i32_68 : BitVec 32 := 0#32
  let v95 : BitVec 1 := Scalar.cmpi .eq c4_i32_67 c0_i32_68
  let c1_i32_69 : BitVec 32 := 1#32
  let v96 : BitVec 32 := Scalar.select v95 c1_i32_69 c4_i32_67
  let v97 : BitVec 32 := Scalar.remsi v94 v96
  let c0_i32_71 : BitVec 32 := 0#32
  let v99 : BitVec 1 := Scalar.cmpi .slt v97 c0_i32_71
  let c0_i32_72 : BitVec 32 := 0#32
  let v100 : BitVec 1 := Scalar.cmpi .slt v96 c0_i32_72
  let v101 : BitVec 1 := Scalar.xori v99 v100
  let c0_i32_70 : BitVec 32 := 0#32
  let v98 : BitVec 1 := Scalar.cmpi .ne v97 c0_i32_70
  let v102 : BitVec 1 := Scalar.andi v101 v98
  let v103 : BitVec 32 := Scalar.addi v97 v96
  let v104 : BitVec 32 := Scalar.select v102 v103 v97
  let c1_i32_77 : BitVec 32 := 1#32
  let v105 : BitVec 32 := Scalar.muli v104 c1_i32_77
  let v106 : BitVec 32 := Scalar.addi c0_i32_78 v105
  v106.toNat
abbrev stage0_0 : Fin 1 → Memref sig .tc .vmem S1024x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

class Facts₀ : Prop where
  hamt_1 : (1#32 : BitVec 32).msb = false
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  reduces_S1024x512_S512 : S1024x512.Reduces [0] S512
  shapeCasts_S512_S1x512 : S512.ShapeCasts S1x512
  inb_S4x1x512_S1x1x512_3_0_0 : ∀ a, (![3, 0, 0] : Fin 3 → Nat) a + S1x1x512.size a ≤ S4x1x512.size a
  h_S1x1x512 : 0 < S1x1x512.numel
  shapeCasts_S1x1x512_S1x512 : S1x1x512.ShapeCasts S1x512
  shapeCasts_S1x512_S1x1x512 : S1x512.ShapeCasts S1x1x512
  hamt_3 : (3#32 : BitVec 32).msb = false
  inb_S3_S1_0 : ∀ a, (![0] : Fin 1 → Nat) a + S1.size a ≤ S3.size a
  squeezes_S1_S_ : S1.Squeezes S_
  inb_S4x1x512_S1x1x512_0_0_0 : ∀ a, (![0, 0, 0] : Fin 3 → Nat) a + S1x1x512.size a ≤ S4x1x512.size a
  squeezes_S1x1x512_S1x512 : S1x1x512.Squeezes S1x512
  inb_S3_S1_1 : ∀ a, (![1] : Fin 1 → Nat) a + S1.size a ≤ S3.size a
  inb_S4x1x512_S1x1x512_1_0_0 : ∀ a, (![1, 0, 0] : Fin 3 → Nat) a + S1x1x512.size a ≤ S4x1x512.size a
  inb_S3_S1_2 : ∀ a, (![2] : Fin 1 → Nat) a + S1.size a ≤ S3.size a
  inb_S4x1x512_S1x1x512_2_0_0 : ∀ a, (![2, 0, 0] : Fin 3 → Nat) a + S1x1x512.size a ≤ S4x1x512.size a
  inb_S1x512_S1x512_0_0 : ∀ a, (![0, 0] : Fin 2 → Nat) a + S1x512.size a ≤ S1x512.size a
  h_S1x512 : 0 < S1x512.numel
  hcc0_scratch1 : 2 + S3.numel ≤ 8
  hcc0_scratch2 : 5 + S3.numel ≤ 8
  k0_dev1_lt : ∀ d0 : Dev nD, (k0_dev1 d0) < nD
  k0_dev2_lt : ∀ d0 : Dev nD, (k0_dev2 d0) < nD
  k0_dev3_lt : ∀ d0 : Dev nD, (k0_dev3 d0) < nD
  k0_dev4_lt : ∀ d0 : Dev nD, (k0_dev4 d0) < nD
  k0_dev5_lt : ∀ d0 : Dev nD, (k0_dev5 d0) < nD
  k0_dev6_lt : ∀ d0 : Dev nD, (k0_dev6 d0) < nD
  hstage0_0 : ∀ j, (stage0_0 j).IsWhole
  hstage0_1 : ∀ j, (stage0_1 j).IsWhole

variable [Facts₀]

abbrev cc0_scratch1 : DmaSems sig S3 := SemArray.consecutive 2 S3 hcc0_scratch1
abbrev cc0_scratch2 : DmaSems sig S3 := SemArray.consecutive 5 S3 hcc0_scratch2

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_v1) true false (stage0_1 0) (sem0_1 0) (Memref.isWhole_whole _) (hstage0_1 0)

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S4096x512 : Shape := ⟨2, ![4096, 512]⟩
abbrev S_ : Shape := ⟨0, ![]⟩
abbrev S512 : Shape := ⟨1, ![512]⟩
abbrev S1x512 : Shape := ⟨2, ![1, 512]⟩

abbrev nBuf : Space → Nat
  | .hbm => 7
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S_, .f32⟩
  | .hbm, ⟨2, _⟩ => ⟨S512, .f32⟩
  | .hbm, ⟨3, _⟩ => ⟨S1x512, .f32⟩
  | .hbm, ⟨4, _⟩ => ⟨S_, .f32⟩
  | .hbm, ⟨5, _⟩ => ⟨S1x512, .f32⟩
  | .hbm, ⟨6, _⟩ => ⟨S1x512, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_cst_0 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]

class Facts₀ : Prop where
  reducesTo_S4096x512_S512_d0 : S4096x512.ReducesTo [0] S512
  h_S_ : 0 < S_.numel
  bcast_S512_S1x512_1 : S512.BroadcastsInDim S1x512 (![1] : Fin 1 → Fin S1x512.rank)
  bcast_S_S1x512 : S_.BroadcastsInDim S1x512 (![] : Fin 0 → Fin S1x512.rank)

variable [Facts₀]

class Facts : Prop extends Facts₀ where

variable [Facts]
-- ==== Proof.MeanRef.lean ====
import proofs.«900938_g7700000000000939_dist_mean_ax0_shard0_i_m1024_n512_v7x_i4_bf16_1_alg».proof.Defs
import proofs.«900938_g7700000000000939_dist_mean_ax0_shard0_i_m1024_n512_v7x_i4_bf16_1_alg».proof.Proof.Gen.ReferenceIdeal.Run
import proofs.«900938_g7700000000000939_dist_mean_ax0_shard0_i_m1024_n512_v7x_i4_bf16_1_alg».proof.Proof.Gen.ReferenceIdeal.Read
-- ==== Proof.MeanAlg.lean ====
/-
  The algebra behind a mean taken in blocks, over the extended reals.

  An array of `k * n` rows is cut into `k` blocks of `n` rows. Each block's rows are summed and the sum scaled
  by a real constant `c`; the `k` scaled block sums are then added up, in any order. When every entry is a real
  number this is the sum of all `k * n` rows scaled by `c` once: multiplication distributes over a sum of REALS
  (it does not over the extended reals in general, where `⊤ + ⊥` meets a product), while reordering a sum needs
  nothing. The file states: the coercion of a finite real sum, the scaled sum of reals, the sum over `Fin (k * n)`
  as a double sum over blocks and rows, and four summands indexed by four distinct elements of `Fin 4` as the sum
  over `Fin 4`.
-/
import Mathlib.Data.EReal.Basic
import Mathlib.Data.Fintype.BigOperators
import Mathlib.Algebra.BigOperators.Group.Finset.Basic
import Mathlib.Algebra.BigOperators.Ring.Finset
import Mathlib.Algebra.BigOperators.Fin
import Mathlib.Logic.Equiv.Fin.Basic

open scoped BigOperators

namespace Cert.MeanAlg

/-- The coercion from the reals to the extended reals commutes with a finite sum. -/
theorem coe_sum {ι : Type} (s : Finset ι) (f : ι → ℝ) :
    ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-- A sum of extended reals that are all real is real. -/
theorem sum_real {ι : Type} (s : Finset ι) (f : ι → EReal) (hf : ∀ i ∈ s, ∃ t : ℝ, f i = (t : EReal)) :
    ∃ t : ℝ, ∑ i ∈ s, f i = (t : EReal) := by
  classical
  induction s using Finset.induction_on with
  | empty => exact ⟨0, by simp⟩
  | insert a s ha ih =>
    obtain ⟨u, hu⟩ := hf a (Finset.mem_insert_self a s)
    obtain ⟨v, hv⟩ := ih fun i hi => hf i (Finset.mem_insert_of_mem hi)
    exact ⟨u + v, by rw [Finset.sum_insert ha, hu, hv, EReal.coe_add]⟩

/-- Scaling by a real constant distributes over a finite sum of reals, inside the extended reals. -/
theorem sum_mul_of_real {ι : Type} (s : Finset ι) (f : ι → EReal) (hf : ∀ i ∈ s, ∃ t : ℝ, f i = (t : EReal)) (c : ℝ) :
    ∑ i ∈ s, f i * (c : EReal) = (∑ i ∈ s, f i) * (c : EReal) := by
  classical
  induction s using Finset.induction_on with
  | empty => simp
  | insert a s ha ih =>
    obtain ⟨u, hu⟩ := hf a (Finset.mem_insert_self a s)
    obtain ⟨v, hv⟩ := sum_real s f fun i hi => hf i (Finset.mem_insert_of_mem hi)
    rw [Finset.sum_insert ha, Finset.sum_insert ha, ih fun i hi => hf i (Finset.mem_insert_of_mem hi), hu, hv,
      ← EReal.coe_mul, ← EReal.coe_mul, ← EReal.coe_add, ← EReal.coe_add, ← EReal.coe_mul, add_mul]

/-- THE LAW. Block sums scaled one by one and added are the sum of all entries, from zero, scaled once — for real
    entries and a real scale. -/
theorem blocks_scaled {ι κ : Type} [Fintype ι] [Fintype κ] (x : ι → κ → EReal)
    (hx : ∀ d r, ∃ t : ℝ, x d r = (t : EReal)) (c : ℝ) :
    ∑ d, (∑ r, x d r) * (c : EReal) = (0 + ∑ d, ∑ r, x d r) * (c : EReal) := by
  rw [zero_add]
  exact sum_mul_of_real Finset.univ (fun d => ∑ r, x d r) (fun d _ => sum_real Finset.univ (x d) fun r _ => hx d r) c

/-- A sum over `k * n` rows is the sum over the `k` blocks of the sum over each block's `n` rows, row `r` of block
    `d` being row `d * n + r`. -/
theorem sum_rows_blocks {M : Type} [AddCommMonoid M] (k n : ℕ) (f : Fin (k * n) → M) :
    ∑ i, f i = ∑ d : Fin k, ∑ r : Fin n,
      f ⟨d.val * n + r.val, by
        calc d.val * n + r.val < d.val * n + n := Nat.add_lt_add_left r.isLt _
          _ = (d.val + 1) * n := (Nat.succ_mul _ _).symm
          _ ≤ k * n := Nat.mul_le_mul_right _ d.isLt⟩ := by
  rw [← Equiv.sum_comp (finProdFinEquiv (m := k) (n := n)) f, Fintype.sum_prod_type]
  refine Finset.sum_congr rfl fun d _ => Finset.sum_congr rfl fun r _ => congrArg f (Fin.ext ?_)
  show r.val + n * d.val = d.val * n + r.val
  rw [Nat.add_comm, Nat.mul_comm]

/-- Four distinct elements of `Fin 4` are all of it. -/
theorem univ_eq_of_nodup : ∀ d0 d1 d2 d3 : Fin 4, [d0, d1, d2, d3].Nodup →
    (Finset.univ : Finset (Fin 4)) = {d0, d1, d2, d3} := by decide

/-- So four summands taken at four distinct elements of `Fin 4`, added left to right, are the sum over `Fin 4`. -/
theorem sum_four {M : Type} [AddCommMonoid M] (g : Fin 4 → M) (d0 d1 d2 d3 : Fin 4) (hnd : [d0, d1, d2, d3].Nodup) :
    ((g d0 + g d1) + g d2) + g d3 = ∑ d, g d := by
  have h01 : d0 ∉ ({d1, d2, d3} : Finset (Fin 4)) := by
    intro h; simp only [Finset.mem_insert, Finset.mem_singleton] at h
    simp only [List.nodup_cons, List.mem_cons, List.not_mem_nil, or_false, not_or] at hnd
    rcases h with h | h | h
    · exact hnd.1.1 h
    · exact hnd.1.2.1 h
    · exact hnd.1.2.2 h
  have h12 : d1 ∉ ({d2, d3} : Finset (Fin 4)) := by
    intro h; simp only [Finset.mem_insert, Finset.mem_singleton] at h
    simp only [List.nodup_cons, List.mem_cons, List.not_mem_nil, or_false, not_or] at hnd
    rcases h with h | h
    · exact hnd.2.1.1 h
    · exact hnd.2.1.2 h
  have h23 : d2 ∉ ({d3} : Finset (Fin 4)) := by
    intro h; simp only [Finset.mem_singleton] at h
    simp only [List.nodup_cons, List.mem_cons, List.not_mem_nil, or_false, not_or] at hnd
    exact hnd.2.2.1 h
  rw [univ_eq_of_nodup d0 d1 d2 d3 hnd, Finset.sum_insert h01, Finset.sum_insert h12, Finset.sum_insert h23,
    Finset.sum_singleton, add_assoc, add_assoc]

/-- info: 'Cert.MeanAlg.blocks_scaled' depends on axioms: [propext, Classical.choice, Quot.sound] -/
#guard_msgs in #print axioms blocks_scaled

end Cert.MeanAlg
-- ==== Proof.MeanValue.lean ====
/-
  THE VALUE OF A MEAN OVER ROWS TAKEN IN FOUR BLOCKS, at the ideal values (extended reals, exact operations).

  An array `A` of 4096 rows and 512 columns is cut along its rows into four blocks of 1024 rows; block `d` is
  `X d`, its row `r` being row `d · 1024 + r` of `A`. The first payload, `k0_pay1`, sums a block's 1024 rows column
  by column and scales each column sum by the f32 constant `0x39800000`, which is 2⁻¹² = 1/4096, as a [1, 1, 512]
  array; the second, `k0_pay2`, adds four such arrays left to right, `((p + q) + r) + s`, as a [1, 512] array. The
  reference sums all 4096 rows of `A` column by column from zero and divides by the f32 constant `0x45800000`,
  which is 4096.

  `result_eq`: when every entry of every block is a real number, `k0_pay2` of the four blocks' `k0_pay1`, the
  blocks taken in ANY order (four distinct block numbers), is the reference's result. Column by column this is
      ((S d₀ · c + S d₁ · c) + S d₂ · c) + S d₃ · c = (0 + Σ_k A k n) / 4096,     S d = Σ_r X d r n,  c = 1/4096:
  the left side is Σ_d S d · c whatever the order (addition of extended reals commutes and associates); division by
  the real 4096 is multiplication by 1/4096; the sum over 4096 rows is the double sum over blocks and rows; and
  the scale comes out of the sum because the entries are real (MeanAlg.lean: over the extended reals a product
  does not distribute over a sum in general).

  `real_of_pre`: the printed finiteness predicate of a block — every `|x| < +∞`, all of them and-ed into one bit —
  being 1 says that every entry of the block is a real number: `max x (−x) < ⊤` fails at both infinities.
-/
import proofs.«900938_g7700000000000939_dist_mean_ax0_shard0_i_m1024_n512_v7x_i4_bf16_1_alg».proof.Proof.Gen.KernelIdeal.Skeleton
import proofs.«900938_g7700000000000939_dist_mean_ax0_shard0_i_m1024_n512_v7x_i4_bf16_1_alg».proof.Proof.Gen.ReferenceIdeal.Read
import proofs.«900938_g7700000000000939_dist_mean_ax0_shard0_i_m1024_n512_v7x_i4_bf16_1_alg».proof.Proof.Gen.Pre_finite_inputs_Kernel
import proofs.«900938_g7700000000000939_dist_mean_ax0_shard0_i_m1024_n512_v7x_i4_bf16_1_alg».proof.Proof.MeanAlg
import Idealize.ShloMosaic.Lib.Layout
import Idealize.ShloMosaic.Lib.ValueIdx
import Idealize.ShloMosaic.Lib.ValueLayout
import Idealize.ShloMosaic.Lib.IdealHost
import Idealize.ShloMosaic.Lib.ReduceAll
import Idealize.ShloMosaic.PureOps.Ideal.Laws

noncomputable section

open scoped BigOperators

namespace Cert.MeanValue

open Idealize.ShloMosaic Idealize.ShloMosaic.ValueIdx Cert.KernelIdeal Cert.KernelIdeal.Gen

/-! ## The three f32 constants as extended reals -/

/-- The pattern `0x7F800000` (exponent all ones, significand zero) is `+∞`. -/
theorem ofBits_inf : Ideal.ofBits .f32 0x7F800000#32 = ⊤ := by simp [Ideal.ofBits, Ideal.ieee]

/-- The pattern `0x39800000` (exponent 115 = 127 − 12, significand zero) is the real 2⁻¹² = 1/4096. -/
theorem ofBits_scale : Ideal.ofBits .f32 0x39800000#32 = ((1 / 4096 : ℝ) : EReal) := by
  simp [Ideal.ofBits, Ideal.ieee, -EReal.coe_mul]; norm_num

/-- The pattern `0x45800000` (exponent 139 = 127 + 12, significand zero) is the real 2¹² = 4096. -/
theorem ofBits_count : Ideal.ofBits .f32 0x45800000#32 = ((4096 : ℝ) : EReal) := by
  simp [Ideal.ofBits, Ideal.ieee, -EReal.coe_mul]; norm_num

/-! ## Finiteness: the predicate's bit says every entry is real -/

/-- The scalar shape has one index. -/
instance : Subsingleton Cert.Pre_finite_inputs_Kernel.S_.Idx := ⟨fun a b => funext fun d => d.elim0⟩

/-- If the and over all entries of `|x| < +∞` is 1, every entry is a real number: the and being 1 gives the
    comparison at each entry; `|x|` is `max x (−x)`, which is `⊤` at `⊥` and at `⊤`. -/
theorem real_of_pre (X : FVec Ideal Cert.KernelIdeal.S1024x512 .f32)
    (h : Cert.Pre_finite_inputs_Kernel.fn (F := Ideal) X = fun _ => 1#1) (i : Cert.KernelIdeal.S1024x512.Idx) :
    ∃ r : ℝ, X i = (r : EReal) := by
  have h0 := congrFun h ValueIdx.ix0
  dsimp only [Cert.Pre_finite_inputs_Kernel.fn] at h0
  have hi := Host.reduce_andi_all _ _ _ _ _ h0 i
  rw [cmpf_apply, broadcastInDim_scalar_apply, constant_apply, ofBits_inf] at hi
  have hlt : max (X i) (-(X i)) < ⊤ := by
    by_contra hn
    have h1 : FloatOps.cmpf .olt (Host.absf X i) (⊤ : EReal) = 0#1 := by
      show BitVec.ofBool (decide (max (X i) (-(X i)) < ⊤)) = 0#1
      rw [decide_eq_false hn]; rfl
    rw [h1] at hi; exact absurd hi (by decide)
  generalize X i = x at hlt ⊢
  induction x using EReal.rec with
  | bot => simp at hlt
  | top => simp at hlt
  | coe r => exact ⟨r, rfl⟩

/-! ## The two payloads and the reference, column by column -/

/-- A block's scaled column sums at column `n`: the casts keep the element, the reduction over axis 0 is the sum
    over the 1024 row coordinates, the splat constant reads itself. -/
theorem pay1_apply (X : FVec Ideal Cert.KernelIdeal.S1024x512 .f32) (n : Fin 512) :
    k0_pay1 (F := Ideal) X (ix3 (0 : Fin 1) (0 : Fin 1) n)
      = (∑ r : Fin 1024, X (ix2 r n)) * Ideal.ofBits .f32 0x39800000#32 := by
  unfold k0_pay1
  dsimp only
  rw [shapeCast_ab_1ab_apply, mulf_apply, broadcast_apply, shapeCast_a_1a_apply, shapeCast_self]
  show _ * Ideal.ofBits .f32 0x39800000#32 = _
  refine congrArg (· * Ideal.ofBits .f32 0x39800000#32) ?_
  refine (Ideal.multiReduction_add_single X _ reduces_S1024x512_S512 _ _ (ix1 n)).trans ?_
  refine Finset.sum_congr rfl fun r _ => congrArg X (funext fun a => ?_)
  match a with
  | ⟨0, _⟩ => rfl
  | ⟨1, _⟩ => rfl

/-- The sum of four [1, 1, 512] arrays at column `n`: each cast drops the leading unit axis, the three additions
    associate to the left. -/
theorem pay2_apply (p q r s : FVec Ideal Cert.KernelIdeal.S1x1x512 .f32) (n : Fin 512) :
    k0_pay2 (F := Ideal) p q r s (ix2 (0 : Fin 1) n)
      = ((p (ix3 (0 : Fin 1) (0 : Fin 1) n) + q (ix3 (0 : Fin 1) (0 : Fin 1) n)) + r (ix3 (0 : Fin 1) (0 : Fin 1) n))
          + s (ix3 (0 : Fin 1) (0 : Fin 1) n) := by
  unfold k0_pay2
  rw [addf_apply, addf_apply, addf_apply, shapeCast_1ab_ab_apply, shapeCast_1ab_ab_apply, shapeCast_1ab_ab_apply,
    shapeCast_1ab_ab_apply]

/-- The reference at column `n`: zero plus the sum of column `n` over all 4096 rows, divided by the constant. -/
theorem ref_apply (A : FVec Ideal Cert.ReferenceIdeal.S4096x512 .f32) (n : Fin 512) :
    Cert.ReferenceIdeal.Read.val_main_v3 (F := Ideal) A (ix2 (0 : Fin 1) n)
      = Ideal.div (Ideal.ofBits .f32 0x00000000#32 + ∑ k : Fin 4096, A (ix2 k n)) (Ideal.ofBits .f32 0x45800000#32) := by
  rw [Cert.ReferenceIdeal.Read.val_main_v3_apply, Cert.ReferenceIdeal.Read.val_main_v1_apply,
    Cert.ReferenceIdeal.Read.val_main_v0_apply, Cert.ReferenceIdeal.Read.val_main_v2_apply,
    Cert.ReferenceIdeal.Read.val_main_cst_0_apply, Cert.ReferenceIdeal.Read.val_main_cst_apply]
  have hidx : ∀ k : Fin 4096, Cert.ReferenceIdeal.Read.idx_main_v0
      (Cert.ReferenceIdeal.Read.idx_main_v1 (ix2 (0 : Fin 1) n)) k = ix2 k n :=
    fun k => funext fun a => Fin.ext (by match a with | ⟨0, _⟩ => rfl | ⟨1, _⟩ => rfl)
  simp only [hidx]
  rfl

/-! ## A block's row in the whole array -/

/-- Row `r` of block `d` is row `d · 1024 + r` of the whole array, the column the same. -/
theorem block_row (A : FVec Ideal Cert.ReferenceIdeal.S4096x512 .f32) (d : Fin 4) (r : Fin 1024) (n : Fin 512) :
    (Layout.block ⟨2, ![1024, 512]⟩ ⟨2, ![4096, 512]⟩ 0 4 d A) (ix2 r n)
      = A (ix2 (⟨d.val * 1024 + r.val, by omega⟩ : Fin 4096) n) := by
  rw [Layout.block_apply]
  refine congrArg A (funext fun a => Fin.ext ?_)
  match a with
  | ⟨0, _⟩ => rfl
  | ⟨1, _⟩ => rfl

/-! ## The two sides agree -/

/-- The four blocks' scaled column sums, added in the order `d0, d1, d2, d3` of any four distinct block numbers,
    are the mean over all 4096 rows, when every entry of every block is real. -/
theorem result_eq (A : FVec Ideal Cert.ReferenceIdeal.S4096x512 .f32) (X : Dev Cert.KernelIdeal.nD → FVec Ideal Cert.KernelIdeal.S1024x512 .f32)
    (hX : ∀ d, X d = Layout.block ⟨2, ![1024, 512]⟩ ⟨2, ![4096, 512]⟩ 0 4 d A)
    (hfin : ∀ d i, ∃ r : ℝ, X d i = (r : EReal))
    (d0 d1 d2 d3 : Dev Cert.KernelIdeal.nD) (hnd : [d0, d1, d2, d3].Nodup) :
    k0_pay2 (F := Ideal) (k0_pay1 (F := Ideal) (X d0)) (k0_pay1 (F := Ideal) (X d1)) (k0_pay1 (F := Ideal) (X d2)) (k0_pay1 (F := Ideal) (X d3)) = Cert.ReferenceIdeal.Read.val_main_v3 (F := Ideal) A := by
  funext j
  obtain ⟨u, n, rfl⟩ : ∃ (u : Fin 1) (n : Fin 512), j = ix2 u n := ⟨j 0, j 1, eq_ix2 j⟩
  obtain rfl : u = 0 := Subsingleton.elim _ _
  -- both sides at column `n`; the constants as reals; division by 4096 as multiplication by 1/4096
  rw [pay2_apply, pay1_apply, pay1_apply, pay1_apply, pay1_apply, ref_apply, ofBits_scale, ofBits_count,
    Ideal.div_coe (by norm_num), Ideal.ofBits_zero_f32]
  -- the four summands in the given order are the sum over the four blocks
  refine (Cert.MeanAlg.sum_four (fun d : Fin 4 => (∑ r : Fin 1024, X d (ix2 r n)) * ((1 / 4096 : ℝ) : EReal))
    d0 d1 d2 d3 hnd).trans ?_
  -- the scale comes out of the sum of real entries
  refine (Cert.MeanAlg.blocks_scaled (fun (d : Fin 4) (r : Fin 1024) => X d (ix2 r n))
    (fun d r => hfin d (ix2 r n)) (1 / 4096)).trans ?_
  refine congrArg (fun t => (0 + t) * ((1 / 4096 : ℝ) : EReal)) ?_
  -- the 4096 rows are the four blocks' 1024 rows
  rw [Cert.MeanAlg.sum_rows_blocks 4 1024 (fun k : Fin 4096 => A (ix2 k n))]
  refine Finset.sum_congr rfl fun d _ => Finset.sum_congr rfl fun r _ => ?_
  rw [hX d, block_row]

/-- info: 'Cert.MeanValue.real_of_pre' depends on axioms: [propext, Classical.choice, Quot.sound] -/
#guard_msgs in #print axioms real_of_pre

/-- info: 'Cert.MeanValue.result_eq' depends on axioms: [propext, Classical.choice, Quot.sound] -/
#guard_msgs in #print axioms result_eq

end Cert.MeanValue

end
-- ==== Proof.KernelIdeal.Proto.lean ====
/-
  A mean over the rows of an array cut into four row blocks, one block per device. Each device sums the
  rows of its own block, scales the sum by 2^-12, stores that partial mean in row 3 of a four-row scratch
  buffer, sends it to the three other devices (into row j of the device j + 1 places further round the
  ring, j = 0, 1, 2), and adds the four rows it then holds.

  The protocol, as rounds of duties on semaphore cells. One round, round 0. A device's barrier cell has
  three duties, one unit each, duty d paid by the device that will receive this device's copy d, its payload
  that receiver's row d and that the receiver stands at round 0 of its receive cell d. A receive cell d has
  one duty, the copy's credit, its payload row d holding the sender's partial mean. A send cell d has one
  duty, the copy's credit, its payload a quarter share of the sender's own row 3, given back when the copy
  has read it. Levels: barrier cells at 1, receive cells at 2, everything else at 0, so a device that waits
  on its barrier owes only receive credits, and owes nothing at any later wait.
-/
import proofs.«900938_g7700000000000939_dist_mean_ax0_shard0_i_m1024_n512_v7x_i4_bf16_1_alg».proof.Defs
import proofs.«900938_g7700000000000939_dist_mean_ax0_shard0_i_m1024_n512_v7x_i4_bf16_1_alg».proof.Proof.Gen.KernelIdeal
import proofs.«900938_g7700000000000939_dist_mean_ax0_shard0_i_m1024_n512_v7x_i4_bf16_1_alg».proof.Proof.Gen.KernelIdeal.Skeleton
import proofs.«900938_g7700000000000939_dist_mean_ax0_shard0_i_m1024_n512_v7x_i4_bf16_1_alg».proof.Proof.Gen.KernelIdeal.Launch
import Idealize.ShloMosaic.Lib.Pipeline.Launch
import Idealize.ShloMosaic.Lib.Pipeline.Kit
import Idealize.ShloMosaic.Lib.ReshapeSlab
import Idealize.ShloMosaic.Lib.Writes
import Idealize.ShloMosaic.Lib.Tactic

noncomputable section

namespace Cert.KernelIdeal.Mean

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline library's copy (duties `Unit`) and the protocol's (duties `Fin 3`) -/

abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## The ring of four devices -/

/-- The device `k` places further round the ring. -/
def peer (k : ℕ) (c : Dev nD) : Dev nD := ⟨(c.val + k) % 4, Nat.mod_lt _ (by decide)⟩

/-- The device whose row `j` device `c` writes, and the device that writes row `j` of `c`. -/
def tgt (j : Fin 3) (c : Dev nD) : Dev nD := peer (j.val + 1) c
def src (j : Fin 3) (c : Dev nD) : Dev nD := peer (3 - j.val) c

theorem src_tgt (j : Fin 3) (c : Dev nD) : src j (tgt j c) = c := by revert j c; decide
theorem tgt_src (j : Fin 3) (c : Dev nD) : tgt j (src j c) = c := by revert j c; decide

def tgtEquiv (j : Fin 3) : Dev nD ≃ Dev nD := ⟨tgt j, src j, src_tgt j, tgt_src j⟩
def srcEquiv (j : Fin 3) : Dev nD ≃ Dev nD := ⟨src j, tgt j, tgt_src j, src_tgt j⟩

/-- The kernel's six `device_id` chains: the signals name the devices 1, 2, 3 places on, and so do the copies. -/
theorem dev1_eq (c : Dev nD) : (⟨k0_dev1 c, k0_dev1_lt c⟩ : Dev nD) = src 2 c := by revert c; decide +kernel
theorem dev2_eq (c : Dev nD) : (⟨k0_dev2 c, k0_dev2_lt c⟩ : Dev nD) = src 1 c := by revert c; decide +kernel
theorem dev3_eq (c : Dev nD) : (⟨k0_dev3 c, k0_dev3_lt c⟩ : Dev nD) = src 0 c := by revert c; decide +kernel
theorem dev4_eq (c : Dev nD) : (⟨k0_dev4 c, k0_dev4_lt c⟩ : Dev nD) = tgt 0 c := by revert c; decide +kernel
theorem dev5_eq (c : Dev nD) : (⟨k0_dev5 c, k0_dev5_lt c⟩ : Dev nD) = tgt 1 c := by revert c; decide +kernel
theorem dev6_eq (c : Dev nD) : (⟨k0_dev6 c, k0_dev6_lt c⟩ : Dev nD) = tgt 2 c := by revert c; decide +kernel

/-! ## The memrefs and cells -/

abbrev xM : Memref sig .tc .vmem S1024x512 .f32 := Memref.whole cc0_stg0_0
abbrev oM : Memref sig .tc .vmem S1x512 .f32 := Memref.whole cc0_stg1_0
abbrev sM : Memref sig .tc .vmem S4x1x512 .f32 := Memref.whole cc0_scratch0

/-- Row `k` of the scratch buffer as a rectangle, and as the squeezed memref a copy goes through. -/
abbrev rc (k : ℕ) (inb : ∀ a, (![k, 0, 0] : Fin 3 → Nat) a + S1x1x512.size a ≤ S4x1x512.size a) : Rect S4x1x512 :=
  Rect.unit (s := S4x1x512) ![k, 0, 0] S1x1x512.size inb
abbrev rowM (k : ℕ) (inb : ∀ a, (![k, 0, 0] : Fin 3 → Nat) a + S1x1x512.size a ≤ S4x1x512.size a) : Memref sig .tc .vmem S1x512 .f32 :=
  ((sM.slice (rc k inb) (fun _ => rfl)).squeeze S1x512 squeezes_S1x1x512_S1x512)

abbrev row0 : Memref sig .tc .vmem S1x512 .f32 := rowM 0 inb_S4x1x512_S1x1x512_0_0_0
abbrev row1 : Memref sig .tc .vmem S1x512 .f32 := rowM 1 inb_S4x1x512_S1x1x512_1_0_0
abbrev row2 : Memref sig .tc .vmem S1x512 .f32 := rowM 2 inb_S4x1x512_S1x1x512_2_0_0
abbrev row3 : Memref sig .tc .vmem S1x512 .f32 := rowM 3 inb_S4x1x512_S1x1x512_3_0_0

/-- The rows as one family (row 3 for every index past 2). -/
abbrev rowOf : ℕ → Memref sig .tc .vmem S1x512 .f32
  | 0 => row0 | 1 => row1 | 2 => row2 | _ => row3

abbrev SIdx : Type := (cc0_scratch0 : Ref sig .tc).ty.Idx
abbrev SBuf (F : FTy → Type) : Type := (cc0_scratch0 : Ref sig .tc).ty.Contents (Elt F)

/-- The elements of row `k`. -/
def rowSet : ℕ → Finset SIdx
  | 0 => (row0 : Memref sig .tc .vmem S1x512 .f32).view.set | 1 => (row1 : Memref sig .tc .vmem S1x512 .f32).view.set
  | 2 => (row2 : Memref sig .tc .vmem S1x512 .f32).view.set | _ => (row3 : Memref sig .tc .vmem S1x512 .f32).view.set

/-- The scratch buffer's location on device `c`. -/
abbrev ℓs (c : Dev nD) : Loc nD τ sig := (c : Thread nD τ).loc cc0_scratch0

/-- The runtime's barrier semaphore of collective id 0 (unscoped); the send and receive DMA semaphores (scoped scratch). -/
abbrev barS : Sem sig := (SemArray.scalar (sig.barrier 0 rfl) : Sems sig S_).sem
abbrev sendS : Fin 3 → DmaSem sig
  | 0 => ((cc0_scratch1.slice (Rect.unit (s := S3) ![0] S1.size inb_S3_S1_0)).squeeze S_ squeezes_S1_S_).sem
  | 1 => ((cc0_scratch1.slice (Rect.unit (s := S3) ![1] S1.size inb_S3_S1_1)).squeeze S_ squeezes_S1_S_).sem
  | 2 => ((cc0_scratch1.slice (Rect.unit (s := S3) ![2] S1.size inb_S3_S1_2)).squeeze S_ squeezes_S1_S_).sem
abbrev recvS : Fin 3 → DmaSem sig
  | 0 => ((cc0_scratch2.slice (Rect.unit (s := S3) ![0] S1.size inb_S3_S1_0)).squeeze S_ squeezes_S1_S_).sem
  | 1 => ((cc0_scratch2.slice (Rect.unit (s := S3) ![1] S1.size inb_S3_S1_1)).squeeze S_ squeezes_S1_S_).sem
  | 2 => ((cc0_scratch2.slice (Rect.unit (s := S3) ![2] S1.size inb_S3_S1_2)).squeeze S_ squeezes_S1_S_).sem

abbrev barCell (c : Dev nD) : GSem nD τ sig := ((c : Thread nD τ), .reg barS)
abbrev sendCell (c : Dev nD) (j : Fin 3) : GSem nD τ sig := ((c : Thread nD τ), .dma (sendS j))
abbrev recvCell (c : Dev nD) (j : Fin 3) : GSem nD τ sig := ((c : Thread nD τ), .dma (recvS j))

/-- The kernel's OWN (scoped) semaphores, as the launch theorem indexes them: the three send, the three receive; -/
abbrev osem : Fin 6 → SemLoc sig := fun | 0 => .dma (sendS 0) | 1 => .dma (sendS 1) | 2 => .dma (sendS 2) | 3 => .dma (recvS 0) | 4 => .dma (recvS 1) | 5 => .dma (recvS 2)
/-- all seven of the protocol's, as this proof indexes them: barrier, send, receive. -/
abbrev csem : Fin 7 → SemLoc sig := fun | 0 => .reg barS | 1 => .dma (sendS 0) | 2 => .dma (sendS 1) | 3 => .dma (sendS 2) | 4 => .dma (recvS 0) | 5 => .dma (recvS 1) | 6 => .dma (recvS 2)
abbrev kcell (ck : Dev nD × Fin 7) : GSem nD τ sig := ((ck.1 : Thread nD τ), csem ck.2)

/-- One copy's credit: the same for every row (one buffer, one shape). -/
abbrev N : ℕ := (row3 : Memref sig .tc .vmem S1x512 .f32).view.dmaCredit
theorem N_pos : 0 < N := View.dmaCredit_pos _ (by decide)

/-! ## Contents -/

/-- Device `c`'s block of the array, as its staging buffer holds it. -/
def xstg (c : Dev nD) : (cc0_stg0_0 : Ref sig .tc).ty.Contents (Elt F) :=
  (win0_0.blk (0 : Fin 1)).view.read (Elt F) ((s₀ m ρ).mem ((c : Thread nD τ).loc main_arg0))

/-- Device `c`'s partial mean, as its row 3 holds it after the store (over the launch contents, which the row's
    elements do not see), and as a copy reads it. -/
def g3 (c : Dev nD) : SBuf F :=
  (sM.access (rc 3 inb_S4x1x512_S1x1x512_3_0_0)).write (Elt F) (m (ℓs c)) (k0_pay1 (xstg m ρ c)) Finset.univ
def carried (c : Dev nD) : S1x512.Idx → Elt F .f32 := (row3 : Memref sig .tc .vmem S1x512 .f32).view.read (Elt F) (g3 m ρ c)

/-- Row `j` of device `c` once the copy from `src j c` has landed. -/
def rowWrite (f : SBuf F) (w : S1x512.Idx → Elt F .f32) : ℕ → SBuf F
  | 0 => (row0 : Memref sig .tc .vmem S1x512 .f32).view.write (Elt F) f w Finset.univ
  | 1 => (row1 : Memref sig .tc .vmem S1x512 .f32).view.write (Elt F) f w Finset.univ
  | 2 => (row2 : Memref sig .tc .vmem S1x512 .f32).view.write (Elt F) f w Finset.univ
  | _ => (row3 : Memref sig .tc .vmem S1x512 .f32).view.write (Elt F) f w Finset.univ
def landed (j : Fin 3) (c : Dev nD) : SBuf F := rowWrite (m (ℓs c)) (carried m ρ (src j c)) j.val

/-- The four quarter shares of row 3: one kept for the final load, one per copy. -/
abbrev qKeep : PosShare TreeShare := fullShare.left.left
abbrev qSend : Fin 3 → PosShare TreeShare
  | 0 => fullShare.left.right | 1 => fullShare.right.left | 2 => fullShare.right.right

def rowPts (c : Dev nD) (k : ℕ) (q : PosShare TreeShare) (f : SBuf F) : sProp 𝕄 := ℓs c ↦[rowSet k]{q} f

omit [FloatOps F] in
instance rowPts_storable (c : Dev nD) (k : ℕ) (q) (f : SBuf F) : BI.Storable (upEmb : UEmb _ 𝕄) (rowPts (F := F) c k q f) := by unfold rowPts; infer_instance

/-! ## The schedule -/

/-- What the receiver of copy `d` hands device `c` with its barrier signal: its row `d` and that it stands at round 0 of its
    receive cell `d`. -/
def barPay (c : Dev nD) (d : Fin 3) : sProp 𝕄 := iprop((∃ f, rowPts (tgt d c) d.val fullShare f) ∗ reached ER (recvCell (tgt d c) d) 0)
def recvPay (c : Dev nD) (j : Fin 3) : sProp 𝕄 := rowPts c j.val fullShare (landed m ρ j c)
def sendPay (c : Dev nD) (j : Fin 3) : sProp 𝕄 := rowPts c 3 (qSend j) (g3 m ρ c)

/-- The payload of a send or receive cell, by its DMA semaphore's number. -/
def xferPay (c : Dev nD) : DmaSem sig → sProp 𝕄
  | ⟨2, _⟩ => sendPay m ρ c 0 | ⟨3, _⟩ => sendPay m ρ c 1 | ⟨4, _⟩ => sendPay m ρ c 2
  | ⟨5, _⟩ => recvPay m ρ c 0 | ⟨6, _⟩ => recvPay m ρ c 1 | ⟨7, _⟩ => recvPay m ρ c 2
  | _ => iprop(emp)

/-- One round, round 0: a barrier cell has three duties of one unit; a send or receive cell the duty `0` of a copy's credit. -/
def meanRd : Rounds.Schedule (GSem nD τ sig) (Fin 3) 𝕄 where
  duties g r := if r = 0 ∧ g.1.2 = .tc then (match g.2 with | .reg _ => Finset.univ | .dma q => if 2 ≤ q.val then {0} else ∅) else ∅
  unitless _ := False
  amount g _ _ := match g.2 with | .reg _ => 1 | .dma _ => N
  payload g _ d := match g.2 with | .reg _ => barPay g.1.1 d | .dma q => xferPay m ρ g.1.1 q
  amount_pos g _ _ _ := by
    rcases g with ⟨t, _ | q⟩
    · exact Nat.one_pos
    · exact N_pos

instance meanRd_payload_storable (g : GSem nD τ sig) (r : ℕ) (d : Fin 3) :
    BI.Storable (upEmb : UEmb _ 𝕄) ((meanRd (F := F) m ρ).payload g r d) := by
  rcases g with ⟨t, s | q⟩
  · show BI.Storable upEmb (barPay t.1 d); unfold barPay; infer_instance
  · show BI.Storable upEmb (xferPay m ρ t.1 q)
    unfold xferPay; split <;> (try unfold sendPay) <;> (try unfold recvPay) <;> infer_instance

/-! ## The schedule's tables, cell by cell -/

section Sched
variable (c : Dev nD)

theorem duties_bar : (meanRd (F := F) m ρ).duties (barCell c) 0 = Finset.univ := by dsimp only [meanRd]; exact if_pos ⟨rfl, rfl⟩
theorem duties_send (j : Fin 3) : (meanRd (F := F) m ρ).duties (sendCell c j) 0 = {0} := by
  dsimp only [meanRd]; rw [if_pos ⟨rfl, rfl⟩]; fin_cases j <;> rfl
theorem duties_recv (j : Fin 3) : (meanRd (F := F) m ρ).duties (recvCell c j) 0 = {0} := by
  dsimp only [meanRd]; rw [if_pos ⟨rfl, rfl⟩]; fin_cases j <;> rfl
theorem duties_later (g : GSem nD τ sig) : ∀ r, 1 ≤ r → (meanRd (F := F) m ρ).duties g r = ∅ :=
  fun r hr => by dsimp only [meanRd]; rw [if_neg fun h => by omega]

theorem amount_bar (d : Fin 3) : (meanRd (F := F) m ρ).amount (barCell c) 0 d = 1 := rfl
theorem amount_send (j d : Fin 3) : (meanRd (F := F) m ρ).amount (sendCell c j) 0 d = N := rfl
theorem amount_recv (j d : Fin 3) : (meanRd (F := F) m ρ).amount (recvCell c j) 0 d = N := rfl

theorem expect_bar : (meanRd (F := F) m ρ).expect (barCell c) 0 = 3 := by
  unfold Schedule.expect Schedule.amountOf
  rw [duties_bar, Finset.sum_congr rfl fun d _ => amount_bar m ρ c d, Finset.sum_const, Finset.card_univ, Fintype.card_fin, smul_eq_mul]
theorem expect_send (j : Fin 3) : (meanRd (F := F) m ρ).expect (sendCell c j) 0 = N := by
  unfold Schedule.expect Schedule.amountOf; rw [duties_send, Finset.sum_singleton, amount_send]
theorem expect_recv (j : Fin 3) : (meanRd (F := F) m ρ).expect (recvCell c j) 0 = N := by
  unfold Schedule.expect Schedule.amountOf; rw [duties_recv, Finset.sum_singleton, amount_recv]

theorem payload_bar (d : Fin 3) : (meanRd (F := F) m ρ).payload (barCell c) 0 d = barPay c d := rfl
theorem payload_send (j d : Fin 3) : (meanRd (F := F) m ρ).payload (sendCell c j) 0 d = sendPay m ρ c j := by fin_cases j <;> rfl
theorem payload_recv (j d : Fin 3) : (meanRd (F := F) m ρ).payload (recvCell c j) 0 d = recvPay m ρ c j := by fin_cases j <;> rfl

/-- The whole of the barrier cell's round, no duty taken: the three receivers' rows. -/
theorem rest_bar : bigSep ((meanRd (F := F) m ρ).duties (barCell c) 0 \ ∅) (fun d => (meanRd (F := F) m ρ).payload (barCell c) 0 d)
    = iprop(barPay c 0 ∗ barPay c 1 ∗ barPay c 2) := by
  rw [Finset.sdiff_empty, duties_bar, bigSep_univ_eq_bigSepL [0, 1, 2] (by decide) (by decide)]
  rfl
theorem rest_send (j : Fin 3) : bigSep ((meanRd (F := F) m ρ).duties (sendCell c j) 0 \ ∅) (fun d => (meanRd (F := F) m ρ).payload (sendCell c j) 0 d) = sendPay m ρ c j := by
  rw [Finset.sdiff_empty, duties_send, bigSep_singleton, payload_send]
theorem rest_recv (j : Fin 3) : bigSep ((meanRd (F := F) m ρ).duties (recvCell c j) 0 \ ∅) (fun d => (meanRd (F := F) m ρ).payload (recvCell c j) 0 d) = recvPay m ρ c j := by
  rw [Finset.sdiff_empty, duties_recv, bigSep_singleton, payload_recv]

end Sched

/-! ## What each core owes at launch; the levels -/

/-- Device `c` owes each of the three other devices' barrier cells one unit and the receive cell of each copy's target the
    copy's credit — summed so that the program's six payments peel the summands from the right, in program order:
    the signals to the devices 1, 2, 3 places on, then the copies 0, 1, 2. -/
def O₃ (c : Dev nD) : CellTallies nD τ sig Unit := tallyAt (recvCell (tgt 2 c) 2) () N + tallyAt (recvCell (tgt 1 c) 1) () N + tallyAt (recvCell (tgt 0 c) 0) () N
def O₂ (c : Dev nD) : CellTallies nD τ sig Unit := O₃ c + tallyAt (barCell (src 0 c)) () 1
def O₁ (c : Dev nD) : CellTallies nD τ sig Unit := O₂ c + tallyAt (barCell (src 1 c)) () 1
def O₀ (c : Dev nD) : CellTallies nD τ sig Unit := O₁ c + tallyAt (barCell (src 2 c)) () 1

def L (g : GSem nD τ sig) : Finset Unit := if g.1.2 = .tc then {()} else ∅
/-- barrier cells at 1, receive cells at 2, everything else (staging, send) at 0. -/
def lv (g : GSem nD τ sig) (_ : Unit) : ℕ := match g.2 with | .reg _ => 1 | .dma q => if 5 ≤ q.val then 2 else 0

theorem L_of_ne (g : GSem nD τ sig) (h : g.1.2 ≠ .tc) : L g = ∅ := if_neg h
theorem L_tc (c : Dev nD) (sm : SemLoc sig) : L ((c : Thread nD τ), sm) = {()} := if_pos rfl

theorem lv_bar (c : Dev nD) (u : Unit) : lv (barCell c) u = 1 := rfl
theorem lv_recv (c : Dev nD) (j : Fin 3) (u : Unit) : lv (recvCell c j) u = 2 := by fin_cases j <;> rfl
theorem lv_send (c : Dev nD) (j : Fin 3) (u : Unit) : lv (sendCell c j) u = 0 := by fin_cases j <;> rfl

theorem O₃_pos {c : Dev nD} {g : GSem nD τ sig} {u : Unit} (h : 0 < O₃ c g u) : ∃ (d : Dev nD) (j : Fin 3), g = recvCell d j := by
  unfold O₃ at h
  rcases Pipeline.add_pos_cases h with h | h
  · rcases Pipeline.add_pos_cases h with h | h
    · exact ⟨_, _, (Pipeline.tallyAt_pos h).1⟩
    · exact ⟨_, _, (Pipeline.tallyAt_pos h).1⟩
  · exact ⟨_, _, (Pipeline.tallyAt_pos h).1⟩

theorem O₀_pos {c : Dev nD} {g : GSem nD τ sig} {u : Unit} (h : 0 < O₀ c g u) : (∃ (d : Dev nD) (j : Fin 3), g = recvCell d j) ∨ ∃ d : Dev nD, g = barCell d := by
  unfold O₀ O₁ O₂ at h
  rcases Pipeline.add_pos_cases h with h | h
  · rcases Pipeline.add_pos_cases h with h | h
    · rcases Pipeline.add_pos_cases h with h | h
      · exact .inl (O₃_pos h)
      · exact .inr ⟨_, (Pipeline.tallyAt_pos h).1⟩
    · exact .inr ⟨_, (Pipeline.tallyAt_pos h).1⟩
  · exact .inr ⟨_, (Pipeline.tallyAt_pos h).1⟩

/-- A staging cell or a send cell sits below everything a device ever owes. -/
theorem mayWait_low (c : Dev nD) (q : DmaSem sig) (hq : q.val < 5) (O : CellTallies nD τ sig Unit) (hO : O = O₀ c ∨ O = 0) :
    (levAts L lv : sProp 𝕄) ⊢ MayWait (c : Thread nD τ) (.dma q) () O := by
  rcases hO with rfl | rfl
  · refine Pipeline.mayWait_of_levAts (by rw [L_tc]; exact Finset.mem_singleton_self _) fun g i hg => ?_
    have hl : lv ((c : Thread nD τ), SemLoc.dma q) () = 0 := by show (if 5 ≤ q.val then 2 else 0) = 0; rw [if_neg (by omega)]
    rcases O₀_pos hg with ⟨d, j, rfl⟩ | ⟨d, rfl⟩
    · exact ⟨by rw [L_tc]; exact Finset.mem_singleton_self _, by rw [hl, lv_recv]; decide⟩
    · exact ⟨by rw [L_tc]; exact Finset.mem_singleton_self _, by rw [hl, lv_bar]; decide⟩
  · rw [MayWait_zero]; iintro -; iempintro

/-- At its barrier wait a device owes the three copies' receive credits only: receive cells, above its barrier cell. -/
theorem mayWait_bar (c : Dev nD) : (levAts L lv : sProp 𝕄) ⊢ MayWait (c : Thread nD τ) (.reg barS) () (O₃ c) :=
  Pipeline.mayWait_of_levAts (by rw [L_tc]; exact Finset.mem_singleton_self _) fun g i hg => by
    obtain ⟨d, j, rfl⟩ := O₃_pos hg
    exact ⟨by rw [L_tc]; exact Finset.mem_singleton_self _, by show lv (barCell c) () < _; rw [lv_bar, lv_recv]; decide⟩

end Cert.KernelIdeal.Mean

end
-- ==== Proof.KernelIdeal.State.lean ====
/-
  What a device holds of the protocol's ghost state when its body starts, the pipeline's proof data, and the
  names of the arrays after the run. Device `c`'s result is the sum, in the order its rows stand, of the partial
  means of the devices 3, 2, 1 and 0 places back round the ring.
-/
import proofs.«900938_g7700000000000939_dist_mean_ax0_shard0_i_m1024_n512_v7x_i4_bf16_1_alg».proof.Defs
import proofs.«900938_g7700000000000939_dist_mean_ax0_shard0_i_m1024_n512_v7x_i4_bf16_1_alg».proof.Proof.Gen.KernelIdeal
import proofs.«900938_g7700000000000939_dist_mean_ax0_shard0_i_m1024_n512_v7x_i4_bf16_1_alg».proof.Proof.Gen.KernelIdeal.Skeleton
import proofs.«900938_g7700000000000939_dist_mean_ax0_shard0_i_m1024_n512_v7x_i4_bf16_1_alg».proof.Proof.Gen.KernelIdeal.Launch
import proofs.«900938_g7700000000000939_dist_mean_ax0_shard0_i_m1024_n512_v7x_i4_bf16_1_alg».proof.Proof.KernelIdeal.Proto
import Idealize.ShloMosaic.Lib.Pipeline.Launch
import Idealize.ShloMosaic.Lib.Pipeline.Kit
import Idealize.ShloMosaic.Lib.ReshapeSlab
import Idealize.ShloMosaic.Lib.Writes
import Idealize.ShloMosaic.Lib.Tactic

noncomputable section

namespace Cert.KernelIdeal.Mean

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The pipeline's proof data -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-- What a load of row `j` of device `c` reads once the copy into it has landed, and of its own row 3. -/
def rowRead (f : SBuf F) (k : ℕ) (inb : ∀ a, (![k, 0, 0] : Fin 3 → Nat) a + S1x1x512.size a ≤ S4x1x512.size a) : Vec F S1x1x512 .f32 :=
  (sM : Memref sig .tc .vmem S4x1x512 .f32).view.readAt (Elt F) (rc k inb).toLoadRect f

/-- The kernel's result on device `c`: the four rows it holds, added in row order (the skeleton's payload `Gen.k0_pay2`). -/
def outAt (c : Dev nD) : (cc0_stg1_0 : Ref sig .tc).ty.Contents (Elt F) :=
  k0_pay2 (rowRead (landed m ρ 0 c) 0 inb_S4x1x512_S1x1x512_0_0_0) (rowRead (landed m ρ 1 c) 1 inb_S4x1x512_S1x1x512_1_0_0)
    (rowRead (landed m ρ 2 c) 2 inb_S4x1x512_S1x1x512_2_0_0) (rowRead (g3 m ρ c) 3 inb_S4x1x512_S1x1x512_3_0_0)

/-- Every cell's invariant, under the names `K` the launch allocated them at, and that every cell stands at round 0. -/
def records (K : Dev nD × Fin 7 → ℕ) : sProp 𝕄 :=
  iprop((bigSep Finset.univ fun ck : Dev nD × Fin 7 => cellInv ER (meanRd m ρ) (K ck) (kcell ck))
    ∗ bigSep Finset.univ fun ck : Dev nD × Fin 7 => reached ER (kcell ck) 0)

instance records_persistent (K : Dev nD × Fin 7 → ℕ) : BI.Persistent (records m ρ K) := by unfold records; infer_instance

theorem inv_at (K : Dev nD × Fin 7 → ℕ) (ck : Dev nD × Fin 7) :
    (bigSep Finset.univ fun ck : Dev nD × Fin 7 => (cellInv ER (meanRd m ρ) (K ck) (kcell ck) : sProp 𝕄)) ⊢ cellInv ER (meanRd m ρ) (K ck) (kcell ck) :=
  bigSep_elim (Finset.mem_univ ck)
omit [FloatOps F] in
theorem reached_at (ck : Dev nD × Fin 7) :
    (bigSep Finset.univ fun ck : Dev nD × Fin 7 => (reached ER (kcell ck) 0 : sProp 𝕄)) ⊢ reached ER (kcell ck) 0 :=
  bigSep_elim (Finset.mem_univ ck)

/-- The tokens of the nine duties device `c` pays: a barrier duty of each other device, the receive duty of each copy's
    target, its own three send duties. -/
def payToks (c : Dev nD) : sProp 𝕄 :=
  iprop(dutyTok ER (barCell (src 2 c)) 0 2 ∗ dutyTok ER (barCell (src 1 c)) 0 1 ∗ dutyTok ER (barCell (src 0 c)) 0 0
    ∗ dutyTok ER (recvCell (tgt 0 c) 0) 0 0 ∗ dutyTok ER (recvCell (tgt 1 c) 1) 0 0 ∗ dutyTok ER (recvCell (tgt 2 c) 2) 0 0
    ∗ dutyTok ER (sendCell c 0) 0 0 ∗ dutyTok ER (sendCell c 1) 0 0 ∗ dutyTok ER (sendCell c 2) 0 0)
/-- Its positions: round 0 of each of its seven cells, nothing taken. -/
def positions (c : Dev nD) : sProp 𝕄 :=
  iprop(atPos ER (barCell c) 0 ∅ 0 ∗ atPos ER (sendCell c 0) 0 ∅ 0 ∗ atPos ER (sendCell c 1) 0 ∅ 0 ∗ atPos ER (sendCell c 2) 0 ∅ 0
    ∗ atPos ER (recvCell c 0) 0 ∅ 0 ∗ atPos ER (recvCell c 1) 0 ∅ 0 ∗ atPos ER (recvCell c 2) 0 ∅ 0)

def ghost (K : Dev nD × Fin 7 → ℕ) (c : Dev nD) : sProp 𝕄 := iprop(records m ρ K ∗ positions c ∗ payToks c)

/-- The credit tokens the launch deals device `c`: its barrier's three units, each receive cell's credit. -/
def creds (c : Dev nD) : sProp 𝕄 :=
  iprop(cred (tallyAt (barCell c) () 3) ∗ cred (tallyAt (recvCell c 0) () N) ∗ cred (tallyAt (recvCell c 1) () N) ∗ cred (tallyAt (recvCell c 2) () N))

/-- What device `c`'s body starts from: the ghost state at some names, the credit tokens and the level facts. -/
def start (c : Dev nD) : sProp 𝕄 := iprop((∃ K, ghost m ρ K c) ∗ creds c ∗ levAts L lv)

def scrAny (c : Dev nD) : sProp 𝕄 := iprop(∃ f : Buf (Elt F) (ℓs c), (ℓs c) ↦{fullShare} f)

def Φ₀ (c : Dev nD) : sProp 𝕄 := iprop(start m ρ c ∗ scrAny c)
/-- After the point: the scratch buffer whole again, the six OWN cells at zero, closed (the barrier cell is the runtime's:
    nothing to hand back). -/
def ownZero (c : Dev nD) : sProp 𝕄 :=
  iprop(semVal (sendCell c 0) 0 ∗ semVal (sendCell c 1) 0 ∗ semVal (sendCell c 2) 0 ∗ semVal (recvCell c 0) 0 ∗ semVal (recvCell c 1) 0 ∗ semVal (recvCell c 2) 0)
def Φ₁ (c : Dev nD) : sProp 𝕄 := iprop(scrAny c ∗ ownZero c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => outAt m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

abbrev 𝒱₀ : Variants := Variants.none

theorem bigSep_W (Φ : Fin cfg0.W → sProp 𝕄) : bigSep Finset.univ Φ = iprop(Φ (0 : Fin 2) ∗ Φ (1 : Fin 2)) := bigSep_W0 Φ

theorem fetch_0 (t : Fin cfg0.N) : (cfg0.win (0 : Fin 2)).fetch t = true := by rw [fin_N t]; rfl

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- The library's body obligation at the one point, spelt out: what the body starts from and what it leaves. -/
def bodyPre' (c : Dev nD) : sProp 𝕄 :=
  iprop(Φ₀ m ρ c ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

def bodyPost (c : Dev nD) : sProp 𝕄 :=
  iprop(Φ₁ c ∗ (dats m ρ 0 c).owesAt () t₀.succ ∗ stg c cc0_stg0_0 (xstg m ρ c) ∗ stg c cc0_stg1_0 (outAt m ρ c))

end Cert.KernelIdeal.Mean

end
-- ==== Proof.KernelIdeal.Geom.lean ====
/-
  The scratch buffer cut into its four rows and put together again, row 3 cut into four shares, and the copy
  of row 3 into a row of another device, stated at this protocol's cells.
-/
import proofs.«900938_g7700000000000939_dist_mean_ax0_shard0_i_m1024_n512_v7x_i4_bf16_1_alg».proof.Defs
import proofs.«900938_g7700000000000939_dist_mean_ax0_shard0_i_m1024_n512_v7x_i4_bf16_1_alg».proof.Proof.Gen.KernelIdeal
import proofs.«900938_g7700000000000939_dist_mean_ax0_shard0_i_m1024_n512_v7x_i4_bf16_1_alg».proof.Proof.Gen.KernelIdeal.Skeleton
import proofs.«900938_g7700000000000939_dist_mean_ax0_shard0_i_m1024_n512_v7x_i4_bf16_1_alg».proof.Proof.Gen.KernelIdeal.Launch
import proofs.«900938_g7700000000000939_dist_mean_ax0_shard0_i_m1024_n512_v7x_i4_bf16_1_alg».proof.Proof.KernelIdeal.Proto
import proofs.«900938_g7700000000000939_dist_mean_ax0_shard0_i_m1024_n512_v7x_i4_bf16_1_alg».proof.Proof.KernelIdeal.State
import Idealize.ShloMosaic.Lib.Pipeline.Launch
import Idealize.ShloMosaic.Lib.Pipeline.Kit
import Idealize.ShloMosaic.Lib.ReshapeSlab
import Idealize.ShloMosaic.Lib.Writes
import Idealize.ShloMosaic.Lib.Tactic

noncomputable section

namespace Cert.KernelIdeal.Mean

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Rows as sets of elements -/

theorem rowSet_access0 : rowSet 0 = ((sM : Memref sig .tc .vmem S4x1x512 .f32).access (rc 0 inb_S4x1x512_S1x1x512_0_0_0)).set := View.set_reshape _ _
theorem rowSet_access1 : rowSet 1 = ((sM : Memref sig .tc .vmem S4x1x512 .f32).access (rc 1 inb_S4x1x512_S1x1x512_1_0_0)).set := View.set_reshape _ _
theorem rowSet_access2 : rowSet 2 = ((sM : Memref sig .tc .vmem S4x1x512 .f32).access (rc 2 inb_S4x1x512_S1x1x512_2_0_0)).set := View.set_reshape _ _
theorem rowSet_access3 : rowSet 3 = ((sM : Memref sig .tc .vmem S4x1x512 .f32).access (rc 3 inb_S4x1x512_S1x1x512_3_0_0)).set := View.set_reshape _ _

/-- Two different rows share no element: their rectangles are apart on the leading axis. -/
theorem rows_disjoint (j k : ℕ) (hj : ∀ a, (![j, 0, 0] : Fin 3 → Nat) a + S1x1x512.size a ≤ S4x1x512.size a)
    (hk : ∀ a, (![k, 0, 0] : Fin 3 → Nat) a + S1x1x512.size a ≤ S4x1x512.size a) (h : j + 1 ≤ k ∨ k + 1 ≤ j) :
    Disjoint ((sM : Memref sig .tc .vmem S4x1x512 .f32).access (rc j hj)).set ((sM : Memref sig .tc .vmem S4x1x512 .f32).access (rc k hk)).set :=
  View.disjoint_slice_of_sep _ _ _ (0 : Fin 3) rfl rfl h

theorem disj01 : Disjoint (rowSet 0) (rowSet 1) := by rw [rowSet_access0, rowSet_access1]; exact rows_disjoint _ _ _ _ (by decide)
theorem disj02 : Disjoint (rowSet 0) (rowSet 2) := by rw [rowSet_access0, rowSet_access2]; exact rows_disjoint _ _ _ _ (by decide)
theorem disj03 : Disjoint (rowSet 0) (rowSet 3) := by rw [rowSet_access0, rowSet_access3]; exact rows_disjoint _ _ _ _ (by decide)
theorem disj12 : Disjoint (rowSet 1) (rowSet 2) := by rw [rowSet_access1, rowSet_access2]; exact rows_disjoint _ _ _ _ (by decide)
theorem disj13 : Disjoint (rowSet 1) (rowSet 3) := by rw [rowSet_access1, rowSet_access3]; exact rows_disjoint _ _ _ _ (by decide)
theorem disj23 : Disjoint (rowSet 2) (rowSet 3) := by rw [rowSet_access2, rowSet_access3]; exact rows_disjoint _ _ _ _ (by decide)

/-- What is left of the buffer's elements when the four rows are taken out (nothing, but the proof never needs to know). -/
def offRows : Finset SIdx := (((Finset.univ \ rowSet 0) \ rowSet 1) \ rowSet 2) \ rowSet 3

theorem sub1 : rowSet 1 ⊆ Finset.univ \ rowSet 0 := Finset.subset_sdiff.mpr ⟨Finset.subset_univ _, disj01.symm⟩
theorem sub2 : rowSet 2 ⊆ (Finset.univ \ rowSet 0) \ rowSet 1 :=
  Finset.subset_sdiff.mpr ⟨Finset.subset_sdiff.mpr ⟨Finset.subset_univ _, disj02.symm⟩, disj12.symm⟩
theorem sub3 : rowSet 3 ⊆ ((Finset.univ \ rowSet 0) \ rowSet 1) \ rowSet 2 :=
  Finset.subset_sdiff.mpr ⟨Finset.subset_sdiff.mpr ⟨Finset.subset_sdiff.mpr ⟨Finset.subset_univ _, disj03.symm⟩, disj13.symm⟩, disj23.symm⟩

omit [FloatOps F] in
/-- The whole buffer is its four rows and the rest, -/
theorem scr_split (c : Dev nD) (f : SBuf F) :
    ((ℓs c) ↦{fullShare} f : sProp 𝕄) ⊢ iprop(rowPts c 0 fullShare f ∗ rowPts c 1 fullShare f ∗ rowPts c 2 fullShare f ∗ rowPts c 3 fullShare f
      ∗ ((ℓs c) ↦[offRows]{fullShare} f)) := by
  unfold rowPts offRows
  iintro H
  ihave H := (pointsTo_split_subset (ℓ := ℓs c) (I := rowSet 0) (S := Finset.univ) (Finset.subset_univ _)).1 $$ H
  icases H with ⟨H0, H⟩
  ihave H := (pointsTo_split_subset (ℓ := ℓs c) sub1).1 $$ H
  icases H with ⟨H1, H⟩
  ihave H := (pointsTo_split_subset (ℓ := ℓs c) sub2).1 $$ H
  icases H with ⟨H2, H⟩
  ihave H := (pointsTo_split_subset (ℓ := ℓs c) sub3).1 $$ H
  icases H with ⟨H3, H⟩
  isplitl [H0]; · iexact H0
  isplitl [H1]; · iexact H1
  isplitl [H2]; · iexact H2
  isplitl [H3]; · iexact H3
  iexact H

omit [FloatOps F] in
/-- and the four rows and the rest, at whatever contents each, are the whole buffer at some contents. -/
theorem scr_join (c : Dev nD) (f0 f1 f2 f3 f4 : SBuf F) :
    iprop(rowPts c 0 fullShare f0 ∗ rowPts c 1 fullShare f1 ∗ rowPts c 2 fullShare f2 ∗ rowPts c 3 fullShare f3
      ∗ ((ℓs c) ↦[offRows]{fullShare} f4)) ⊢ (scrAny c : sProp 𝕄) := by
  unfold rowPts offRows scrAny
  iintro ⟨H0, H1, H2, H3, H⟩
  ihave H := (pointsTo_join_subset (ℓ := ℓs c) sub3) $$ [H3 H]
  · isplitl [H3] <;> iassumption
  ihave H := (pointsTo_join_subset (ℓ := ℓs c) sub2) $$ [H2 H]
  · isplitl [H2] <;> iassumption
  ihave H := (pointsTo_join_subset (ℓ := ℓs c) sub1) $$ [H1 H]
  · isplitl [H1] <;> iassumption
  ihave H := (pointsTo_join_subset (ℓ := ℓs c) (I := rowSet 0) (S := Finset.univ) (Finset.subset_univ _)) $$ [H0 H]
  · isplitl [H0] <;> iassumption
  iexists _; iexact H

omit [FloatOps F] in
/-- Row 3 at full share is its four quarter shares. -/
theorem row3_shares (c : Dev nD) (f : SBuf F) :
    (rowPts c 3 fullShare f : sProp 𝕄) ⊣⊢ iprop(rowPts c 3 qKeep f ∗ rowPts c 3 (qSend 0) f ∗ rowPts c 3 (qSend 1) f ∗ rowPts c 3 (qSend 2) f) := by
  unfold rowPts
  constructor
  · iintro H
    ihave H := (pointsTo_share (PosShare.mem_left_op_right fullShare)).1 $$ H
    icases H with ⟨HL, HR⟩
    ihave HL := (pointsTo_share (PosShare.mem_left_op_right fullShare.left)).1 $$ HL
    icases HL with ⟨HLL, HLR⟩
    ihave HR := (pointsTo_share (PosShare.mem_left_op_right fullShare.right)).1 $$ HR
    icases HR with ⟨HRL, HRR⟩
    isplitl [HLL]; · iexact HLL
    isplitl [HLR]; · iexact HLR
    isplitl [HRL]; · iexact HRL
    iexact HRR
  · iintro ⟨HLL, HLR, HRL, HRR⟩
    ihave HL := (pointsTo_share (PosShare.mem_left_op_right fullShare.left)).2 $$ [HLL HLR]
    · isplitl [HLL] <;> iassumption
    ihave HR := (pointsTo_share (PosShare.mem_left_op_right fullShare.right)).2 $$ [HRL HRR]
    · isplitl [HRL] <;> iassumption
    iapply (pointsTo_share (PosShare.mem_left_op_right fullShare)).2
    isplitl [HL] <;> iassumption

/-! ## The three copies -/

set_option maxHeartbeats 800000 in
/-- The copy of row 3 into row 0 of the device 1 places on, at the protocol's cells (the target substituted, not rewritten). -/
theorem wp_send_row0 (K : Dev nD × Fin 7 → ℕ) (c n : Dev nD) (hn : n = tgt 0 c)
    {hsc : (row0 : Memref sig (Dev.tc n : Thread nD τ).2.kind .vmem S1x512 .f32).view.ref.isScScratch = false}
    {hsrc : (row3 : Memref sig .tc .vmem S1x512 .f32).view.WordExact} {hdst : (row0 : Memref sig .tc .vmem S1x512 .f32).view.WordExact}
    {hsem : DmaTarget.Typed .vmem (.dma (recvS 0)) (.remote (Dev.tc n : Thread nD τ) (row0 : Memref sig .tc .vmem S1x512 .f32) (.dma (sendS 0)) hsc)}
    {α : Type} {Q : α → sProp 𝕄} {k : PUnit → Prog (TpuEff nD τ sig (Elt F) Λ₀ .tc) α}
    (fn : SBuf F) (O' O : CellTallies nD τ sig Unit) (hO : O' = O + tallyAt (recvCell (tgt 0 c) 0) () N) (W : Waits sig Unit) :
    iprop(cellInv ER (meanRd m ρ) (K (c, 1)) (sendCell c 0) ∗ cellInv ER (meanRd m ρ) (K (tgt 0 c, 4)) (recvCell (tgt 0 c) 0)
        ∗ rowPts c 3 (qSend 0) (g3 m ρ c) ∗ rowPts (tgt 0 c) 0 fullShare fn
        ∗ owes (c : Thread nD τ) O' W
        ∗ dutyTok ER (sendCell c 0) 0 0 ∗ reached ER (sendCell c 0) 0
        ∗ dutyTok ER (recvCell (tgt 0 c) 0) 0 0 ∗ reached ER (recvCell (tgt 0 c) 0) 0)
      ⊢ iprop(((cred (tallyAt (sendCell c 0) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma row3 (.remote (Dev.tc n : Thread nD τ) row0 (.dma (sendS 0)) hsc) (.dma (recvS 0)) hsrc hdst hsem) k) Q) := by
  subst hn
  unfold rowPts
  exact Rounds.wp_send_pointsTo 𝒱₀ ER (meanRd m ρ) (c : Thread nD τ) none (κ₁ := K (c, 1)) (κ₂ := K (tgt 0 c, 4))
    (c' := ((tgt 0 c : Dev nD) : Thread nD τ)) (r₁ := 0) (r₂ := 0) (d₁ := 0) (d₂ := 0) (src := row3) (dst := row0) (q := qSend 0) (fs := g3 m ρ c) (fd := fn)
    (by rw [duties_send]; exact Finset.mem_singleton_self _) (by rw [duties_recv]; exact Finset.mem_singleton_self _)
    () () N rfl (amount_send m ρ c 0 0) (amount_recv m ρ (tgt 0 c) 0 0) O hO (W := W)
    (by rw [payload_send]; exact BI.Entails.refl _)
    (by
      rw [payload_recv]; unfold recvPay rowPts landed carried; rw [src_tgt]
      exact Entails.of_eq (View.pointsTo_write_univ_congr ((tgt 0 c : Dev nD) : Thread nD τ) (row0 : Memref sig .tc .vmem S1x512 .f32).view fullShare fn (m (ℓs (tgt 0 c))) _))

set_option maxHeartbeats 800000 in
/-- The copy of row 3 into row 1 of the device 2 places on, at the protocol's cells (the target substituted, not rewritten). -/
theorem wp_send_row1 (K : Dev nD × Fin 7 → ℕ) (c n : Dev nD) (hn : n = tgt 1 c)
    {hsc : (row1 : Memref sig (Dev.tc n : Thread nD τ).2.kind .vmem S1x512 .f32).view.ref.isScScratch = false}
    {hsrc : (row3 : Memref sig .tc .vmem S1x512 .f32).view.WordExact} {hdst : (row1 : Memref sig .tc .vmem S1x512 .f32).view.WordExact}
    {hsem : DmaTarget.Typed .vmem (.dma (recvS 1)) (.remote (Dev.tc n : Thread nD τ) (row1 : Memref sig .tc .vmem S1x512 .f32) (.dma (sendS 1)) hsc)}
    {α : Type} {Q : α → sProp 𝕄} {k : PUnit → Prog (TpuEff nD τ sig (Elt F) Λ₀ .tc) α}
    (fn : SBuf F) (O' O : CellTallies nD τ sig Unit) (hO : O' = O + tallyAt (recvCell (tgt 1 c) 1) () N) (W : Waits sig Unit) :
    iprop(cellInv ER (meanRd m ρ) (K (c, 2)) (sendCell c 1) ∗ cellInv ER (meanRd m ρ) (K (tgt 1 c, 5)) (recvCell (tgt 1 c) 1)
        ∗ rowPts c 3 (qSend 1) (g3 m ρ c) ∗ rowPts (tgt 1 c) 1 fullShare fn
        ∗ owes (c : Thread nD τ) O' W
        ∗ dutyTok ER (sendCell c 1) 0 0 ∗ reached ER (sendCell c 1) 0
        ∗ dutyTok ER (recvCell (tgt 1 c) 1) 0 0 ∗ reached ER (recvCell (tgt 1 c) 1) 0)
      ⊢ iprop(((cred (tallyAt (sendCell c 1) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma row3 (.remote (Dev.tc n : Thread nD τ) row1 (.dma (sendS 1)) hsc) (.dma (recvS 1)) hsrc hdst hsem) k) Q) := by
  subst hn
  unfold rowPts
  exact Rounds.wp_send_pointsTo 𝒱₀ ER (meanRd m ρ) (c : Thread nD τ) none (κ₁ := K (c, 2)) (κ₂ := K (tgt 1 c, 5))
    (c' := ((tgt 1 c : Dev nD) : Thread nD τ)) (r₁ := 0) (r₂ := 0) (d₁ := 0) (d₂ := 0) (src := row3) (dst := row1) (q := qSend 1) (fs := g3 m ρ c) (fd := fn)
    (by rw [duties_send]; exact Finset.mem_singleton_self _) (by rw [duties_recv]; exact Finset.mem_singleton_self _)
    () () N rfl (amount_send m ρ c 1 0) (amount_recv m ρ (tgt 1 c) 1 0) O hO (W := W)
    (by rw [payload_send]; exact BI.Entails.refl _)
    (by
      rw [payload_recv]; unfold recvPay rowPts landed carried; rw [src_tgt]
      exact Entails.of_eq (View.pointsTo_write_univ_congr ((tgt 1 c : Dev nD) : Thread nD τ) (row1 : Memref sig .tc .vmem S1x512 .f32).view fullShare fn (m (ℓs (tgt 1 c))) _))

set_option maxHeartbeats 800000 in
/-- The copy of row 3 into row 2 of the device 3 places on, at the protocol's cells (the target substituted, not rewritten). -/
theorem wp_send_row2 (K : Dev nD × Fin 7 → ℕ) (c n : Dev nD) (hn : n = tgt 2 c)
    {hsc : (row2 : Memref sig (Dev.tc n : Thread nD τ).2.kind .vmem S1x512 .f32).view.ref.isScScratch = false}
    {hsrc : (row3 : Memref sig .tc .vmem S1x512 .f32).view.WordExact} {hdst : (row2 : Memref sig .tc .vmem S1x512 .f32).view.WordExact}
    {hsem : DmaTarget.Typed .vmem (.dma (recvS 2)) (.remote (Dev.tc n : Thread nD τ) (row2 : Memref sig .tc .vmem S1x512 .f32) (.dma (sendS 2)) hsc)}
    {α : Type} {Q : α → sProp 𝕄} {k : PUnit → Prog (TpuEff nD τ sig (Elt F) Λ₀ .tc) α}
    (fn : SBuf F) (O' O : CellTallies nD τ sig Unit) (hO : O' = O + tallyAt (recvCell (tgt 2 c) 2) () N) (W : Waits sig Unit) :
    iprop(cellInv ER (meanRd m ρ) (K (c, 3)) (sendCell c 2) ∗ cellInv ER (meanRd m ρ) (K (tgt 2 c, 6)) (recvCell (tgt 2 c) 2)
        ∗ rowPts c 3 (qSend 2) (g3 m ρ c) ∗ rowPts (tgt 2 c) 2 fullShare fn
        ∗ owes (c : Thread nD τ) O' W
        ∗ dutyTok ER (sendCell c 2) 0 0 ∗ reached ER (sendCell c 2) 0
        ∗ dutyTok ER (recvCell (tgt 2 c) 2) 0 0 ∗ reached ER (recvCell (tgt 2 c) 2) 0)
      ⊢ iprop(((cred (tallyAt (sendCell c 2) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma row3 (.remote (Dev.tc n : Thread nD τ) row2 (.dma (sendS 2)) hsc) (.dma (recvS 2)) hsrc hdst hsem) k) Q) := by
  subst hn
  unfold rowPts
  exact Rounds.wp_send_pointsTo 𝒱₀ ER (meanRd m ρ) (c : Thread nD τ) none (κ₁ := K (c, 3)) (κ₂ := K (tgt 2 c, 6))
    (c' := ((tgt 2 c : Dev nD) : Thread nD τ)) (r₁ := 0) (r₂ := 0) (d₁ := 0) (d₂ := 0) (src := row3) (dst := row2) (q := qSend 2) (fs := g3 m ρ c) (fd := fn)
    (by rw [duties_send]; exact Finset.mem_singleton_self _) (by rw [duties_recv]; exact Finset.mem_singleton_self _)
    () () N rfl (amount_send m ρ c 2 0) (amount_recv m ρ (tgt 2 c) 2 0) O hO (W := W)
    (by rw [payload_send]; exact BI.Entails.refl _)
    (by
      rw [payload_recv]; unfold recvPay rowPts landed carried; rw [src_tgt]
      exact Entails.of_eq (View.pointsTo_write_univ_congr ((tgt 2 c : Dev nD) : Thread nD τ) (row2 : Memref sig .tc .vmem S1x512 .f32).view fullShare fn (m (ℓs (tgt 2 c))) _))

end Cert.KernelIdeal.Mean

end
-- ==== Proof.KernelIdeal.Body.lean ====
/-
  One device's body, stepped through once at a symbolic device: the three signals, the partial mean stored in
  row 3, the barrier wait, the three copies, the three receive waits, the sum of the four rows, the three send waits.
-/
import proofs.«900938_g7700000000000939_dist_mean_ax0_shard0_i_m1024_n512_v7x_i4_bf16_1_alg».proof.Defs
import proofs.«900938_g7700000000000939_dist_mean_ax0_shard0_i_m1024_n512_v7x_i4_bf16_1_alg».proof.Proof.Gen.KernelIdeal
import proofs.«900938_g7700000000000939_dist_mean_ax0_shard0_i_m1024_n512_v7x_i4_bf16_1_alg».proof.Proof.Gen.KernelIdeal.Skeleton
import proofs.«900938_g7700000000000939_dist_mean_ax0_shard0_i_m1024_n512_v7x_i4_bf16_1_alg».proof.Proof.Gen.KernelIdeal.Launch
import proofs.«900938_g7700000000000939_dist_mean_ax0_shard0_i_m1024_n512_v7x_i4_bf16_1_alg».proof.Proof.KernelIdeal.Proto
import proofs.«900938_g7700000000000939_dist_mean_ax0_shard0_i_m1024_n512_v7x_i4_bf16_1_alg».proof.Proof.KernelIdeal.State
import proofs.«900938_g7700000000000939_dist_mean_ax0_shard0_i_m1024_n512_v7x_i4_bf16_1_alg».proof.Proof.KernelIdeal.Geom
import Idealize.ShloMosaic.Lib.Pipeline.Launch
import Idealize.ShloMosaic.Lib.Pipeline.Kit
import Idealize.ShloMosaic.Lib.ReshapeSlab
import Idealize.ShloMosaic.Lib.Writes
import Idealize.ShloMosaic.Lib.Tactic

noncomputable section

namespace Cert.KernelIdeal.Mean

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Loads and stores through the staging buffers and the rows -/

abbrev r0x : Rect S1024x512 := Rect.unit (s := S1024x512) ![0, 0] S1024x512.size inb_S1024x512_S1024x512_0_0
abbrev r0o : Rect S1x512 := Rect.unit (s := S1x512) ![0, 0] S1x512.size inb_S1x512_S1x512_0_0

omit [FloatOps F] in
theorem hz2 : (![0, 0] : Fin 2 → Nat) = fun _ => 0 := funext fun a => by fin_cases a <;> rfl
omit [FloatOps F] in
theorem read_x (f : (cc0_stg0_0 : Ref sig .tc).ty.Contents (Elt F)) : (xM : Memref sig .tc .vmem S1024x512 .f32).view.readAt (Elt F) r0x.toLoadRect f = f :=
  Memref.readAt_unit_zero (Elt F) cc0_stg0_0 hz2 _ f
omit [FloatOps F] in
theorem write_out (f w : (cc0_stg1_0 : Ref sig .tc).ty.Contents (Elt F)) :
    ((oM : Memref sig .tc .vmem S1x512 .f32).access r0o : View sig .tc _ _ _).write (Elt F) f w Finset.univ = w :=
  Memref.write_access_unit_zero_univ (Elt F) cc0_stg1_0 hz2 _ f w

omit [FloatOps F] in
theorem load_sub0 : (sM : Memref sig .tc .vmem S4x1x512 .f32).view.setOn (rc 0 inb_S4x1x512_S1x1x512_0_0_0).toLoadRect.set ⊆ rowSet 0 := by
  rw [rowSet_access0]; exact (View.set_slice _ _).ge
omit [FloatOps F] in
theorem load_sub1 : (sM : Memref sig .tc .vmem S4x1x512 .f32).view.setOn (rc 1 inb_S4x1x512_S1x1x512_1_0_0).toLoadRect.set ⊆ rowSet 1 := by
  rw [rowSet_access1]; exact (View.set_slice _ _).ge
omit [FloatOps F] in
theorem load_sub2 : (sM : Memref sig .tc .vmem S4x1x512 .f32).view.setOn (rc 2 inb_S4x1x512_S1x1x512_2_0_0).toLoadRect.set ⊆ rowSet 2 := by
  rw [rowSet_access2]; exact (View.set_slice _ _).ge
omit [FloatOps F] in
theorem load_sub3 : (sM : Memref sig .tc .vmem S4x1x512 .f32).view.setOn (rc 3 inb_S4x1x512_S1x1x512_3_0_0).toLoadRect.set ⊆ rowSet 3 := by
  rw [rowSet_access3]; exact (View.set_slice _ _).ge
omit [FloatOps F] in
theorem store_sub3 : ((sM : Memref sig .tc .vmem S4x1x512 .f32).access (rc 3 inb_S4x1x512_S1x1x512_3_0_0)).setOn Finset.univ ⊆ rowSet 3 := by
  rw [rowSet_access3]; exact subset_rfl

/-- Row 3 after the store of the partial mean, over whatever the buffer held, is row 3 at `g3`. -/
theorem row3_stored (c : Dev nD) (q : PosShare TreeShare) (f : SBuf F) :
    ((ℓs c) ↦[rowSet 3]{q} ((sM : Memref sig .tc .vmem S4x1x512 .f32).access (rc 3 inb_S4x1x512_S1x1x512_3_0_0)).write (Elt F) f (k0_pay1 (xstg m ρ c)) Finset.univ : sProp 𝕄)
      = rowPts c 3 q (g3 m ρ c) := by
  unfold rowPts g3; rw [rowSet_access3]
  exact View.pointsTo_write_univ_congr (c : Thread nD τ) ((sM : Memref sig .tc .vmem S4x1x512 .f32).access (rc 3 inb_S4x1x512_S1x1x512_3_0_0)) q f (m (ℓs c)) _

/-! ## The body -/

section Body

variable (K : Dev nD × Fin 7 → ℕ)

def bodyPre (c : Dev nD) : sProp 𝕄 :=
  iprop((ghost m ρ K c ∗ creds c ∗ levAts L lv ∗ scrAny c)
    ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

set_option maxHeartbeats 4000000 in
/-- The body, one rule per effect in program order, from `bodyPre` to `bodyPost`. -/
theorem sound_body (c : Dev nD) (Kt : PUnit → sProp 𝕄) :
    iprop(bodyPre m ρ K c ∗ (bodyPost m ρ c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_scratch0) (Memref.isWhole_whole _) cc0_scratch1 cc0_scratch2) Kt := by
  simp only [cc0_body_eq_skeleton]; unfold cc0_body_skel
  simp only [k0_part1_eq_skeleton, k0_part2_eq_skeleton, k0_part3_eq_skeleton, k0_part4_eq_skeleton, k0_part5_eq_skeleton]
  unfold k0_part1_skel k0_part2_skel k0_part3_skel k0_part4_skel k0_part5_skel
  simp only [semSignalWord, semWaitWord, Prog.lift, Prog.bind_op, Prog.bind_ret, Prog.pure_eq_ret, wp_deviceId]
  unfold bodyPre ghost records positions payToks creds scrAny
  iintro ⟨⟨⟨⟨⟨#HI, #HR⟩, ⟨HaB, HaS0, HaS1, HaS2, HaV0, HaV1, HaV2⟩, ⟨HtB2, HtB1, HtB0, HtV0, HtV1, HtV2, HtS0, HtS1, HtS2⟩⟩, ⟨HcB, HcV0, HcV1, HcV2⟩, #Hlev, ⟨%f0, Hscr⟩⟩,
    Ho, ⟨%d0, %g0, %hg0, Hx⟩, ⟨%d1, %g1, %hg1, Hout⟩⟩, Hk⟩
  have hx : g0 = xstg m ρ c := by rw [hg0]; unfold Dat.before; rw [if_pos (fetch_0 t₀)]; rfl
  subst hx
  unfold Dat.owesAt Pipeline.owesWithin
  icases Ho with ⟨%W, %hW, HO⟩
  rw [show (dats m ρ 0 c).owed t₀.castSucc = O₀ c from rfl]
  simp only [dev1_eq c, dev2_eq c, dev3_eq c]
  -- the scratch buffer, row by row
  ihave Hscr := (scr_split c f0) $$ Hscr
  icases Hscr with ⟨H0, H1, H2, H3, Hoff⟩
  unfold O₀
  -- the signal to the device that sends into row 2: duty 2 of its barrier cell, with row 2 and the stand at round 0 of receive cell 2
  iapply (Rounds.wp_signal 𝒱₀ ER (meanRd m ρ) (c : Thread nD τ) none (dst := (src 2 c : Thread nD τ)) (κ := K (src 2 c, 0))
      (d := 2) (by rw [duties_bar]; exact Finset.mem_univ _) ((amount_bar m ρ (src 2 c) 2).trans (by decide)) () (O₁ c) rfl)
    $$ [HO HtB2 H2]
  · isplitr; · iapply (inv_at m ρ K (src 2 c, 0)); iexact HI
    isplitl [HO]; · iexact HO
    isplitl [HtB2]; · iexact HtB2
    isplitl [H2]
    · rw [payload_bar]; unfold barPay; rw [tgt_src]
      isplitl [H2]; · iexists f0; iexact H2
      iapply (reached_at (F := F) (c, 6)); iexact HR
    · iapply (reached_at (F := F) (src 2 c, 0)); iexact HR
  iintro HO
  unfold O₁
  -- the signal to the device that sends into row 1: duty 1 of its barrier cell, with row 1 and the stand at round 0 of receive cell 1
  iapply (Rounds.wp_signal 𝒱₀ ER (meanRd m ρ) (c : Thread nD τ) none (dst := (src 1 c : Thread nD τ)) (κ := K (src 1 c, 0))
      (d := 1) (by rw [duties_bar]; exact Finset.mem_univ _) ((amount_bar m ρ (src 1 c) 1).trans (by decide)) () (O₂ c) rfl)
    $$ [HO HtB1 H1]
  · isplitr; · iapply (inv_at m ρ K (src 1 c, 0)); iexact HI
    isplitl [HO]; · iexact HO
    isplitl [HtB1]; · iexact HtB1
    isplitl [H1]
    · rw [payload_bar]; unfold barPay; rw [tgt_src]
      isplitl [H1]; · iexists f0; iexact H1
      iapply (reached_at (F := F) (c, 5)); iexact HR
    · iapply (reached_at (F := F) (src 1 c, 0)); iexact HR
  iintro HO
  unfold O₂
  -- the signal to the device that sends into row 0: duty 0 of its barrier cell, with row 0 and the stand at round 0 of receive cell 0
  iapply (Rounds.wp_signal 𝒱₀ ER (meanRd m ρ) (c : Thread nD τ) none (dst := (src 0 c : Thread nD τ)) (κ := K (src 0 c, 0))
      (d := 0) (by rw [duties_bar]; exact Finset.mem_univ _) ((amount_bar m ρ (src 0 c) 0).trans (by decide)) () (O₃ c) rfl)
    $$ [HO HtB0 H0]
  · isplitr; · iapply (inv_at m ρ K (src 0 c, 0)); iexact HI
    isplitl [HO]; · iexact HO
    isplitl [HtB0]; · iexact HtB0
    isplitl [H0]
    · rw [payload_bar]; unfold barPay; rw [tgt_src]
      isplitl [H0]; · iexists f0; iexact H0
      iapply (reached_at (F := F) (c, 4)); iexact HR
    · iapply (reached_at (F := F) (src 0 c, 0)); iexact HR
  iintro HO
  -- the block of the array, row 3 as it stands, and the partial mean stored in row 3
  iapply (wp_load 𝒱₀ (c : Thread nD τ) none Set.univ (m := xM) (Finset.subset_univ _)) $$ Hx; iintro Hx
  rw [read_x]
  unfold rowPts
  iapply (wp_load 𝒱₀ (c : Thread nD τ) none Set.univ (m := sM) load_sub3) $$ H3; iintro H3
  iapply (wp_store 𝒱₀ (c : Thread nD τ) none Set.univ (m := sM) (r := rc 3 inb_S4x1x512_S1x1x512_3_0_0) (Mk := Finset.univ) store_sub3) $$ H3; iintro H3
  ihave H3 := (Entails.of_eq (row3_stored m ρ c fullShare _)) $$ H3
  ihave H3 := (row3_shares c _).1 $$ H3
  icases H3 with ⟨H3k, H3s0, H3s1, H3s2⟩
  -- the WAIT for 3 on its own barrier, owing the three receive credits: the three targets' rows come with it
  iapply (Rounds.wp_wait_rest_token 𝒱₀ ER (meanRd m ρ) (c : Thread nD τ) none (κ := K (c, 0))
      (wpE_semWait_eq 𝒱₀ (c : Thread nD τ) none Set.univ) (Set.mem_univ _) () (O := O₃ c) (R := 0) (m := 0) (T := ∅)
      (by rw [expect_bar]; decide)) $$ [HcB HO HaB]
  · isplitr; · iapply (inv_at m ρ K (c, 0)); iexact HI
    isplitl [HcB]; · iexact HcB
    isplitl [HO]; · iexact HO
    isplitr; · iapply (mayWait_bar c); iexact Hlev
    iexact HaB
  iintro ⟨HO, HaB, -, Hpay⟩
  ihave Hp := (Entails.of_eq (rest_bar m ρ c)) $$ Hpay
  unfold barPay
  icases Hp with ⟨⟨⟨%fn0, Hn0⟩, #HrN0⟩, ⟨⟨%fn1, Hn1⟩, #HrN1⟩, ⟨%fn2, Hn2⟩, #HrN2⟩
  unfold O₃
  -- copy 0: row 3 into row 0 of the device 1 places on
  iapply (wp_send_row0 m ρ K c _ (dev4_eq c) fn0 _ (tallyAt (recvCell (tgt 2 c) 2) () N + tallyAt (recvCell (tgt 1 c) 1) () N) (rfl) _) $$ [H3s0 Hn0 HO HtS0 HtV0]
  · isplitr; · iapply (inv_at m ρ K (c, 1)); iexact HI
    isplitr; · iapply (inv_at m ρ K (tgt 0 c, 4)); iexact HI
    isplitl [H3s0]; · iexact H3s0
    isplitl [Hn0]; · iexact Hn0
    isplitl [HO]; · iexact HO
    isplitl [HtS0]; · iexact HtS0
    isplitr; · iapply (reached_at (F := F) (c, 1)); iexact HR
    isplitl [HtV0]; · iexact HtV0
    iexact HrN0
  iintro ⟨HcS0, HO⟩
  -- copy 1: row 3 into row 1 of the device 2 places on
  iapply (wp_send_row1 m ρ K c _ (dev5_eq c) fn1 _ (tallyAt (recvCell (tgt 2 c) 2) () N) (rfl) _) $$ [H3s1 Hn1 HO HtS1 HtV1]
  · isplitr; · iapply (inv_at m ρ K (c, 2)); iexact HI
    isplitr; · iapply (inv_at m ρ K (tgt 1 c, 5)); iexact HI
    isplitl [H3s1]; · iexact H3s1
    isplitl [Hn1]; · iexact Hn1
    isplitl [HO]; · iexact HO
    isplitl [HtS1]; · iexact HtS1
    isplitr; · iapply (reached_at (F := F) (c, 2)); iexact HR
    isplitl [HtV1]; · iexact HtV1
    iexact HrN1
  iintro ⟨HcS1, HO⟩
  -- copy 2: row 3 into row 2 of the device 3 places on
  iapply (wp_send_row2 m ρ K c _ (dev6_eq c) fn2 _ (0) ((zero_add _).symm) _) $$ [H3s2 Hn2 HO HtS2 HtV2]
  · isplitr; · iapply (inv_at m ρ K (c, 3)); iexact HI
    isplitr; · iapply (inv_at m ρ K (tgt 2 c, 6)); iexact HI
    isplitl [H3s2]; · iexact H3s2
    isplitl [Hn2]; · iexact Hn2
    isplitl [HO]; · iexact HO
    isplitl [HtS2]; · iexact HtS2
    isplitr; · iapply (reached_at (F := F) (c, 3)); iexact HR
    isplitl [HtV2]; · iexact HtV2
    iexact HrN2
  iintro ⟨HcS2, HO⟩
  -- the wait on receive cell 0: row 0 holding the sender's partial mean
  iapply (Rounds.wp_wait_rest_token 𝒱₀ ER (meanRd m ρ) (c : Thread nD τ) none (κ := K (c, 4))
      (wpE_waitDma2_eq 𝒱₀ (c : Thread nD τ) none Set.univ) (Set.mem_univ _) () (O := 0) (R := 0) (m := 0) (T := ∅)
      (by rw [Nat.zero_add]; exact (expect_recv m ρ c 0).symm)) $$ [HcV0 HO HaV0]
  · isplitr; · iapply (inv_at m ρ K (c, 4)); iexact HI
    isplitl [HcV0]; · iexact HcV0
    isplitl [HO]; · iexact HO
    isplitr; · rw [MayWait_zero]; iempintro
    iexact HaV0
  iintro ⟨HO, HaV0, -, Hpay⟩
  ihave Hr0 := (Entails.of_eq ((rest_recv m ρ c 0).trans (show recvPay m ρ c 0 = (((ℓs c) ↦[rowSet 0]{fullShare} landed m ρ 0 c : sProp 𝕄)) from rfl))) $$ Hpay
  -- the wait on receive cell 1: row 1 holding the sender's partial mean
  iapply (Rounds.wp_wait_rest_token 𝒱₀ ER (meanRd m ρ) (c : Thread nD τ) none (κ := K (c, 5))
      (wpE_waitDma2_eq 𝒱₀ (c : Thread nD τ) none Set.univ) (Set.mem_univ _) () (O := 0) (R := 0) (m := 0) (T := ∅)
      (by rw [Nat.zero_add]; exact (expect_recv m ρ c 1).symm)) $$ [HcV1 HO HaV1]
  · isplitr; · iapply (inv_at m ρ K (c, 5)); iexact HI
    isplitl [HcV1]; · iexact HcV1
    isplitl [HO]; · iexact HO
    isplitr; · rw [MayWait_zero]; iempintro
    iexact HaV1
  iintro ⟨HO, HaV1, -, Hpay⟩
  ihave Hr1 := (Entails.of_eq ((rest_recv m ρ c 1).trans (show recvPay m ρ c 1 = (((ℓs c) ↦[rowSet 1]{fullShare} landed m ρ 1 c : sProp 𝕄)) from rfl))) $$ Hpay
  -- the wait on receive cell 2: row 2 holding the sender's partial mean
  iapply (Rounds.wp_wait_rest_token 𝒱₀ ER (meanRd m ρ) (c : Thread nD τ) none (κ := K (c, 6))
      (wpE_waitDma2_eq 𝒱₀ (c : Thread nD τ) none Set.univ) (Set.mem_univ _) () (O := 0) (R := 0) (m := 0) (T := ∅)
      (by rw [Nat.zero_add]; exact (expect_recv m ρ c 2).symm)) $$ [HcV2 HO HaV2]
  · isplitr; · iapply (inv_at m ρ K (c, 6)); iexact HI
    isplitl [HcV2]; · iexact HcV2
    isplitl [HO]; · iexact HO
    isplitr; · rw [MayWait_zero]; iempintro
    iexact HaV2
  iintro ⟨HO, HaV2, -, Hpay⟩
  ihave Hr2 := (Entails.of_eq ((rest_recv m ρ c 2).trans (show recvPay m ρ c 2 = (((ℓs c) ↦[rowSet 2]{fullShare} landed m ρ 2 c : sProp 𝕄)) from rfl))) $$ Hpay
  -- the four rows, the result buffer as it stands, and the sum stored
  unfold rowPts
  iapply (wp_load 𝒱₀ (c : Thread nD τ) none Set.univ (m := sM) load_sub0) $$ Hr0; iintro Hr0
  iapply (wp_load 𝒱₀ (c : Thread nD τ) none Set.univ (m := sM) load_sub1) $$ Hr1; iintro Hr1
  iapply (wp_load 𝒱₀ (c : Thread nD τ) none Set.univ (m := sM) load_sub2) $$ Hr2; iintro Hr2
  iapply (wp_load 𝒱₀ (c : Thread nD τ) none Set.univ (m := sM) load_sub3) $$ H3k; iintro H3k
  iapply (wp_load 𝒱₀ (c : Thread nD τ) none Set.univ (m := oM) (Finset.subset_univ _)) $$ Hout; iintro Hout
  iapply (wp_store 𝒱₀ (c : Thread nD τ) none Set.univ (m := oM) (r := r0o) (Mk := Finset.univ) (Finset.subset_univ _)) $$ Hout; iintro Hout
  rw [write_out]
  -- the wait on send cell 0: that copy's share of row 3 back
  iapply (Rounds.wp_wait_rest_token 𝒱₀ ER (meanRd m ρ) (c : Thread nD τ) none (κ := K (c, 1))
      (wpE_waitDma2_eq 𝒱₀ (c : Thread nD τ) none Set.univ) (Set.mem_univ _) () (O := 0) (R := 0) (m := 0) (T := ∅)
      (by rw [Nat.zero_add]; exact (expect_send m ρ c 0).symm)) $$ [HcS0 HO HaS0]
  · isplitr; · iapply (inv_at m ρ K (c, 1)); iexact HI
    isplitl [HcS0]; · iexact HcS0
    isplitl [HO]; · iexact HO
    isplitr; · rw [MayWait_zero]; iempintro
    iexact HaS0
  iintro ⟨HO, HaS0, -, Hpay⟩
  ihave H3s0 := (Entails.of_eq ((rest_send m ρ c 0).trans (show sendPay m ρ c 0 = (((ℓs c) ↦[rowSet 3]{qSend 0} g3 m ρ c : sProp 𝕄)) from rfl))) $$ Hpay
  -- the wait on send cell 1: that copy's share of row 3 back
  iapply (Rounds.wp_wait_rest_token 𝒱₀ ER (meanRd m ρ) (c : Thread nD τ) none (κ := K (c, 2))
      (wpE_waitDma2_eq 𝒱₀ (c : Thread nD τ) none Set.univ) (Set.mem_univ _) () (O := 0) (R := 0) (m := 0) (T := ∅)
      (by rw [Nat.zero_add]; exact (expect_send m ρ c 1).symm)) $$ [HcS1 HO HaS1]
  · isplitr; · iapply (inv_at m ρ K (c, 2)); iexact HI
    isplitl [HcS1]; · iexact HcS1
    isplitl [HO]; · iexact HO
    isplitr; · rw [MayWait_zero]; iempintro
    iexact HaS1
  iintro ⟨HO, HaS1, -, Hpay⟩
  ihave H3s1 := (Entails.of_eq ((rest_send m ρ c 1).trans (show sendPay m ρ c 1 = (((ℓs c) ↦[rowSet 3]{qSend 1} g3 m ρ c : sProp 𝕄)) from rfl))) $$ Hpay
  -- the wait on send cell 2: that copy's share of row 3 back
  iapply (Rounds.wp_wait_rest_token 𝒱₀ ER (meanRd m ρ) (c : Thread nD τ) none (κ := K (c, 3))
      (wpE_waitDma2_eq 𝒱₀ (c : Thread nD τ) none Set.univ) (Set.mem_univ _) () (O := 0) (R := 0) (m := 0) (T := ∅)
      (by rw [Nat.zero_add]; exact (expect_send m ρ c 2).symm)) $$ [HcS2 HO HaS2]
  · isplitr; · iapply (inv_at m ρ K (c, 3)); iexact HI
    isplitl [HcS2]; · iexact HcS2
    isplitl [HO]; · iexact HO
    isplitr; · rw [MayWait_zero]; iempintro
    iexact HaS2
  iintro ⟨HO, HaS2, -, Hpay⟩
  ihave H3s2 := (Entails.of_eq ((rest_send m ρ c 2).trans (show sendPay m ρ c 2 = (((ℓs c) ↦[rowSet 3]{qSend 2} g3 m ρ c : sProp 𝕄)) from rfl))) $$ Hpay
  -- the six own cells close: their counters at zero are the core's again
  imod (Rounds.cell_close ER (meanRd m ρ) (Set.mem_univ (K (c, 1))) (fun h => h) (R := 0 + 1) (duties_later m ρ (sendCell c 0))) $$ [HaS0] with HzS0
  · isplitr; · iapply (inv_at m ρ K (c, 1)); iexact HI
    iexact HaS0
  imod (Rounds.cell_close ER (meanRd m ρ) (Set.mem_univ (K (c, 2))) (fun h => h) (R := 0 + 1) (duties_later m ρ (sendCell c 1))) $$ [HaS1] with HzS1
  · isplitr; · iapply (inv_at m ρ K (c, 2)); iexact HI
    iexact HaS1
  imod (Rounds.cell_close ER (meanRd m ρ) (Set.mem_univ (K (c, 3))) (fun h => h) (R := 0 + 1) (duties_later m ρ (sendCell c 2))) $$ [HaS2] with HzS2
  · isplitr; · iapply (inv_at m ρ K (c, 3)); iexact HI
    iexact HaS2
  imod (Rounds.cell_close ER (meanRd m ρ) (Set.mem_univ (K (c, 4))) (fun h => h) (R := 0 + 1) (duties_later m ρ (recvCell c 0))) $$ [HaV0] with HzV0
  · isplitr; · iapply (inv_at m ρ K (c, 4)); iexact HI
    iexact HaV0
  imod (Rounds.cell_close ER (meanRd m ρ) (Set.mem_univ (K (c, 5))) (fun h => h) (R := 0 + 1) (duties_later m ρ (recvCell c 1))) $$ [HaV1] with HzV1
  · isplitr; · iapply (inv_at m ρ K (c, 5)); iexact HI
    iexact HaV1
  imod (Rounds.cell_close ER (meanRd m ρ) (Set.mem_univ (K (c, 6))) (fun h => h) (R := 0 + 1) (duties_later m ρ (recvCell c 2))) $$ [HaV2] with HzV2
  · isplitr; · iapply (inv_at m ρ K (c, 6)); iexact HI
    iexact HaV2
  rw [wp_ret]; imodintro
  iapply Hk
  unfold bodyPost Φ₁ ownZero Dat.owesAt Pipeline.owesWithin
  rw [show (dats m ρ 0 c).owed t₀.succ = 0 from rfl]
  isplitl [Hr0 Hr1 Hr2 H3k H3s0 H3s1 H3s2 Hoff HzS0 HzS1 HzS2 HzV0 HzV1 HzV2]
  · isplitl [Hr0 Hr1 Hr2 H3k H3s0 H3s1 H3s2 Hoff]
    · ihave H3 := (row3_shares c (g3 m ρ c)).2 $$ [H3k H3s0 H3s1 H3s2]
      · unfold rowPts
        isplitl [H3k]; · iexact H3k
        isplitl [H3s0]; · iexact H3s0
        isplitl [H3s1]; · iexact H3s1
        iexact H3s2
      iapply (scr_join c (landed m ρ 0 c) (landed m ρ 1 c) (landed m ρ 2 c) (g3 m ρ c) f0)
      unfold rowPts
      isplitl [Hr0]; · iexact Hr0
      isplitl [Hr1]; · iexact Hr1
      isplitl [Hr2]; · iexact Hr2
      isplitl [H3]; · iexact H3
      iexact Hoff
    · isplitl [HzS0]; · iexact HzS0
      isplitl [HzS1]; · iexact HzS1
      isplitl [HzS2]; · iexact HzS2
      isplitl [HzV0]; · iexact HzV0
      isplitl [HzV1]; · iexact HzV1
      iexact HzV2
  isplitl [HO]
  · iexists (insert (SemLoc.dma (sendS 2), ()) (insert (SemLoc.dma (sendS 1), ()) (insert (SemLoc.dma (sendS 0), ()) (insert (SemLoc.dma (recvS 2), ())
      (insert (SemLoc.dma (recvS 1), ()) (insert (SemLoc.dma (recvS 0), ()) (insert (SemLoc.reg barS, ()) W)))))))
    isplitr; · ipureintro; exact fun _ _ => Or.inl trivial
    iexact HO
  isplitl [Hx]
  · iexists _; isplitr; · (ipureintro; rfl)
    iexact Hx
  iexists _; isplitr; · (ipureintro; rfl)
  iexact Hout

set_option maxRecDepth 4000 in
/-- The library's body obligation on core `c`. -/
theorem body_obligation (c : Dev nD) : BodyObligation (dats (F := F) m ρ 0 c) (defs₀ (F := F)) 𝒱₀ () Set.univ := fun t => by
  rw [fin_N t]
  rw [bigSep_W, bigSep_W]
  simp only [owns_whole_eq]
  show bodyPre' m ρ c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_scratch0) (Memref.isWhole_whole _) cc0_scratch1 cc0_scratch2) (fun _ => bodyPost m ρ c)
  unfold bodyPre' Φ₀ start
  iintro ⟨⟨⟨⟨%K, Hg⟩, Hcr, Hlev⟩, Hscr⟩, Ho, Hx, Hout⟩
  iapply (sound_body m ρ K c fun _ => bodyPost m ρ c)
  unfold bodyPre
  isplitr []
  · isplitl [Hg Hcr Hlev Hscr]
    · isplitl [Hg]; · iexact Hg
      isplitl [Hcr]; · iexact Hcr
      isplitl [Hlev]; · iexact Hlev
      iexact Hscr
    isplitl [Ho]; · iexact Ho
    isplitl [Hx] <;> iassumption
  · iintro H; iexact H

end Body

end Cert.KernelIdeal.Mean

end
-- ==== Proof.KernelIdeal.Launch.lean ====
/-
  The launch of the four-device mean. Every device's seven cells — its barrier cell, its three send cells, its
  three receive cells — start at counter zero, round 0 reached, nothing taken. The launch mints each device the
  duty tokens of its OWN cells (nine: the barrier's three duties, one per send cell, one per receive cell) and
  deals them round the ring to the devices that PAY those duties: barrier duty d of a device goes to the device
  that receives its copy d, a receive cell's duty to the device that sends into it, a send cell's duty stays. The
  units the devices owe each other at launch come back as credit tokens: every device is owed three barrier units
  (one from each other device) and the credit of one copy on each receive cell. From these the launch theorem for
  cores that owe at launch, with the runtime's barrier semaphore handed to the global step, gives the run: every
  weakly fair execution terminates and every window's array ends at the contents the proof data name.
-/
import proofs.«900938_g7700000000000939_dist_mean_ax0_shard0_i_m1024_n512_v7x_i4_bf16_1_alg».proof.Defs
import proofs.«900938_g7700000000000939_dist_mean_ax0_shard0_i_m1024_n512_v7x_i4_bf16_1_alg».proof.Proof.Gen.KernelIdeal
import proofs.«900938_g7700000000000939_dist_mean_ax0_shard0_i_m1024_n512_v7x_i4_bf16_1_alg».proof.Proof.Gen.KernelIdeal.Skeleton
import proofs.«900938_g7700000000000939_dist_mean_ax0_shard0_i_m1024_n512_v7x_i4_bf16_1_alg».proof.Proof.Gen.KernelIdeal.Launch
import proofs.«900938_g7700000000000939_dist_mean_ax0_shard0_i_m1024_n512_v7x_i4_bf16_1_alg».proof.Proof.Gen.KernelIdeal.Points
import proofs.«900938_g7700000000000939_dist_mean_ax0_shard0_i_m1024_n512_v7x_i4_bf16_1_alg».proof.Proof.KernelIdeal.Proto
import proofs.«900938_g7700000000000939_dist_mean_ax0_shard0_i_m1024_n512_v7x_i4_bf16_1_alg».proof.Proof.KernelIdeal.State
import Idealize.ShloMosaic.Lib.Pipeline.Launch
import Idealize.ShloMosaic.Lib.Pipeline.Kit
import Idealize.ShloMosaic.Lib.ReshapeSlab
import Idealize.ShloMosaic.Lib.Writes
import Idealize.ShloMosaic.Lib.Tactic

noncomputable section

namespace Cert.KernelIdeal.Mean

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The layout -/

theorem ownSemFacts : Pipeline.OwnSemFacts cfg0.spec osem := by decide

theorem share_eq (c : Dev nD) (w : Fin cfg0.W) : (dats m ρ 0 c).share w = fullShare := by unfold Dat.share; split <;> rfl

/-- The 28 cells of the protocol are pairwise distinct. -/
theorem kcell_injective : Function.Injective (kcell : Dev nD × Fin 7 → GSem nD τ sig) := by
  rintro ⟨c, k⟩ ⟨c', k'⟩ h
  have h1 : c = c' := by have := congrArg (fun g : GSem nD τ sig => g.1.1) h; exact this
  subst h1
  have h2 : csem k = csem k' := congrArg Prod.snd h
  have : k = k' := by fin_cases k <;> fin_cases k' <;> first | rfl | exact absurd h2 (by decide)
  subst this; rfl
def meanCells : Finset (GSem nD τ sig) := Finset.univ.map ⟨kcell, kcell_injective⟩

/-- A device's own cells' duty tokens as minted: (device, which of the nine) — its barrier's duties 0, 1, 2, then
    the one duty of each send cell, then of each receive cell. -/
abbrev tokOf (cj : Dev nD × Fin 9) : GSem nD τ sig × ℕ × Fin 3 := match cj.2 with
  | 0 => (barCell cj.1, 0, 0) | 1 => (barCell cj.1, 0, 1) | 2 => (barCell cj.1, 0, 2)
  | 3 => (sendCell cj.1 0, 0, 0) | 4 => (sendCell cj.1 1, 0, 0) | 5 => (sendCell cj.1 2, 0, 0)
  | 6 => (recvCell cj.1 0, 0, 0) | 7 => (recvCell cj.1 1, 0, 0) | 8 => (recvCell cj.1 2, 0, 0)
theorem tokOf_injective : Function.Injective (tokOf : Dev nD × Fin 9 → GSem nD τ sig × ℕ × Fin 3) := by
  rintro ⟨c, j⟩ ⟨c', j'⟩ h
  have h1 : c = c' := by
    have := congrArg (fun x : GSem nD τ sig × ℕ × Fin 3 => x.1.1.1) h
    fin_cases j <;> fin_cases j' <;> exact this
  subst h1
  have : j = j' := by
    fin_cases j <;> fin_cases j' <;> first | rfl | exact absurd (congrArg (fun x : GSem nD τ sig × ℕ × Fin 3 => (x.1.2, x.2.2)) h) (by decide +revert)
  subst this; rfl
def meanToks : Finset (GSem nD τ sig × ℕ × Fin 3) := Finset.univ.map ⟨tokOf, tokOf_injective⟩

/-- The launch element: the pipeline library's copy and the protocol's, side by side. -/
def u₀ : UU :=
  (initOf (Pipeline.cells cfgs cellOf_inj) (Pipeline.launchToks cfgs cellOf_inj), initOf meanCells meanToks)

/-- The duty tokens of device `c`'s own cells. -/
def toks (c : Dev nD) : sProp 𝕄 :=
  iprop(dutyTok ER (barCell c) 0 0 ∗ dutyTok ER (barCell c) 0 1 ∗ dutyTok ER (barCell c) 0 2
    ∗ dutyTok ER (sendCell c 0) 0 0 ∗ dutyTok ER (sendCell c 1) 0 0 ∗ dutyTok ER (sendCell c 2) 0 0
    ∗ dutyTok ER (recvCell c 0) 0 0 ∗ dutyTok ER (recvCell c 1) 0 0 ∗ dutyTok ER (recvCell c 2) 0 0)

/-- What the launch element deals device `c`: its seven cells' round states at counter zero, their positions and
    reached-marks, its own cells' tokens. -/
def G (c : Dev nD) : sProp 𝕄 :=
  iprop((bigSep Finset.univ fun k : Fin 7 => roundState ER (meanRd m ρ) (kcell (c, k)) 0)
    ∗ (bigSep Finset.univ fun k : Fin 7 => iprop(atPos ER (kcell (c, k)) 0 ∅ 0 ∗ reached ER (kcell (c, k)) 0)) ∗ toks c)

/-- What the global step makes of it: the ghost state device `c`'s body starts from, at some names. -/
def G' (c : Dev nD) : sProp 𝕄 := iprop(∃ K, ghost m ρ K c)

omit [FloatOps F] in
theorem bigSep_fin7 (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ
omit [FloatOps F] in
theorem bigSep_fin9 (Φ : Fin 9 → sProp 𝕄) : bigSep Finset.univ Φ = iprop(Φ 0 ∗ Φ 1 ∗ Φ 2 ∗ Φ 3 ∗ Φ 4 ∗ Φ 5 ∗ Φ 6 ∗ Φ 7 ∗ Φ 8) :=
  bigSep_univ_eq_bigSepL [0, 1, 2, 3, 4, 5, 6, 7, 8] (by decide) (by decide) Φ

/-- The protocol's launch element, device by device. -/
theorem fund_mean : BI.own (ER (initOf meanCells meanToks)) ⊢ (|==> bigSep Finset.univ (G m ρ) : sProp 𝕄) := by
  have hX (Φ : GSem nD τ sig → sProp 𝕄) : bigSep meanCells Φ = bigSep Finset.univ fun c : Dev nD => bigSep Finset.univ fun k : Fin 7 => Φ (kcell (c, k)) := by
    unfold meanCells; rw [bigSep_map, bigSep_univ_prod]; rfl
  have hT : bigSep meanToks (fun x => (dutyTok ER x.1 x.2.1 x.2.2 : sProp 𝕄)) = bigSep Finset.univ fun c : Dev nD => toks c := by
    unfold meanToks; rw [bigSep_map, bigSep_univ_prod]
    exact bigSep_congr fun c _ => by unfold toks; rw [bigSep_fin9]; rfl
  iintro HX
  imod (Rounds.fund ER (meanRd m ρ) meanCells meanToks) $$ HX with ⟨Hst, Hr, Hat, Htok⟩
  imodintro
  ihave Hst' := (Entails.of_eq (hX fun g => roundState ER (meanRd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The semaphores at zero, and the cells' invariants allocated -/

omit [FloatOps F] in
/-- The three send and the three receive semaphores are the kernel's own six; -/
theorem ownSems0_eq (c : Dev nD) : (Pipeline.ownSems0 (Ix := Unit) (Name := ℕ) (U := UU) (Lvl := ℕ) (Val := Elt F) (τ := τ) osem c : sProp 𝕄)
    = ownZero c := by
  rw [Pipeline.ownSems0_eq_of_list c osem [0, 1, 2, 3, 4, 5] (by decide) (by decide)]; rfl
omit [FloatOps F] in
/-- the barrier semaphore the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 7 => semVal (kcell (c, k)) 0 : sProp 𝕄) := by
  rw [ownSems0_eq, unscopedSems0_eq, bigSep_fin7]
  unfold ownZero
  iintro ⟨⟨S0, S1, S2, R0, R1, R2⟩, HB⟩
  isplitl [HB]; · iexact HB
  isplitl [S0]; · iexact S0
  isplitl [S1]; · iexact S1
  isplitl [S2]; · iexact S2
  isplitl [R0]; · iexact R0
  isplitl [R1]; · iexact R1
  iexact R2

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (meanRd m ρ) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 7 => semVal (kcell (c, k)) 0) ∗ bigSep Finset.univ fun k : Fin 7 => roundState ER (meanRd m ρ) (kcell (c, k)) 0)
      ⊢ (|={Set.univ}=> bigSep Finset.univ fun k => iprop(∃ κ : ℕ, cellInv ER (meanRd m ρ) κ (kcell (c, k))) : sProp 𝕄) from by
        rw [← bigSep_sep']
        exact (bigSep_mono fun k _ => (Rounds.body_intro ER (meanRd m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-! ## From the devices' own holdings to what each body starts from -/

/-- What stays linear with device `c`: its positions, and the tokens of the duties IT pays. -/
def linear (c : Dev nD) : sProp 𝕄 := iprop(positions c ∗ payToks c)

theorem ghost_intro (K : Dev nD × Fin 7 → ℕ) (c : Dev nD) : iprop(records m ρ K ∗ linear c) ⊢ G' m ρ c := by
  unfold linear G' ghost
  iintro H
  iexists K
  iexact H

omit [FloatOps F] in
/-- The tokens dealt round the ring. A barrier's duty `d` is paid by the receiver of copy `d`, so the token of
    `barCell c` duty `d` goes to `tgt d c`: summed over the devices, device `c` gets that of `barCell (src d c)`. A
    receive cell's duty is paid by the sender, so the token of `recvCell c j` goes to `src j c`: device `c` gets that
    of `recvCell (tgt j c) j`. The send cells' tokens stay. -/
theorem toks_around : (bigSep Finset.univ fun c : Dev nD => (toks c : sProp 𝕄)) ⊢ bigSep Finset.univ fun c : Dev nD => payToks c := by
  unfold toks payToks
  simp only [bigSep_sep']
  rw [bigSep_univ_equiv (srcEquiv 0) (fun c : Dev nD => (dutyTok ER (barCell c) 0 0 : sProp 𝕄)),
    bigSep_univ_equiv (srcEquiv 1) (fun c : Dev nD => (dutyTok ER (barCell c) 0 1 : sProp 𝕄)),
    bigSep_univ_equiv (srcEquiv 2) (fun c : Dev nD => (dutyTok ER (barCell c) 0 2 : sProp 𝕄)),
    bigSep_univ_equiv (tgtEquiv 0) (fun c : Dev nD => (dutyTok ER (recvCell c 0) 0 0 : sProp 𝕄)),
    bigSep_univ_equiv (tgtEquiv 1) (fun c : Dev nD => (dutyTok ER (recvCell c 1) 0 0 : sProp 𝕄)),
    bigSep_univ_equiv (tgtEquiv 2) (fun c : Dev nD => (dutyTok ER (recvCell c 2) 0 0 : sProp 𝕄))]
  iintro ⟨B0, B1, B2, S0, S1, S2, R0, R1, R2⟩
  isplitl [B2]; · iexact B2
  isplitl [B1]; · iexact B1
  isplitl [B0]; · iexact B0
  isplitl [R0]; · iexact R0
  isplitl [R1]; · iexact R1
  isplitl [R2]; · iexact R2
  isplitl [S0]; · iexact S0
  isplitl [S1]; · iexact S1
  iexact S2

omit [FloatOps F] in
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (meanRd m ρ) κ (kcell (c, k))))
          ∗ (bigSep Finset.univ fun k => iprop(atPos ER (kcell (c, k)) 0 ∅ 0 ∗ reached ER (kcell (c, k)) 0)) ∗ toks c) : sProp 𝕄)
      ⊢ bigSep Finset.univ (G' m ρ) := by
  rw [bigSep_sep', bigSep_sep', ← bigSep_univ_prod (fun ck : Dev nD × Fin 7 => iprop(∃ κ : ℕ, cellInv ER (meanRd m ρ) κ (kcell ck))),
    bigSep_congr (s := Finset.univ) (fun (c : Dev nD) _ => bigSep_sep' Finset.univ (fun k : Fin 7 => (atPos ER (kcell (c, k)) 0 ∅ 0 : sProp 𝕄)) (fun k => reached ER (kcell (c, k)) 0)),
    bigSep_sep', ← bigSep_univ_prod (fun ck : Dev nD × Fin 7 => (reached ER (kcell ck) 0 : sProp 𝕄))]
  iintro ⟨HI, ⟨Hat, #HR⟩, Htok⟩
  ihave HK := (BI.bigSep_exists_pi Finset.univ (fun (ck : Dev nD × Fin 7) (κ : ℕ) => (cellInv ER (meanRd m ρ) κ (kcell ck) : sProp 𝕄))) $$ HI
  icases HK with ⟨%K, #HI⟩
  ihave Htk := (toks_around (F := F)) $$ Htok
  iapply (bigSep_with_persistent (R := records m ρ K) fun c _ => ghost_intro m ρ K c)
  isplitr
  · unfold records; isplitl; · iexact HI
    iexact HR
  · iapply ((Entails.of_eq (bigSep_sep' Finset.univ (fun c : Dev nD => bigSep Finset.univ fun k : Fin 7 => (atPos ER (kcell (c, k)) 0 ∅ 0 : sProp 𝕄)) payToks).symm).trans
      (bigSep_mono fun c _ => show _ ⊢ linear c from Entails.of_eq (by unfold linear positions; rw [bigSep_fin7])))
    isplitl [Hat]; · iexact Hat
    iexact Htk

/-- The global step: own AND unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The launch credit -/

omit [FloatOps F] in
/-- What the other devices owe device `c`'s cells at launch, as credit tokens: one barrier unit from each of the three
    devices whose copies `c` receives, joined into three; and on each receive cell the credit of the copy into it. Each of
    the six summands of what a device owes names ONE cell of the device a fixed number of places round the ring, and
    that map of the devices is a bijection. -/
theorem creds_intro (c : Dev nD) : (Pipeline.launchCred O₀ c : sProp 𝕄) ⊢ creds c := by
  rw [show (O₀ : Dev nD → CellTallies nD τ sig Unit) = fun d => O₁ d + tallyAt (barCell (src 2 d)) () 1 from rfl, Pipeline.launchCred_add,
    show (O₁ : Dev nD → CellTallies nD τ sig Unit) = fun d => O₂ d + tallyAt (barCell (src 1 d)) () 1 from rfl, Pipeline.launchCred_add,
    show (O₂ : Dev nD → CellTallies nD τ sig Unit) = fun d => O₃ d + tallyAt (barCell (src 0 d)) () 1 from rfl, Pipeline.launchCred_add,
    show (O₃ : Dev nD → CellTallies nD τ sig Unit) = fun d => (tallyAt (recvCell (tgt 2 d) 2) () N + tallyAt (recvCell (tgt 1 d) 1) () N)
      + tallyAt (recvCell (tgt 0 d) 0) () N from rfl, Pipeline.launchCred_add, Pipeline.launchCred_add]
  iintro ⟨⟨⟨⟨⟨HR2, HR1⟩, HR0⟩, HB0⟩, HB1⟩, HB2⟩
  ihave C2 := (Pipeline.launchCred_tallyAt (SemLoc.dma (recvS 2)) (tgt 2) (src 2) (tgt_src 2) (src_tgt 2) () N c) $$ HR2
  ihave C1 := (Pipeline.launchCred_tallyAt (SemLoc.dma (recvS 1)) (tgt 1) (src 1) (tgt_src 1) (src_tgt 1) () N c) $$ HR1
  ihave C0 := (Pipeline.launchCred_tallyAt (SemLoc.dma (recvS 0)) (tgt 0) (src 0) (tgt_src 0) (src_tgt 0) () N c) $$ HR0
  ihave D0 := (Pipeline.launchCred_tallyAt (SemLoc.reg barS) (src 0) (tgt 0) (src_tgt 0) (tgt_src 0) () 1 c) $$ HB0
  ihave D1 := (Pipeline.launchCred_tallyAt (SemLoc.reg barS) (src 1) (tgt 1) (src_tgt 1) (tgt_src 1) () 1 c) $$ HB1
  ihave D2 := (Pipeline.launchCred_tallyAt (SemLoc.reg barS) (src 2) (tgt 2) (src_tgt 2) (tgt_src 2) () 1 c) $$ HB2
  unfold creds
  isplitl [D0 D1 D2]
  · have e3 : (tallyAt (barCell c) () 3 : CellTallies nD τ sig Unit)
        = tallyAt (barCell c) () 1 + tallyAt (barCell c) () 1 + tallyAt (barCell c) () 1 := by rw [tallyAt_add, tallyAt_add]
    rw [e3]
    iapply (cred_add _ _).2
    isplitl [D0 D1]
    · iapply (cred_add _ _).2
      isplitl [D0] <;> iassumption
    · iexact D2
  isplitl [C0]; · iexact C0
  isplitl [C1]; · iexact C1
  iexact C2

/-! ## The launch theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds_intro (F := F) c) $$ Hcr
  imodintro
  unfold start G'
  isplitl
  · isplitl [HG]; · iexact HG
    isplitl [Hc]; · iexact Hc
    iexact Hlev
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ scrAny
  iintro ⟨Hs, -, ⟨%f, Hr⟩⟩
  isplitl [Hs]; · iexact Hs
  iexists f; iexact Hr

theorem phi1_exit (c : Dev nD) :
    (dats m ρ 0 c).Φ (Fin.last cfg0.N) ⊢ iprop(emp ∗ Pipeline.ownSems0 osem c ∗ Pipeline.scopedRest cfg0.spec c) := by
  rw [show (dats m ρ 0 c).Φ (Fin.last cfg0.N) = Φ₁ (F := F) c from rfl, scopedRest0_eq, ownSems0_eq]
  unfold Φ₁ scrAny
  iintro ⟨Hr, Hz⟩
  isplitr; · iempintro
  isplitl [Hz]; · iexact Hz
  iexact Hr

/-- The pipeline's own waits — on the two staging cells — sit below everything a device owes. -/
theorem waits (c : Dev nD) : (levAts L lv : sProp 𝕄) ⊢ Pipeline.cellsWaits cfgs (dats m ρ) () 0 c :=
  Pipeline.cellsWaits_intro cfgs (dats m ρ) () 0 c fun w s t =>
    mayWait_low c _ (by fin_cases w <;> fin_cases s <;> decide) _ (by
      rcases t with ⟨_ | _, ht⟩
      · exact Or.inl rfl
      · exact Or.inr rfl)

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- At the compiled mesh of four devices, for any float values, from any memory with zero counters, given the body's
    obligation on every device: every weakly fair execution of @main — the four kernels meeting on the runtime's
    barrier semaphore, then copying their partial means to each other — terminates, and every final state has each
    window's array at the contents the proof data name. -/
theorem run_main (hbody : ∀ c : Dev nD, BodyObligation (dats (F := F) m ρ 0 c) (defs₀ (F := F)) 𝒱₀ () Set.univ) :
    θ_run defs (onTc (τ := τ) (main (F := F))) (s₀ m ρ) (QC m ρ) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := hbody) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_mean m ρ) $$ HX with HG
      imodintro
      isplitl [HP] <;> iassumption)
    (hglob := glob m ρ)
    (hA := fun _ _ => rfl) (hpf := fun _ k => k.elim0)
    (X := start m ρ) (Y := fun _ => iprop(emp)) (Z := fun _ => iprop(emp))
    (hX := start_intro m ρ) (hin := phi0_intro m ρ) (hout := phi1_exit m ρ)
    (QY := fun _ _ => True)
    (hY := fun c s' => by
      iintro ⟨-, -, HSI⟩
      imodintro
      isplitr; · ipureintro; trivial
      iexact HSI)
    (hQ := fun _ h c w => (h c).1 w)

/-- The input array after the run holds what it held. -/
theorem finalA_x (c : Dev nD) : finalA m ρ c (0 : Fin 2) = (s₀ m ρ).mem (win0_0.arr.view.loc (c : Thread nD τ)) :=
  (dats (F := F) m ρ 0 c).arrAt_in (0 : Fin 2) rfl _

/-- info: 'Cert.KernelIdeal.Mean.run_main' depends on axioms: [propext, Classical.choice, Quot.sound] -/
#guard_msgs in #print axioms run_main

end Cert.KernelIdeal.Mean

end
-- ==== Proof.KernelIdeal.FinalOut.lean ====
/-
  The result array after the run. The result window is the whole array at the one point, written back there: the
  array ends holding exactly what the body left in the staging buffer, the sum of the four rows.
-/
import proofs.«900938_g7700000000000939_dist_mean_ax0_shard0_i_m1024_n512_v7x_i4_bf16_1_alg».proof.Proof.KernelIdeal.Launch

noncomputable section

namespace Cert.KernelIdeal.Mean

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The result array after the run holds the kernel's result: the one write-back, of the whole array at block index
    zero, writes what the body left. -/
theorem finalA_out (c : Dev nD) : finalA m ρ c (1 : Fin 2) = outAt m ρ c := by
  show (dats m ρ 0 c).arrAt (1 : Fin 2) ((t₀ : Fin cfg0.N).val + 1) = _
  rw [Dat.arrAt_succ, flush0_1 t₀, if_pos rfl]
  exact Memref.write_access_unit_zero_univ (Elt F) main_v1 (funext fun a => Nat.zero_mul _) _ _ _

/-- info: 'Cert.KernelIdeal.Mean.finalA_out' depends on axioms: [propext, Classical.choice, Quot.sound] -/
#guard_msgs in #print axioms finalA_out

end Cert.KernelIdeal.Mean

end
-- ==== Proof.KernelIdeal.Bridge.lean ====
/-
  The kernel's result on a device as a term of the four devices' blocks alone: the sum, in row order, of the
  partial means of the devices that write its rows 0, 1, 2 and of its own. A row read through its squeezed
  memref after the copy has landed is what the copy carried, and a copy carries what the sender's row 3 holds.
-/
import proofs.«900938_g7700000000000939_dist_mean_ax0_shard0_i_m1024_n512_v7x_i4_bf16_1_alg».proof.Defs
import proofs.«900938_g7700000000000939_dist_mean_ax0_shard0_i_m1024_n512_v7x_i4_bf16_1_alg».proof.Proof.Gen.KernelIdeal
import proofs.«900938_g7700000000000939_dist_mean_ax0_shard0_i_m1024_n512_v7x_i4_bf16_1_alg».proof.Proof.Gen.KernelIdeal.Skeleton
import proofs.«900938_g7700000000000939_dist_mean_ax0_shard0_i_m1024_n512_v7x_i4_bf16_1_alg».proof.Proof.Gen.KernelIdeal.Launch
import proofs.«900938_g7700000000000939_dist_mean_ax0_shard0_i_m1024_n512_v7x_i4_bf16_1_alg».proof.Proof.KernelIdeal.Proto
import proofs.«900938_g7700000000000939_dist_mean_ax0_shard0_i_m1024_n512_v7x_i4_bf16_1_alg».proof.Proof.KernelIdeal.State
import Idealize.ShloMosaic.Lib.Pipeline.Value
import Idealize.ShloMosaic.Lib.Pipeline.Launch
import Idealize.ShloMosaic.Lib.Pipeline.Kit
import Idealize.ShloMosaic.Lib.ReshapeSlab
import Idealize.ShloMosaic.Lib.Writes
import Idealize.ShloMosaic.Lib.Tactic

noncomputable section

namespace Cert.KernelIdeal.Mean

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- What a copy carries is the sender's partial mean, re-shaped to the copy's row shape. -/
theorem carried_eq (d : Dev nD) :
    carried m ρ d = shapeCast S1x512 (k0_pay1 (xstg m ρ d)) shapeCasts_S1x1x512_S1x512 := by
  unfold carried
  rw [Memref.read_squeeze_slice (Val := Elt F) (sM : Memref sig .tc .vmem S4x1x512 .f32) (rc 3 inb_S4x1x512_S1x1x512_3_0_0) (fun _ => rfl)
    squeezes_S1x1x512_S1x512 shapeCasts_S1x1x512_S1x512]
  unfold g3
  exact congrArg (fun v => shapeCast S1x512 v shapeCasts_S1x1x512_S1x512) (View.read_write_univ _ _)

/-- A load of row `j` after the copy into it has landed, re-shaped as the sum takes it, is what the copy carried. -/
theorem row0_landed (c : Dev nD) :
    shapeCast S1x512 (rowRead (landed m ρ 0 c) 0 inb_S4x1x512_S1x1x512_0_0_0) shapeCasts_S1x1x512_S1x512 = carried m ρ (src 0 c) := by
  unfold rowRead
  rw [← Memref.read_squeeze_slice (Val := Elt F) (sM : Memref sig .tc .vmem S4x1x512 .f32) (rc 0 inb_S4x1x512_S1x1x512_0_0_0) (fun _ => rfl)
    squeezes_S1x1x512_S1x512 shapeCasts_S1x1x512_S1x512]
  unfold landed; exact View.read_write_univ _ _
theorem row1_landed (c : Dev nD) :
    shapeCast S1x512 (rowRead (landed m ρ 1 c) 1 inb_S4x1x512_S1x1x512_1_0_0) shapeCasts_S1x1x512_S1x512 = carried m ρ (src 1 c) := by
  unfold rowRead
  rw [← Memref.read_squeeze_slice (Val := Elt F) (sM : Memref sig .tc .vmem S4x1x512 .f32) (rc 1 inb_S4x1x512_S1x1x512_1_0_0) (fun _ => rfl)
    squeezes_S1x1x512_S1x512 shapeCasts_S1x1x512_S1x512]
  unfold landed; exact View.read_write_univ _ _
theorem row2_landed (c : Dev nD) :
    shapeCast S1x512 (rowRead (landed m ρ 2 c) 2 inb_S4x1x512_S1x1x512_2_0_0) shapeCasts_S1x1x512_S1x512 = carried m ρ (src 2 c) := by
  unfold rowRead
  rw [← Memref.read_squeeze_slice (Val := Elt F) (sM : Memref sig .tc .vmem S4x1x512 .f32) (rc 2 inb_S4x1x512_S1x1x512_2_0_0) (fun _ => rfl)
    squeezes_S1x1x512_S1x512 shapeCasts_S1x1x512_S1x512]
  unfold landed; exact View.read_write_univ _ _
theorem row3_own (c : Dev nD) :
    shapeCast S1x512 (rowRead (g3 m ρ c) 3 inb_S4x1x512_S1x1x512_3_0_0) shapeCasts_S1x1x512_S1x512 = carried m ρ c := by
  unfold rowRead carried
  rw [← Memref.read_squeeze_slice (Val := Elt F) (sM : Memref sig .tc .vmem S4x1x512 .f32) (rc 3 inb_S4x1x512_S1x1x512_3_0_0) (fun _ => rfl)
    squeezes_S1x1x512_S1x512 shapeCasts_S1x1x512_S1x512]

/-- The result on device `c`: the partial means of the devices 3, 2, 1 places on and its own, added in that order. -/
theorem outAt_eq (c : Dev nD) :
    outAt m ρ c = k0_pay2 (k0_pay1 (xstg m ρ (src 0 c))) (k0_pay1 (xstg m ρ (src 1 c))) (k0_pay1 (xstg m ρ (src 2 c))) (k0_pay1 (xstg m ρ c)) := by
  unfold outAt k0_pay2
  rw [row0_landed, row1_landed, row2_landed, row3_own, carried_eq, carried_eq, carried_eq, carried_eq]

/-- The staged block is the device's argument array: the window is the whole array. -/
theorem xstg_eq (c : Dev nD) : xstg m ρ c = m ((c : Thread nD τ).loc main_arg0) := by
  unfold xstg
  exact Memref.read_access_unit_zero (Elt F) main_arg0 (funext fun a => by fin_cases a <;> rfl) _ _

end Cert.KernelIdeal.Mean

end
-- ==== Proof.Kernel.Proto.lean ====
/-
  A mean over the rows of an array cut into four row blocks, one block per device. Each device sums the
  rows of its own block, scales the sum by 2^-12, stores that partial mean in row 3 of a four-row scratch
  buffer, sends it to the three other devices (into row j of the device j + 1 places further round the
  ring, j = 0, 1, 2), and adds the four rows it then holds.

  The protocol, as rounds of duties on semaphore cells. One round, round 0. A device's barrier cell has
  three duties, one unit each, duty d paid by the device that will receive this device's copy d, its payload
  that receiver's row d and that the receiver stands at round 0 of its receive cell d. A receive cell d has
  one duty, the copy's credit, its payload row d holding the sender's partial mean. A send cell d has one
  duty, the copy's credit, its payload a quarter share of the sender's own row 3, given back when the copy
  has read it. Levels: barrier cells at 1, receive cells at 2, everything else at 0, so a device that waits
  on its barrier owes only receive credits, and owes nothing at any later wait.
-/
import proofs.«900938_g7700000000000939_dist_mean_ax0_shard0_i_m1024_n512_v7x_i4_bf16_1_alg».proof.Defs
import proofs.«900938_g7700000000000939_dist_mean_ax0_shard0_i_m1024_n512_v7x_i4_bf16_1_alg».proof.Proof.Gen.Kernel
import proofs.«900938_g7700000000000939_dist_mean_ax0_shard0_i_m1024_n512_v7x_i4_bf16_1_alg».proof.Proof.Gen.Kernel.Skeleton
import proofs.«900938_g7700000000000939_dist_mean_ax0_shard0_i_m1024_n512_v7x_i4_bf16_1_alg».proof.Proof.Gen.Kernel.Launch
import Idealize.ShloMosaic.Lib.Pipeline.Launch
import Idealize.ShloMosaic.Lib.Pipeline.Kit
import Idealize.ShloMosaic.Lib.ReshapeSlab
import Idealize.ShloMosaic.Lib.Writes
import Idealize.ShloMosaic.Lib.Tactic

noncomputable section

namespace Cert.Kernel.Mean

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline library's copy (duties `Unit`) and the protocol's (duties `Fin 3`) -/

abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## The ring of four devices -/

/-- The device `k` places further round the ring. -/
def peer (k : ℕ) (c : Dev nD) : Dev nD := ⟨(c.val + k) % 4, Nat.mod_lt _ (by decide)⟩

/-- The device whose row `j` device `c` writes, and the device that writes row `j` of `c`. -/
def tgt (j : Fin 3) (c : Dev nD) : Dev nD := peer (j.val + 1) c
def src (j : Fin 3) (c : Dev nD) : Dev nD := peer (3 - j.val) c

theorem src_tgt (j : Fin 3) (c : Dev nD) : src j (tgt j c) = c := by revert j c; decide
theorem tgt_src (j : Fin 3) (c : Dev nD) : tgt j (src j c) = c := by revert j c; decide

def tgtEquiv (j : Fin 3) : Dev nD ≃ Dev nD := ⟨tgt j, src j, src_tgt j, tgt_src j⟩
def srcEquiv (j : Fin 3) : Dev nD ≃ Dev nD := ⟨src j, tgt j, tgt_src j, src_tgt j⟩

/-- The kernel's six `device_id` chains: the signals name the devices 1, 2, 3 places on, and so do the copies. -/
theorem dev1_eq (c : Dev nD) : (⟨k0_dev1 c, k0_dev1_lt c⟩ : Dev nD) = src 2 c := by revert c; decide +kernel
theorem dev2_eq (c : Dev nD) : (⟨k0_dev2 c, k0_dev2_lt c⟩ : Dev nD) = src 1 c := by revert c; decide +kernel
theorem dev3_eq (c : Dev nD) : (⟨k0_dev3 c, k0_dev3_lt c⟩ : Dev nD) = src 0 c := by revert c; decide +kernel
theorem dev4_eq (c : Dev nD) : (⟨k0_dev4 c, k0_dev4_lt c⟩ : Dev nD) = tgt 0 c := by revert c; decide +kernel
theorem dev5_eq (c : Dev nD) : (⟨k0_dev5 c, k0_dev5_lt c⟩ : Dev nD) = tgt 1 c := by revert c; decide +kernel
theorem dev6_eq (c : Dev nD) : (⟨k0_dev6 c, k0_dev6_lt c⟩ : Dev nD) = tgt 2 c := by revert c; decide +kernel

/-! ## The memrefs and cells -/

abbrev xM : Memref sig .tc .vmem S1024x512 .f32 := Memref.whole cc0_stg0_0
abbrev oM : Memref sig .tc .vmem S1x512 .f32 := Memref.whole cc0_stg1_0
abbrev sM : Memref sig .tc .vmem S4x1x512 .f32 := Memref.whole cc0_scratch0

/-- Row `k` of the scratch buffer as a rectangle, and as the squeezed memref a copy goes through. -/
abbrev rc (k : ℕ) (inb : ∀ a, (![k, 0, 0] : Fin 3 → Nat) a + S1x1x512.size a ≤ S4x1x512.size a) : Rect S4x1x512 :=
  Rect.unit (s := S4x1x512) ![k, 0, 0] S1x1x512.size inb
abbrev rowM (k : ℕ) (inb : ∀ a, (![k, 0, 0] : Fin 3 → Nat) a + S1x1x512.size a ≤ S4x1x512.size a) : Memref sig .tc .vmem S1x512 .f32 :=
  ((sM.slice (rc k inb) (fun _ => rfl)).squeeze S1x512 squeezes_S1x1x512_S1x512)

abbrev row0 : Memref sig .tc .vmem S1x512 .f32 := rowM 0 inb_S4x1x512_S1x1x512_0_0_0
abbrev row1 : Memref sig .tc .vmem S1x512 .f32 := rowM 1 inb_S4x1x512_S1x1x512_1_0_0
abbrev row2 : Memref sig .tc .vmem S1x512 .f32 := rowM 2 inb_S4x1x512_S1x1x512_2_0_0
abbrev row3 : Memref sig .tc .vmem S1x512 .f32 := rowM 3 inb_S4x1x512_S1x1x512_3_0_0

/-- The rows as one family (row 3 for every index past 2). -/
abbrev rowOf : ℕ → Memref sig .tc .vmem S1x512 .f32
  | 0 => row0 | 1 => row1 | 2 => row2 | _ => row3

abbrev SIdx : Type := (cc0_scratch0 : Ref sig .tc).ty.Idx
abbrev SBuf (F : FTy → Type) : Type := (cc0_scratch0 : Ref sig .tc).ty.Contents (Elt F)

/-- The elements of row `k`. -/
def rowSet : ℕ → Finset SIdx
  | 0 => (row0 : Memref sig .tc .vmem S1x512 .f32).view.set | 1 => (row1 : Memref sig .tc .vmem S1x512 .f32).view.set
  | 2 => (row2 : Memref sig .tc .vmem S1x512 .f32).view.set | _ => (row3 : Memref sig .tc .vmem S1x512 .f32).view.set

/-- The scratch buffer's location on device `c`. -/
abbrev ℓs (c : Dev nD) : Loc nD τ sig := (c : Thread nD τ).loc cc0_scratch0

/-- The runtime's barrier semaphore of collective id 0 (unscoped); the send and receive DMA semaphores (scoped scratch). -/
abbrev barS : Sem sig := (SemArray.scalar (sig.barrier 0 rfl) : Sems sig S_).sem
abbrev sendS : Fin 3 → DmaSem sig
  | 0 => ((cc0_scratch1.slice (Rect.unit (s := S3) ![0] S1.size inb_S3_S1_0)).squeeze S_ squeezes_S1_S_).sem
  | 1 => ((cc0_scratch1.slice (Rect.unit (s := S3) ![1] S1.size inb_S3_S1_1)).squeeze S_ squeezes_S1_S_).sem
  | 2 => ((cc0_scratch1.slice (Rect.unit (s := S3) ![2] S1.size inb_S3_S1_2)).squeeze S_ squeezes_S1_S_).sem
abbrev recvS : Fin 3 → DmaSem sig
  | 0 => ((cc0_scratch2.slice (Rect.unit (s := S3) ![0] S1.size inb_S3_S1_0)).squeeze S_ squeezes_S1_S_).sem
  | 1 => ((cc0_scratch2.slice (Rect.unit (s := S3) ![1] S1.size inb_S3_S1_1)).squeeze S_ squeezes_S1_S_).sem
  | 2 => ((cc0_scratch2.slice (Rect.unit (s := S3) ![2] S1.size inb_S3_S1_2)).squeeze S_ squeezes_S1_S_).sem

abbrev barCell (c : Dev nD) : GSem nD τ sig := ((c : Thread nD τ), .reg barS)
abbrev sendCell (c : Dev nD) (j : Fin 3) : GSem nD τ sig := ((c : Thread nD τ), .dma (sendS j))
abbrev recvCell (c : Dev nD) (j : Fin 3) : GSem nD τ sig := ((c : Thread nD τ), .dma (recvS j))

/-- The kernel's OWN (scoped) semaphores, as the launch theorem indexes them: the three send, the three receive; -/
abbrev osem : Fin 6 → SemLoc sig := fun | 0 => .dma (sendS 0) | 1 => .dma (sendS 1) | 2 => .dma (sendS 2) | 3 => .dma (recvS 0) | 4 => .dma (recvS 1) | 5 => .dma (recvS 2)
/-- all seven of the protocol's, as this proof indexes them: barrier, send, receive. -/
abbrev csem : Fin 7 → SemLoc sig := fun | 0 => .reg barS | 1 => .dma (sendS 0) | 2 => .dma (sendS 1) | 3 => .dma (sendS 2) | 4 => .dma (recvS 0) | 5 => .dma (recvS 1) | 6 => .dma (recvS 2)
abbrev kcell (ck : Dev nD × Fin 7) : GSem nD τ sig := ((ck.1 : Thread nD τ), csem ck.2)

/-- One copy's credit: the same for every row (one buffer, one shape). -/
abbrev N : ℕ := (row3 : Memref sig .tc .vmem S1x512 .f32).view.dmaCredit
theorem N_pos : 0 < N := View.dmaCredit_pos _ (by decide)

/-! ## Contents -/

/-- Device `c`'s block of the array, as its staging buffer holds it. -/
def xstg (c : Dev nD) : (cc0_stg0_0 : Ref sig .tc).ty.Contents (Elt F) :=
  (win0_0.blk (0 : Fin 1)).view.read (Elt F) ((s₀ m ρ).mem ((c : Thread nD τ).loc main_arg0))

/-- Device `c`'s partial mean, as its row 3 holds it after the store (over the launch contents, which the row's
    elements do not see), and as a copy reads it. -/
def g3 (c : Dev nD) : SBuf F :=
  (sM.access (rc 3 inb_S4x1x512_S1x1x512_3_0_0)).write (Elt F) (m (ℓs c)) (k0_pay1 (xstg m ρ c)) Finset.univ
def carried (c : Dev nD) : S1x512.Idx → Elt F .f32 := (row3 : Memref sig .tc .vmem S1x512 .f32).view.read (Elt F) (g3 m ρ c)

/-- Row `j` of device `c` once the copy from `src j c` has landed. -/
def rowWrite (f : SBuf F) (w : S1x512.Idx → Elt F .f32) : ℕ → SBuf F
  | 0 => (row0 : Memref sig .tc .vmem S1x512 .f32).view.write (Elt F) f w Finset.univ
  | 1 => (row1 : Memref sig .tc .vmem S1x512 .f32).view.write (Elt F) f w Finset.univ
  | 2 => (row2 : Memref sig .tc .vmem S1x512 .f32).view.write (Elt F) f w Finset.univ
  | _ => (row3 : Memref sig .tc .vmem S1x512 .f32).view.write (Elt F) f w Finset.univ
def landed (j : Fin 3) (c : Dev nD) : SBuf F := rowWrite (m (ℓs c)) (carried m ρ (src j c)) j.val

/-- The four quarter shares of row 3: one kept for the final load, one per copy. -/
abbrev qKeep : PosShare TreeShare := fullShare.left.left
abbrev qSend : Fin 3 → PosShare TreeShare
  | 0 => fullShare.left.right | 1 => fullShare.right.left | 2 => fullShare.right.right

def rowPts (c : Dev nD) (k : ℕ) (q : PosShare TreeShare) (f : SBuf F) : sProp 𝕄 := ℓs c ↦[rowSet k]{q} f

omit [FloatOps F] in
instance rowPts_storable (c : Dev nD) (k : ℕ) (q) (f : SBuf F) : BI.Storable (upEmb : UEmb _ 𝕄) (rowPts (F := F) c k q f) := by unfold rowPts; infer_instance

/-! ## The schedule -/

/-- What the receiver of copy `d` hands device `c` with its barrier signal: its row `d` and that it stands at round 0 of its
    receive cell `d`. -/
def barPay (c : Dev nD) (d : Fin 3) : sProp 𝕄 := iprop((∃ f, rowPts (tgt d c) d.val fullShare f) ∗ reached ER (recvCell (tgt d c) d) 0)
def recvPay (c : Dev nD) (j : Fin 3) : sProp 𝕄 := rowPts c j.val fullShare (landed m ρ j c)
def sendPay (c : Dev nD) (j : Fin 3) : sProp 𝕄 := rowPts c 3 (qSend j) (g3 m ρ c)

/-- The payload of a send or receive cell, by its DMA semaphore's number. -/
def xferPay (c : Dev nD) : DmaSem sig → sProp 𝕄
  | ⟨2, _⟩ => sendPay m ρ c 0 | ⟨3, _⟩ => sendPay m ρ c 1 | ⟨4, _⟩ => sendPay m ρ c 2
  | ⟨5, _⟩ => recvPay m ρ c 0 | ⟨6, _⟩ => recvPay m ρ c 1 | ⟨7, _⟩ => recvPay m ρ c 2
  | _ => iprop(emp)

/-- One round, round 0: a barrier cell has three duties of one unit; a send or receive cell the duty `0` of a copy's credit. -/
def meanRd : Rounds.Schedule (GSem nD τ sig) (Fin 3) 𝕄 where
  duties g r := if r = 0 ∧ g.1.2 = .tc then (match g.2 with | .reg _ => Finset.univ | .dma q => if 2 ≤ q.val then {0} else ∅) else ∅
  unitless _ := False
  amount g _ _ := match g.2 with | .reg _ => 1 | .dma _ => N
  payload g _ d := match g.2 with | .reg _ => barPay g.1.1 d | .dma q => xferPay m ρ g.1.1 q
  amount_pos g _ _ _ := by
    rcases g with ⟨t, _ | q⟩
    · exact Nat.one_pos
    · exact N_pos

instance meanRd_payload_storable (g : GSem nD τ sig) (r : ℕ) (d : Fin 3) :
    BI.Storable (upEmb : UEmb _ 𝕄) ((meanRd (F := F) m ρ).payload g r d) := by
  rcases g with ⟨t, s | q⟩
  · show BI.Storable upEmb (barPay t.1 d); unfold barPay; infer_instance
  · show BI.Storable upEmb (xferPay m ρ t.1 q)
    unfold xferPay; split <;> (try unfold sendPay) <;> (try unfold recvPay) <;> infer_instance

/-! ## The schedule's tables, cell by cell -/

section Sched
variable (c : Dev nD)

theorem duties_bar : (meanRd (F := F) m ρ).duties (barCell c) 0 = Finset.univ := by dsimp only [meanRd]; exact if_pos ⟨rfl, rfl⟩
theorem duties_send (j : Fin 3) : (meanRd (F := F) m ρ).duties (sendCell c j) 0 = {0} := by
  dsimp only [meanRd]; rw [if_pos ⟨rfl, rfl⟩]; fin_cases j <;> rfl
theorem duties_recv (j : Fin 3) : (meanRd (F := F) m ρ).duties (recvCell c j) 0 = {0} := by
  dsimp only [meanRd]; rw [if_pos ⟨rfl, rfl⟩]; fin_cases j <;> rfl
theorem duties_later (g : GSem nD τ sig) : ∀ r, 1 ≤ r → (meanRd (F := F) m ρ).duties g r = ∅ :=
  fun r hr => by dsimp only [meanRd]; rw [if_neg fun h => by omega]

theorem amount_bar (d : Fin 3) : (meanRd (F := F) m ρ).amount (barCell c) 0 d = 1 := rfl
theorem amount_send (j d : Fin 3) : (meanRd (F := F) m ρ).amount (sendCell c j) 0 d = N := rfl
theorem amount_recv (j d : Fin 3) : (meanRd (F := F) m ρ).amount (recvCell c j) 0 d = N := rfl

theorem expect_bar : (meanRd (F := F) m ρ).expect (barCell c) 0 = 3 := by
  unfold Schedule.expect Schedule.amountOf
  rw [duties_bar, Finset.sum_congr rfl fun d _ => amount_bar m ρ c d, Finset.sum_const, Finset.card_univ, Fintype.card_fin, smul_eq_mul]
theorem expect_send (j : Fin 3) : (meanRd (F := F) m ρ).expect (sendCell c j) 0 = N := by
  unfold Schedule.expect Schedule.amountOf; rw [duties_send, Finset.sum_singleton, amount_send]
theorem expect_recv (j : Fin 3) : (meanRd (F := F) m ρ).expect (recvCell c j) 0 = N := by
  unfold Schedule.expect Schedule.amountOf; rw [duties_recv, Finset.sum_singleton, amount_recv]

theorem payload_bar (d : Fin 3) : (meanRd (F := F) m ρ).payload (barCell c) 0 d = barPay c d := rfl
theorem payload_send (j d : Fin 3) : (meanRd (F := F) m ρ).payload (sendCell c j) 0 d = sendPay m ρ c j := by fin_cases j <;> rfl
theorem payload_recv (j d : Fin 3) : (meanRd (F := F) m ρ).payload (recvCell c j) 0 d = recvPay m ρ c j := by fin_cases j <;> rfl

/-- The whole of the barrier cell's round, no duty taken: the three receivers' rows. -/
theorem rest_bar : bigSep ((meanRd (F := F) m ρ).duties (barCell c) 0 \ ∅) (fun d => (meanRd (F := F) m ρ).payload (barCell c) 0 d)
    = iprop(barPay c 0 ∗ barPay c 1 ∗ barPay c 2) := by
  rw [Finset.sdiff_empty, duties_bar, bigSep_univ_eq_bigSepL [0, 1, 2] (by decide) (by decide)]
  rfl
theorem rest_send (j : Fin 3) : bigSep ((meanRd (F := F) m ρ).duties (sendCell c j) 0 \ ∅) (fun d => (meanRd (F := F) m ρ).payload (sendCell c j) 0 d) = sendPay m ρ c j := by
  rw [Finset.sdiff_empty, duties_send, bigSep_singleton, payload_send]
theorem rest_recv (j : Fin 3) : bigSep ((meanRd (F := F) m ρ).duties (recvCell c j) 0 \ ∅) (fun d => (meanRd (F := F) m ρ).payload (recvCell c j) 0 d) = recvPay m ρ c j := by
  rw [Finset.sdiff_empty, duties_recv, bigSep_singleton, payload_recv]

end Sched

/-! ## What each core owes at launch; the levels -/

/-- Device `c` owes each of the three other devices' barrier cells one unit and the receive cell of each copy's target the
    copy's credit — summed so that the program's six payments peel the summands from the right, in program order:
    the signals to the devices 1, 2, 3 places on, then the copies 0, 1, 2. -/
def O₃ (c : Dev nD) : CellTallies nD τ sig Unit := tallyAt (recvCell (tgt 2 c) 2) () N + tallyAt (recvCell (tgt 1 c) 1) () N + tallyAt (recvCell (tgt 0 c) 0) () N
def O₂ (c : Dev nD) : CellTallies nD τ sig Unit := O₃ c + tallyAt (barCell (src 0 c)) () 1
def O₁ (c : Dev nD) : CellTallies nD τ sig Unit := O₂ c + tallyAt (barCell (src 1 c)) () 1
def O₀ (c : Dev nD) : CellTallies nD τ sig Unit := O₁ c + tallyAt (barCell (src 2 c)) () 1

def L (g : GSem nD τ sig) : Finset Unit := if g.1.2 = .tc then {()} else ∅
/-- barrier cells at 1, receive cells at 2, everything else (staging, send) at 0. -/
def lv (g : GSem nD τ sig) (_ : Unit) : ℕ := match g.2 with | .reg _ => 1 | .dma q => if 5 ≤ q.val then 2 else 0

theorem L_of_ne (g : GSem nD τ sig) (h : g.1.2 ≠ .tc) : L g = ∅ := if_neg h
theorem L_tc (c : Dev nD) (sm : SemLoc sig) : L ((c : Thread nD τ), sm) = {()} := if_pos rfl

theorem lv_bar (c : Dev nD) (u : Unit) : lv (barCell c) u = 1 := rfl
theorem lv_recv (c : Dev nD) (j : Fin 3) (u : Unit) : lv (recvCell c j) u = 2 := by fin_cases j <;> rfl
theorem lv_send (c : Dev nD) (j : Fin 3) (u : Unit) : lv (sendCell c j) u = 0 := by fin_cases j <;> rfl

theorem O₃_pos {c : Dev nD} {g : GSem nD τ sig} {u : Unit} (h : 0 < O₃ c g u) : ∃ (d : Dev nD) (j : Fin 3), g = recvCell d j := by
  unfold O₃ at h
  rcases Pipeline.add_pos_cases h with h | h
  · rcases Pipeline.add_pos_cases h with h | h
    · exact ⟨_, _, (Pipeline.tallyAt_pos h).1⟩
    · exact ⟨_, _, (Pipeline.tallyAt_pos h).1⟩
  · exact ⟨_, _, (Pipeline.tallyAt_pos h).1⟩

theorem O₀_pos {c : Dev nD} {g : GSem nD τ sig} {u : Unit} (h : 0 < O₀ c g u) : (∃ (d : Dev nD) (j : Fin 3), g = recvCell d j) ∨ ∃ d : Dev nD, g = barCell d := by
  unfold O₀ O₁ O₂ at h
  rcases Pipeline.add_pos_cases h with h | h
  · rcases Pipeline.add_pos_cases h with h | h
    · rcases Pipeline.add_pos_cases h with h | h
      · exact .inl (O₃_pos h)
      · exact .inr ⟨_, (Pipeline.tallyAt_pos h).1⟩
    · exact .inr ⟨_, (Pipeline.tallyAt_pos h).1⟩
  · exact .inr ⟨_, (Pipeline.tallyAt_pos h).1⟩

/-- A staging cell or a send cell sits below everything a device ever owes. -/
theorem mayWait_low (c : Dev nD) (q : DmaSem sig) (hq : q.val < 5) (O : CellTallies nD τ sig Unit) (hO : O = O₀ c ∨ O = 0) :
    (levAts L lv : sProp 𝕄) ⊢ MayWait (c : Thread nD τ) (.dma q) () O := by
  rcases hO with rfl | rfl
  · refine Pipeline.mayWait_of_levAts (by rw [L_tc]; exact Finset.mem_singleton_self _) fun g i hg => ?_
    have hl : lv ((c : Thread nD τ), SemLoc.dma q) () = 0 := by show (if 5 ≤ q.val then 2 else 0) = 0; rw [if_neg (by omega)]
    rcases O₀_pos hg with ⟨d, j, rfl⟩ | ⟨d, rfl⟩
    · exact ⟨by rw [L_tc]; exact Finset.mem_singleton_self _, by rw [hl, lv_recv]; decide⟩
    · exact ⟨by rw [L_tc]; exact Finset.mem_singleton_self _, by rw [hl, lv_bar]; decide⟩
  · rw [MayWait_zero]; iintro -; iempintro

/-- At its barrier wait a device owes the three copies' receive credits only: receive cells, above its barrier cell. -/
theorem mayWait_bar (c : Dev nD) : (levAts L lv : sProp 𝕄) ⊢ MayWait (c : Thread nD τ) (.reg barS) () (O₃ c) :=
  Pipeline.mayWait_of_levAts (by rw [L_tc]; exact Finset.mem_singleton_self _) fun g i hg => by
    obtain ⟨d, j, rfl⟩ := O₃_pos hg
    exact ⟨by rw [L_tc]; exact Finset.mem_singleton_self _, by show lv (barCell c) () < _; rw [lv_bar, lv_recv]; decide⟩

end Cert.Kernel.Mean

end
-- ==== Proof.Kernel.State.lean ====
/-
  What a device holds of the protocol's ghost state when its body starts, the pipeline's proof data, and the
  names of the arrays after the run. Device `c`'s result is the sum, in the order its rows stand, of the partial
  means of the devices 3, 2, 1 and 0 places back round the ring.
-/
import proofs.«900938_g7700000000000939_dist_mean_ax0_shard0_i_m1024_n512_v7x_i4_bf16_1_alg».proof.Defs
import proofs.«900938_g7700000000000939_dist_mean_ax0_shard0_i_m1024_n512_v7x_i4_bf16_1_alg».proof.Proof.Gen.Kernel
import proofs.«900938_g7700000000000939_dist_mean_ax0_shard0_i_m1024_n512_v7x_i4_bf16_1_alg».proof.Proof.Gen.Kernel.Skeleton
import proofs.«900938_g7700000000000939_dist_mean_ax0_shard0_i_m1024_n512_v7x_i4_bf16_1_alg».proof.Proof.Gen.Kernel.Launch
import proofs.«900938_g7700000000000939_dist_mean_ax0_shard0_i_m1024_n512_v7x_i4_bf16_1_alg».proof.Proof.Kernel.Proto
import Idealize.ShloMosaic.Lib.Pipeline.Launch
import Idealize.ShloMosaic.Lib.Pipeline.Kit
import Idealize.ShloMosaic.Lib.ReshapeSlab
import Idealize.ShloMosaic.Lib.Writes
import Idealize.ShloMosaic.Lib.Tactic

noncomputable section

namespace Cert.Kernel.Mean

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The pipeline's proof data -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-- What a load of row `j` of device `c` reads once the copy into it has landed, and of its own row 3. -/
def rowRead (f : SBuf F) (k : ℕ) (inb : ∀ a, (![k, 0, 0] : Fin 3 → Nat) a + S1x1x512.size a ≤ S4x1x512.size a) : Vec F S1x1x512 .f32 :=
  (sM : Memref sig .tc .vmem S4x1x512 .f32).view.readAt (Elt F) (rc k inb).toLoadRect f

/-- The kernel's result on device `c`: the four rows it holds, added in row order (the skeleton's payload `Gen.k0_pay2`). -/
def outAt (c : Dev nD) : (cc0_stg1_0 : Ref sig .tc).ty.Contents (Elt F) :=
  k0_pay2 (rowRead (landed m ρ 0 c) 0 inb_S4x1x512_S1x1x512_0_0_0) (rowRead (landed m ρ 1 c) 1 inb_S4x1x512_S1x1x512_1_0_0)
    (rowRead (landed m ρ 2 c) 2 inb_S4x1x512_S1x1x512_2_0_0) (rowRead (g3 m ρ c) 3 inb_S4x1x512_S1x1x512_3_0_0)

/-- Every cell's invariant, under the names `K` the launch allocated them at, and that every cell stands at round 0. -/
def records (K : Dev nD × Fin 7 → ℕ) : sProp 𝕄 :=
  iprop((bigSep Finset.univ fun ck : Dev nD × Fin 7 => cellInv ER (meanRd m ρ) (K ck) (kcell ck))
    ∗ bigSep Finset.univ fun ck : Dev nD × Fin 7 => reached ER (kcell ck) 0)

instance records_persistent (K : Dev nD × Fin 7 → ℕ) : BI.Persistent (records m ρ K) := by unfold records; infer_instance

theorem inv_at (K : Dev nD × Fin 7 → ℕ) (ck : Dev nD × Fin 7) :
    (bigSep Finset.univ fun ck : Dev nD × Fin 7 => (cellInv ER (meanRd m ρ) (K ck) (kcell ck) : sProp 𝕄)) ⊢ cellInv ER (meanRd m ρ) (K ck) (kcell ck) :=
  bigSep_elim (Finset.mem_univ ck)
omit [FloatOps F] in
theorem reached_at (ck : Dev nD × Fin 7) :
    (bigSep Finset.univ fun ck : Dev nD × Fin 7 => (reached ER (kcell ck) 0 : sProp 𝕄)) ⊢ reached ER (kcell ck) 0 :=
  bigSep_elim (Finset.mem_univ ck)

/-- The tokens of the nine duties device `c` pays: a barrier duty of each other device, the receive duty of each copy's
    target, its own three send duties. -/
def payToks (c : Dev nD) : sProp 𝕄 :=
  iprop(dutyTok ER (barCell (src 2 c)) 0 2 ∗ dutyTok ER (barCell (src 1 c)) 0 1 ∗ dutyTok ER (barCell (src 0 c)) 0 0
    ∗ dutyTok ER (recvCell (tgt 0 c) 0) 0 0 ∗ dutyTok ER (recvCell (tgt 1 c) 1) 0 0 ∗ dutyTok ER (recvCell (tgt 2 c) 2) 0 0
    ∗ dutyTok ER (sendCell c 0) 0 0 ∗ dutyTok ER (sendCell c 1) 0 0 ∗ dutyTok ER (sendCell c 2) 0 0)
/-- Its positions: round 0 of each of its seven cells, nothing taken. -/
def positions (c : Dev nD) : sProp 𝕄 :=
  iprop(atPos ER (barCell c) 0 ∅ 0 ∗ atPos ER (sendCell c 0) 0 ∅ 0 ∗ atPos ER (sendCell c 1) 0 ∅ 0 ∗ atPos ER (sendCell c 2) 0 ∅ 0
    ∗ atPos ER (recvCell c 0) 0 ∅ 0 ∗ atPos ER (recvCell c 1) 0 ∅ 0 ∗ atPos ER (recvCell c 2) 0 ∅ 0)

def ghost (K : Dev nD × Fin 7 → ℕ) (c : Dev nD) : sProp 𝕄 := iprop(records m ρ K ∗ positions c ∗ payToks c)

/-- The credit tokens the launch deals device `c`: its barrier's three units, each receive cell's credit. -/
def creds (c : Dev nD) : sProp 𝕄 :=
  iprop(cred (tallyAt (barCell c) () 3) ∗ cred (tallyAt (recvCell c 0) () N) ∗ cred (tallyAt (recvCell c 1) () N) ∗ cred (tallyAt (recvCell c 2) () N))

/-- What device `c`'s body starts from: the ghost state at some names, the credit tokens and the level facts. -/
def start (c : Dev nD) : sProp 𝕄 := iprop((∃ K, ghost m ρ K c) ∗ creds c ∗ levAts L lv)

def scrAny (c : Dev nD) : sProp 𝕄 := iprop(∃ f : Buf (Elt F) (ℓs c), (ℓs c) ↦{fullShare} f)

def Φ₀ (c : Dev nD) : sProp 𝕄 := iprop(start m ρ c ∗ scrAny c)
/-- After the point: the scratch buffer whole again, the six OWN cells at zero, closed (the barrier cell is the runtime's:
    nothing to hand back). -/
def ownZero (c : Dev nD) : sProp 𝕄 :=
  iprop(semVal (sendCell c 0) 0 ∗ semVal (sendCell c 1) 0 ∗ semVal (sendCell c 2) 0 ∗ semVal (recvCell c 0) 0 ∗ semVal (recvCell c 1) 0 ∗ semVal (recvCell c 2) 0)
def Φ₁ (c : Dev nD) : sProp 𝕄 := iprop(scrAny c ∗ ownZero c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => outAt m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

abbrev 𝒱₀ : Variants := Variants.none

theorem bigSep_W (Φ : Fin cfg0.W → sProp 𝕄) : bigSep Finset.univ Φ = iprop(Φ (0 : Fin 2) ∗ Φ (1 : Fin 2)) := bigSep_W0 Φ

theorem fetch_0 (t : Fin cfg0.N) : (cfg0.win (0 : Fin 2)).fetch t = true := by rw [fin_N t]; rfl

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- The library's body obligation at the one point, spelt out: what the body starts from and what it leaves. -/
def bodyPre' (c : Dev nD) : sProp 𝕄 :=
  iprop(Φ₀ m ρ c ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

def bodyPost (c : Dev nD) : sProp 𝕄 :=
  iprop(Φ₁ c ∗ (dats m ρ 0 c).owesAt () t₀.succ ∗ stg c cc0_stg0_0 (xstg m ρ c) ∗ stg c cc0_stg1_0 (outAt m ρ c))

end Cert.Kernel.Mean

end
-- ==== Proof.Kernel.Geom.lean ====
/-
  The scratch buffer cut into its four rows and put together again, row 3 cut into four shares, and the copy
  of row 3 into a row of another device, stated at this protocol's cells.
-/
import proofs.«900938_g7700000000000939_dist_mean_ax0_shard0_i_m1024_n512_v7x_i4_bf16_1_alg».proof.Defs
import proofs.«900938_g7700000000000939_dist_mean_ax0_shard0_i_m1024_n512_v7x_i4_bf16_1_alg».proof.Proof.Gen.Kernel
import proofs.«900938_g7700000000000939_dist_mean_ax0_shard0_i_m1024_n512_v7x_i4_bf16_1_alg».proof.Proof.Gen.Kernel.Skeleton
import proofs.«900938_g7700000000000939_dist_mean_ax0_shard0_i_m1024_n512_v7x_i4_bf16_1_alg».proof.Proof.Gen.Kernel.Launch
import proofs.«900938_g7700000000000939_dist_mean_ax0_shard0_i_m1024_n512_v7x_i4_bf16_1_alg».proof.Proof.Kernel.Proto
import proofs.«900938_g7700000000000939_dist_mean_ax0_shard0_i_m1024_n512_v7x_i4_bf16_1_alg».proof.Proof.Kernel.State
import Idealize.ShloMosaic.Lib.Pipeline.Launch
import Idealize.ShloMosaic.Lib.Pipeline.Kit
import Idealize.ShloMosaic.Lib.ReshapeSlab
import Idealize.ShloMosaic.Lib.Writes
import Idealize.ShloMosaic.Lib.Tactic

noncomputable section

namespace Cert.Kernel.Mean

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Rows as sets of elements -/

theorem rowSet_access0 : rowSet 0 = ((sM : Memref sig .tc .vmem S4x1x512 .f32).access (rc 0 inb_S4x1x512_S1x1x512_0_0_0)).set := View.set_reshape _ _
theorem rowSet_access1 : rowSet 1 = ((sM : Memref sig .tc .vmem S4x1x512 .f32).access (rc 1 inb_S4x1x512_S1x1x512_1_0_0)).set := View.set_reshape _ _
theorem rowSet_access2 : rowSet 2 = ((sM : Memref sig .tc .vmem S4x1x512 .f32).access (rc 2 inb_S4x1x512_S1x1x512_2_0_0)).set := View.set_reshape _ _
theorem rowSet_access3 : rowSet 3 = ((sM : Memref sig .tc .vmem S4x1x512 .f32).access (rc 3 inb_S4x1x512_S1x1x512_3_0_0)).set := View.set_reshape _ _

/-- Two different rows share no element: their rectangles are apart on the leading axis. -/
theorem rows_disjoint (j k : ℕ) (hj : ∀ a, (![j, 0, 0] : Fin 3 → Nat) a + S1x1x512.size a ≤ S4x1x512.size a)
    (hk : ∀ a, (![k, 0, 0] : Fin 3 → Nat) a + S1x1x512.size a ≤ S4x1x512.size a) (h : j + 1 ≤ k ∨ k + 1 ≤ j) :
    Disjoint ((sM : Memref sig .tc .vmem S4x1x512 .f32).access (rc j hj)).set ((sM : Memref sig .tc .vmem S4x1x512 .f32).access (rc k hk)).set :=
  View.disjoint_slice_of_sep _ _ _ (0 : Fin 3) rfl rfl h

theorem disj01 : Disjoint (rowSet 0) (rowSet 1) := by rw [rowSet_access0, rowSet_access1]; exact rows_disjoint _ _ _ _ (by decide)
theorem disj02 : Disjoint (rowSet 0) (rowSet 2) := by rw [rowSet_access0, rowSet_access2]; exact rows_disjoint _ _ _ _ (by decide)
theorem disj03 : Disjoint (rowSet 0) (rowSet 3) := by rw [rowSet_access0, rowSet_access3]; exact rows_disjoint _ _ _ _ (by decide)
theorem disj12 : Disjoint (rowSet 1) (rowSet 2) := by rw [rowSet_access1, rowSet_access2]; exact rows_disjoint _ _ _ _ (by decide)
theorem disj13 : Disjoint (rowSet 1) (rowSet 3) := by rw [rowSet_access1, rowSet_access3]; exact rows_disjoint _ _ _ _ (by decide)
theorem disj23 : Disjoint (rowSet 2) (rowSet 3) := by rw [rowSet_access2, rowSet_access3]; exact rows_disjoint _ _ _ _ (by decide)

/-- What is left of the buffer's elements when the four rows are taken out (nothing, but the proof never needs to know). -/
def offRows : Finset SIdx := (((Finset.univ \ rowSet 0) \ rowSet 1) \ rowSet 2) \ rowSet 3

theorem sub1 : rowSet 1 ⊆ Finset.univ \ rowSet 0 := Finset.subset_sdiff.mpr ⟨Finset.subset_univ _, disj01.symm⟩
theorem sub2 : rowSet 2 ⊆ (Finset.univ \ rowSet 0) \ rowSet 1 :=
  Finset.subset_sdiff.mpr ⟨Finset.subset_sdiff.mpr ⟨Finset.subset_univ _, disj02.symm⟩, disj12.symm⟩
theorem sub3 : rowSet 3 ⊆ ((Finset.univ \ rowSet 0) \ rowSet 1) \ rowSet 2 :=
  Finset.subset_sdiff.mpr ⟨Finset.subset_sdiff.mpr ⟨Finset.subset_sdiff.mpr ⟨Finset.subset_univ _, disj03.symm⟩, disj13.symm⟩, disj23.symm⟩

omit [FloatOps F] in
/-- The whole buffer is its four rows and the rest, -/
theorem scr_split (c : Dev nD) (f : SBuf F) :
    ((ℓs c) ↦{fullShare} f : sProp 𝕄) ⊢ iprop(rowPts c 0 fullShare f ∗ rowPts c 1 fullShare f ∗ rowPts c 2 fullShare f ∗ rowPts c 3 fullShare f
      ∗ ((ℓs c) ↦[offRows]{fullShare} f)) := by
  unfold rowPts offRows
  iintro H
  ihave H := (pointsTo_split_subset (ℓ := ℓs c) (I := rowSet 0) (S := Finset.univ) (Finset.subset_univ _)).1 $$ H
  icases H with ⟨H0, H⟩
  ihave H := (pointsTo_split_subset (ℓ := ℓs c) sub1).1 $$ H
  icases H with ⟨H1, H⟩
  ihave H := (pointsTo_split_subset (ℓ := ℓs c) sub2).1 $$ H
  icases H with ⟨H2, H⟩
  ihave H := (pointsTo_split_subset (ℓ := ℓs c) sub3).1 $$ H
  icases H with ⟨H3, H⟩
  isplitl [H0]; · iexact H0
  isplitl [H1]; · iexact H1
  isplitl [H2]; · iexact H2
  isplitl [H3]; · iexact H3
  iexact H

omit [FloatOps F] in
/-- and the four rows and the rest, at whatever contents each, are the whole buffer at some contents. -/
theorem scr_join (c : Dev nD) (f0 f1 f2 f3 f4 : SBuf F) :
    iprop(rowPts c 0 fullShare f0 ∗ rowPts c 1 fullShare f1 ∗ rowPts c 2 fullShare f2 ∗ rowPts c 3 fullShare f3
      ∗ ((ℓs c) ↦[offRows]{fullShare} f4)) ⊢ (scrAny c : sProp 𝕄) := by
  unfold rowPts offRows scrAny
  iintro ⟨H0, H1, H2, H3, H⟩
  ihave H := (pointsTo_join_subset (ℓ := ℓs c) sub3) $$ [H3 H]
  · isplitl [H3] <;> iassumption
  ihave H := (pointsTo_join_subset (ℓ := ℓs c) sub2) $$ [H2 H]
  · isplitl [H2] <;> iassumption
  ihave H := (pointsTo_join_subset (ℓ := ℓs c) sub1) $$ [H1 H]
  · isplitl [H1] <;> iassumption
  ihave H := (pointsTo_join_subset (ℓ := ℓs c) (I := rowSet 0) (S := Finset.univ) (Finset.subset_univ _)) $$ [H0 H]
  · isplitl [H0] <;> iassumption
  iexists _; iexact H

omit [FloatOps F] in
/-- Row 3 at full share is its four quarter shares. -/
theorem row3_shares (c : Dev nD) (f : SBuf F) :
    (rowPts c 3 fullShare f : sProp 𝕄) ⊣⊢ iprop(rowPts c 3 qKeep f ∗ rowPts c 3 (qSend 0) f ∗ rowPts c 3 (qSend 1) f ∗ rowPts c 3 (qSend 2) f) := by
  unfold rowPts
  constructor
  · iintro H
    ihave H := (pointsTo_share (PosShare.mem_left_op_right fullShare)).1 $$ H
    icases H with ⟨HL, HR⟩
    ihave HL := (pointsTo_share (PosShare.mem_left_op_right fullShare.left)).1 $$ HL
    icases HL with ⟨HLL, HLR⟩
    ihave HR := (pointsTo_share (PosShare.mem_left_op_right fullShare.right)).1 $$ HR
    icases HR with ⟨HRL, HRR⟩
    isplitl [HLL]; · iexact HLL
    isplitl [HLR]; · iexact HLR
    isplitl [HRL]; · iexact HRL
    iexact HRR
  · iintro ⟨HLL, HLR, HRL, HRR⟩
    ihave HL := (pointsTo_share (PosShare.mem_left_op_right fullShare.left)).2 $$ [HLL HLR]
    · isplitl [HLL] <;> iassumption
    ihave HR := (pointsTo_share (PosShare.mem_left_op_right fullShare.right)).2 $$ [HRL HRR]
    · isplitl [HRL] <;> iassumption
    iapply (pointsTo_share (PosShare.mem_left_op_right fullShare)).2
    isplitl [HL] <;> iassumption

/-! ## The three copies -/

set_option maxHeartbeats 800000 in
/-- The copy of row 3 into row 0 of the device 1 places on, at the protocol's cells (the target substituted, not rewritten). -/
theorem wp_send_row0 (K : Dev nD × Fin 7 → ℕ) (c n : Dev nD) (hn : n = tgt 0 c)
    {hsc : (row0 : Memref sig (Dev.tc n : Thread nD τ).2.kind .vmem S1x512 .f32).view.ref.isScScratch = false}
    {hsrc : (row3 : Memref sig .tc .vmem S1x512 .f32).view.WordExact} {hdst : (row0 : Memref sig .tc .vmem S1x512 .f32).view.WordExact}
    {hsem : DmaTarget.Typed .vmem (.dma (recvS 0)) (.remote (Dev.tc n : Thread nD τ) (row0 : Memref sig .tc .vmem S1x512 .f32) (.dma (sendS 0)) hsc)}
    {α : Type} {Q : α → sProp 𝕄} {k : PUnit → Prog (TpuEff nD τ sig (Elt F) Λ₀ .tc) α}
    (fn : SBuf F) (O' O : CellTallies nD τ sig Unit) (hO : O' = O + tallyAt (recvCell (tgt 0 c) 0) () N) (W : Waits sig Unit) :
    iprop(cellInv ER (meanRd m ρ) (K (c, 1)) (sendCell c 0) ∗ cellInv ER (meanRd m ρ) (K (tgt 0 c, 4)) (recvCell (tgt 0 c) 0)
        ∗ rowPts c 3 (qSend 0) (g3 m ρ c) ∗ rowPts (tgt 0 c) 0 fullShare fn
        ∗ owes (c : Thread nD τ) O' W
        ∗ dutyTok ER (sendCell c 0) 0 0 ∗ reached ER (sendCell c 0) 0
        ∗ dutyTok ER (recvCell (tgt 0 c) 0) 0 0 ∗ reached ER (recvCell (tgt 0 c) 0) 0)
      ⊢ iprop(((cred (tallyAt (sendCell c 0) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma row3 (.remote (Dev.tc n : Thread nD τ) row0 (.dma (sendS 0)) hsc) (.dma (recvS 0)) hsrc hdst hsem) k) Q) := by
  subst hn
  unfold rowPts
  exact Rounds.wp_send_pointsTo 𝒱₀ ER (meanRd m ρ) (c : Thread nD τ) none (κ₁ := K (c, 1)) (κ₂ := K (tgt 0 c, 4))
    (c' := ((tgt 0 c : Dev nD) : Thread nD τ)) (r₁ := 0) (r₂ := 0) (d₁ := 0) (d₂ := 0) (src := row3) (dst := row0) (q := qSend 0) (fs := g3 m ρ c) (fd := fn)
    (by rw [duties_send]; exact Finset.mem_singleton_self _) (by rw [duties_recv]; exact Finset.mem_singleton_self _)
    () () N rfl (amount_send m ρ c 0 0) (amount_recv m ρ (tgt 0 c) 0 0) O hO (W := W)
    (by rw [payload_send]; exact BI.Entails.refl _)
    (by
      rw [payload_recv]; unfold recvPay rowPts landed carried; rw [src_tgt]
      exact Entails.of_eq (View.pointsTo_write_univ_congr ((tgt 0 c : Dev nD) : Thread nD τ) (row0 : Memref sig .tc .vmem S1x512 .f32).view fullShare fn (m (ℓs (tgt 0 c))) _))

set_option maxHeartbeats 800000 in
/-- The copy of row 3 into row 1 of the device 2 places on, at the protocol's cells (the target substituted, not rewritten). -/
theorem wp_send_row1 (K : Dev nD × Fin 7 → ℕ) (c n : Dev nD) (hn : n = tgt 1 c)
    {hsc : (row1 : Memref sig (Dev.tc n : Thread nD τ).2.kind .vmem S1x512 .f32).view.ref.isScScratch = false}
    {hsrc : (row3 : Memref sig .tc .vmem S1x512 .f32).view.WordExact} {hdst : (row1 : Memref sig .tc .vmem S1x512 .f32).view.WordExact}
    {hsem : DmaTarget.Typed .vmem (.dma (recvS 1)) (.remote (Dev.tc n : Thread nD τ) (row1 : Memref sig .tc .vmem S1x512 .f32) (.dma (sendS 1)) hsc)}
    {α : Type} {Q : α → sProp 𝕄} {k : PUnit → Prog (TpuEff nD τ sig (Elt F) Λ₀ .tc) α}
    (fn : SBuf F) (O' O : CellTallies nD τ sig Unit) (hO : O' = O + tallyAt (recvCell (tgt 1 c) 1) () N) (W : Waits sig Unit) :
    iprop(cellInv ER (meanRd m ρ) (K (c, 2)) (sendCell c 1) ∗ cellInv ER (meanRd m ρ) (K (tgt 1 c, 5)) (recvCell (tgt 1 c) 1)
        ∗ rowPts c 3 (qSend 1) (g3 m ρ c) ∗ rowPts (tgt 1 c) 1 fullShare fn
        ∗ owes (c : Thread nD τ) O' W
        ∗ dutyTok ER (sendCell c 1) 0 0 ∗ reached ER (sendCell c 1) 0
        ∗ dutyTok ER (recvCell (tgt 1 c) 1) 0 0 ∗ reached ER (recvCell (tgt 1 c) 1) 0)
      ⊢ iprop(((cred (tallyAt (sendCell c 1) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma row3 (.remote (Dev.tc n : Thread nD τ) row1 (.dma (sendS 1)) hsc) (.dma (recvS 1)) hsrc hdst hsem) k) Q) := by
  subst hn
  unfold rowPts
  exact Rounds.wp_send_pointsTo 𝒱₀ ER (meanRd m ρ) (c : Thread nD τ) none (κ₁ := K (c, 2)) (κ₂ := K (tgt 1 c, 5))
    (c' := ((tgt 1 c : Dev nD) : Thread nD τ)) (r₁ := 0) (r₂ := 0) (d₁ := 0) (d₂ := 0) (src := row3) (dst := row1) (q := qSend 1) (fs := g3 m ρ c) (fd := fn)
    (by rw [duties_send]; exact Finset.mem_singleton_self _) (by rw [duties_recv]; exact Finset.mem_singleton_self _)
    () () N rfl (amount_send m ρ c 1 0) (amount_recv m ρ (tgt 1 c) 1 0) O hO (W := W)
    (by rw [payload_send]; exact BI.Entails.refl _)
    (by
      rw [payload_recv]; unfold recvPay rowPts landed carried; rw [src_tgt]
      exact Entails.of_eq (View.pointsTo_write_univ_congr ((tgt 1 c : Dev nD) : Thread nD τ) (row1 : Memref sig .tc .vmem S1x512 .f32).view fullShare fn (m (ℓs (tgt 1 c))) _))

set_option maxHeartbeats 800000 in
/-- The copy of row 3 into row 2 of the device 3 places on, at the protocol's cells (the target substituted, not rewritten). -/
theorem wp_send_row2 (K : Dev nD × Fin 7 → ℕ) (c n : Dev nD) (hn : n = tgt 2 c)
    {hsc : (row2 : Memref sig (Dev.tc n : Thread nD τ).2.kind .vmem S1x512 .f32).view.ref.isScScratch = false}
    {hsrc : (row3 : Memref sig .tc .vmem S1x512 .f32).view.WordExact} {hdst : (row2 : Memref sig .tc .vmem S1x512 .f32).view.WordExact}
    {hsem : DmaTarget.Typed .vmem (.dma (recvS 2)) (.remote (Dev.tc n : Thread nD τ) (row2 : Memref sig .tc .vmem S1x512 .f32) (.dma (sendS 2)) hsc)}
    {α : Type} {Q : α → sProp 𝕄} {k : PUnit → Prog (TpuEff nD τ sig (Elt F) Λ₀ .tc) α}
    (fn : SBuf F) (O' O : CellTallies nD τ sig Unit) (hO : O' = O + tallyAt (recvCell (tgt 2 c) 2) () N) (W : Waits sig Unit) :
    iprop(cellInv ER (meanRd m ρ) (K (c, 3)) (sendCell c 2) ∗ cellInv ER (meanRd m ρ) (K (tgt 2 c, 6)) (recvCell (tgt 2 c) 2)
        ∗ rowPts c 3 (qSend 2) (g3 m ρ c) ∗ rowPts (tgt 2 c) 2 fullShare fn
        ∗ owes (c : Thread nD τ) O' W
        ∗ dutyTok ER (sendCell c 2) 0 0 ∗ reached ER (sendCell c 2) 0
        ∗ dutyTok ER (recvCell (tgt 2 c) 2) 0 0 ∗ reached ER (recvCell (tgt 2 c) 2) 0)
      ⊢ iprop(((cred (tallyAt (sendCell c 2) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma row3 (.remote (Dev.tc n : Thread nD τ) row2 (.dma (sendS 2)) hsc) (.dma (recvS 2)) hsrc hdst hsem) k) Q) := by
  subst hn
  unfold rowPts
  exact Rounds.wp_send_pointsTo 𝒱₀ ER (meanRd m ρ) (c : Thread nD τ) none (κ₁ := K (c, 3)) (κ₂ := K (tgt 2 c, 6))
    (c' := ((tgt 2 c : Dev nD) : Thread nD τ)) (r₁ := 0) (r₂ := 0) (d₁ := 0) (d₂ := 0) (src := row3) (dst := row2) (q := qSend 2) (fs := g3 m ρ c) (fd := fn)
    (by rw [duties_send]; exact Finset.mem_singleton_self _) (by rw [duties_recv]; exact Finset.mem_singleton_self _)
    () () N rfl (amount_send m ρ c 2 0) (amount_recv m ρ (tgt 2 c) 2 0) O hO (W := W)
    (by rw [payload_send]; exact BI.Entails.refl _)
    (by
      rw [payload_recv]; unfold recvPay rowPts landed carried; rw [src_tgt]
      exact Entails.of_eq (View.pointsTo_write_univ_congr ((tgt 2 c : Dev nD) : Thread nD τ) (row2 : Memref sig .tc .vmem S1x512 .f32).view fullShare fn (m (ℓs (tgt 2 c))) _))

end Cert.Kernel.Mean

end
-- ==== Proof.Kernel.Body.lean ====
/-
  One device's body, stepped through once at a symbolic device: the three signals, the partial mean stored in
  row 3, the barrier wait, the three copies, the three receive waits, the sum of the four rows, the three send waits.
-/
import proofs.«900938_g7700000000000939_dist_mean_ax0_shard0_i_m1024_n512_v7x_i4_bf16_1_alg».proof.Defs
import proofs.«900938_g7700000000000939_dist_mean_ax0_shard0_i_m1024_n512_v7x_i4_bf16_1_alg».proof.Proof.Gen.Kernel
import proofs.«900938_g7700000000000939_dist_mean_ax0_shard0_i_m1024_n512_v7x_i4_bf16_1_alg».proof.Proof.Gen.Kernel.Skeleton
import proofs.«900938_g7700000000000939_dist_mean_ax0_shard0_i_m1024_n512_v7x_i4_bf16_1_alg».proof.Proof.Gen.Kernel.Launch
import proofs.«900938_g7700000000000939_dist_mean_ax0_shard0_i_m1024_n512_v7x_i4_bf16_1_alg».proof.Proof.Kernel.Proto
import proofs.«900938_g7700000000000939_dist_mean_ax0_shard0_i_m1024_n512_v7x_i4_bf16_1_alg».proof.Proof.Kernel.State
import proofs.«900938_g7700000000000939_dist_mean_ax0_shard0_i_m1024_n512_v7x_i4_bf16_1_alg».proof.Proof.Kernel.Geom
import Idealize.ShloMosaic.Lib.Pipeline.Launch
import Idealize.ShloMosaic.Lib.Pipeline.Kit
import Idealize.ShloMosaic.Lib.ReshapeSlab
import Idealize.ShloMosaic.Lib.Writes
import Idealize.ShloMosaic.Lib.Tactic

noncomputable section

namespace Cert.Kernel.Mean

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Loads and stores through the staging buffers and the rows -/

abbrev r0x : Rect S1024x512 := Rect.unit (s := S1024x512) ![0, 0] S1024x512.size inb_S1024x512_S1024x512_0_0
abbrev r0o : Rect S1x512 := Rect.unit (s := S1x512) ![0, 0] S1x512.size inb_S1x512_S1x512_0_0

omit [FloatOps F] in
theorem hz2 : (![0, 0] : Fin 2 → Nat) = fun _ => 0 := funext fun a => by fin_cases a <;> rfl
omit [FloatOps F] in
theorem read_x (f : (cc0_stg0_0 : Ref sig .tc).ty.Contents (Elt F)) : (xM : Memref sig .tc .vmem S1024x512 .f32).view.readAt (Elt F) r0x.toLoadRect f = f :=
  Memref.readAt_unit_zero (Elt F) cc0_stg0_0 hz2 _ f
omit [FloatOps F] in
theorem write_out (f w : (cc0_stg1_0 : Ref sig .tc).ty.Contents (Elt F)) :
    ((oM : Memref sig .tc .vmem S1x512 .f32).access r0o : View sig .tc _ _ _).write (Elt F) f w Finset.univ = w :=
  Memref.write_access_unit_zero_univ (Elt F) cc0_stg1_0 hz2 _ f w

omit [FloatOps F] in
theorem load_sub0 : (sM : Memref sig .tc .vmem S4x1x512 .f32).view.setOn (rc 0 inb_S4x1x512_S1x1x512_0_0_0).toLoadRect.set ⊆ rowSet 0 := by
  rw [rowSet_access0]; exact (View.set_slice _ _).ge
omit [FloatOps F] in
theorem load_sub1 : (sM : Memref sig .tc .vmem S4x1x512 .f32).view.setOn (rc 1 inb_S4x1x512_S1x1x512_1_0_0).toLoadRect.set ⊆ rowSet 1 := by
  rw [rowSet_access1]; exact (View.set_slice _ _).ge
omit [FloatOps F] in
theorem load_sub2 : (sM : Memref sig .tc .vmem S4x1x512 .f32).view.setOn (rc 2 inb_S4x1x512_S1x1x512_2_0_0).toLoadRect.set ⊆ rowSet 2 := by
  rw [rowSet_access2]; exact (View.set_slice _ _).ge
omit [FloatOps F] in
theorem load_sub3 : (sM : Memref sig .tc .vmem S4x1x512 .f32).view.setOn (rc 3 inb_S4x1x512_S1x1x512_3_0_0).toLoadRect.set ⊆ rowSet 3 := by
  rw [rowSet_access3]; exact (View.set_slice _ _).ge
omit [FloatOps F] in
theorem store_sub3 : ((sM : Memref sig .tc .vmem S4x1x512 .f32).access (rc 3 inb_S4x1x512_S1x1x512_3_0_0)).setOn Finset.univ ⊆ rowSet 3 := by
  rw [rowSet_access3]; exact subset_rfl

/-- Row 3 after the store of the partial mean, over whatever the buffer held, is row 3 at `g3`. -/
theorem row3_stored (c : Dev nD) (q : PosShare TreeShare) (f : SBuf F) :
    ((ℓs c) ↦[rowSet 3]{q} ((sM : Memref sig .tc .vmem S4x1x512 .f32).access (rc 3 inb_S4x1x512_S1x1x512_3_0_0)).write (Elt F) f (k0_pay1 (xstg m ρ c)) Finset.univ : sProp 𝕄)
      = rowPts c 3 q (g3 m ρ c) := by
  unfold rowPts g3; rw [rowSet_access3]
  exact View.pointsTo_write_univ_congr (c : Thread nD τ) ((sM : Memref sig .tc .vmem S4x1x512 .f32).access (rc 3 inb_S4x1x512_S1x1x512_3_0_0)) q f (m (ℓs c)) _

/-! ## The body -/

section Body

variable (K : Dev nD × Fin 7 → ℕ)

def bodyPre (c : Dev nD) : sProp 𝕄 :=
  iprop((ghost m ρ K c ∗ creds c ∗ levAts L lv ∗ scrAny c)
    ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

set_option maxHeartbeats 4000000 in
/-- The body, one rule per effect in program order, from `bodyPre` to `bodyPost`. -/
theorem sound_body (c : Dev nD) (Kt : PUnit → sProp 𝕄) :
    iprop(bodyPre m ρ K c ∗ (bodyPost m ρ c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_scratch0) (Memref.isWhole_whole _) cc0_scratch1 cc0_scratch2) Kt := by
  simp only [cc0_body_eq_skeleton]; unfold cc0_body_skel
  simp only [k0_part1_eq_skeleton, k0_part2_eq_skeleton, k0_part3_eq_skeleton, k0_part4_eq_skeleton, k0_part5_eq_skeleton]
  unfold k0_part1_skel k0_part2_skel k0_part3_skel k0_part4_skel k0_part5_skel
  simp only [semSignalWord, semWaitWord, Prog.lift, Prog.bind_op, Prog.bind_ret, Prog.pure_eq_ret, wp_deviceId]
  unfold bodyPre ghost records positions payToks creds scrAny
  iintro ⟨⟨⟨⟨⟨#HI, #HR⟩, ⟨HaB, HaS0, HaS1, HaS2, HaV0, HaV1, HaV2⟩, ⟨HtB2, HtB1, HtB0, HtV0, HtV1, HtV2, HtS0, HtS1, HtS2⟩⟩, ⟨HcB, HcV0, HcV1, HcV2⟩, #Hlev, ⟨%f0, Hscr⟩⟩,
    Ho, ⟨%d0, %g0, %hg0, Hx⟩, ⟨%d1, %g1, %hg1, Hout⟩⟩, Hk⟩
  have hx : g0 = xstg m ρ c := by rw [hg0]; unfold Dat.before; rw [if_pos (fetch_0 t₀)]; rfl
  subst hx
  unfold Dat.owesAt Pipeline.owesWithin
  icases Ho with ⟨%W, %hW, HO⟩
  rw [show (dats m ρ 0 c).owed t₀.castSucc = O₀ c from rfl]
  simp only [dev1_eq c, dev2_eq c, dev3_eq c]
  -- the scratch buffer, row by row
  ihave Hscr := (scr_split c f0) $$ Hscr
  icases Hscr with ⟨H0, H1, H2, H3, Hoff⟩
  unfold O₀
  -- the signal to the device that sends into row 2: duty 2 of its barrier cell, with row 2 and the stand at round 0 of receive cell 2
  iapply (Rounds.wp_signal 𝒱₀ ER (meanRd m ρ) (c : Thread nD τ) none (dst := (src 2 c : Thread nD τ)) (κ := K (src 2 c, 0))
      (d := 2) (by rw [duties_bar]; exact Finset.mem_univ _) ((amount_bar m ρ (src 2 c) 2).trans (by decide)) () (O₁ c) rfl)
    $$ [HO HtB2 H2]
  · isplitr; · iapply (inv_at m ρ K (src 2 c, 0)); iexact HI
    isplitl [HO]; · iexact HO
    isplitl [HtB2]; · iexact HtB2
    isplitl [H2]
    · rw [payload_bar]; unfold barPay; rw [tgt_src]
      isplitl [H2]; · iexists f0; iexact H2
      iapply (reached_at (F := F) (c, 6)); iexact HR
    · iapply (reached_at (F := F) (src 2 c, 0)); iexact HR
  iintro HO
  unfold O₁
  -- the signal to the device that sends into row 1: duty 1 of its barrier cell, with row 1 and the stand at round 0 of receive cell 1
  iapply (Rounds.wp_signal 𝒱₀ ER (meanRd m ρ) (c : Thread nD τ) none (dst := (src 1 c : Thread nD τ)) (κ := K (src 1 c, 0))
      (d := 1) (by rw [duties_bar]; exact Finset.mem_univ _) ((amount_bar m ρ (src 1 c) 1).trans (by decide)) () (O₂ c) rfl)
    $$ [HO HtB1 H1]
  · isplitr; · iapply (inv_at m ρ K (src 1 c, 0)); iexact HI
    isplitl [HO]; · iexact HO
    isplitl [HtB1]; · iexact HtB1
    isplitl [H1]
    · rw [payload_bar]; unfold barPay; rw [tgt_src]
      isplitl [H1]; · iexists f0; iexact H1
      iapply (reached_at (F := F) (c, 5)); iexact HR
    · iapply (reached_at (F := F) (src 1 c, 0)); iexact HR
  iintro HO
  unfold O₂
  -- the signal to the device that sends into row 0: duty 0 of its barrier cell, with row 0 and the stand at round 0 of receive cell 0
  iapply (Rounds.wp_signal 𝒱₀ ER (meanRd m ρ) (c : Thread nD τ) none (dst := (src 0 c : Thread nD τ)) (κ := K (src 0 c, 0))
      (d := 0) (by rw [duties_bar]; exact Finset.mem_univ _) ((amount_bar m ρ (src 0 c) 0).trans (by decide)) () (O₃ c) rfl)
    $$ [HO HtB0 H0]
  · isplitr; · iapply (inv_at m ρ K (src 0 c, 0)); iexact HI
    isplitl [HO]; · iexact HO
    isplitl [HtB0]; · iexact HtB0
    isplitl [H0]
    · rw [payload_bar]; unfold barPay; rw [tgt_src]
      isplitl [H0]; · iexists f0; iexact H0
      iapply (reached_at (F := F) (c, 4)); iexact HR
    · iapply (reached_at (F := F) (src 0 c, 0)); iexact HR
  iintro HO
  -- the block of the array, row 3 as it stands, and the partial mean stored in row 3
  iapply (wp_load 𝒱₀ (c : Thread nD τ) none Set.univ (m := xM) (Finset.subset_univ _)) $$ Hx; iintro Hx
  rw [read_x]
  unfold rowPts
  iapply (wp_load 𝒱₀ (c : Thread nD τ) none Set.univ (m := sM) load_sub3) $$ H3; iintro H3
  iapply (wp_store 𝒱₀ (c : Thread nD τ) none Set.univ (m := sM) (r := rc 3 inb_S4x1x512_S1x1x512_3_0_0) (Mk := Finset.univ) store_sub3) $$ H3; iintro H3
  ihave H3 := (Entails.of_eq (row3_stored m ρ c fullShare _)) $$ H3
  ihave H3 := (row3_shares c _).1 $$ H3
  icases H3 with ⟨H3k, H3s0, H3s1, H3s2⟩
  -- the WAIT for 3 on its own barrier, owing the three receive credits: the three targets' rows come with it
  iapply (Rounds.wp_wait_rest_token 𝒱₀ ER (meanRd m ρ) (c : Thread nD τ) none (κ := K (c, 0))
      (wpE_semWait_eq 𝒱₀ (c : Thread nD τ) none Set.univ) (Set.mem_univ _) () (O := O₃ c) (R := 0) (m := 0) (T := ∅)
      (by rw [expect_bar]; decide)) $$ [HcB HO HaB]
  · isplitr; · iapply (inv_at m ρ K (c, 0)); iexact HI
    isplitl [HcB]; · iexact HcB
    isplitl [HO]; · iexact HO
    isplitr; · iapply (mayWait_bar c); iexact Hlev
    iexact HaB
  iintro ⟨HO, HaB, -, Hpay⟩
  ihave Hp := (Entails.of_eq (rest_bar m ρ c)) $$ Hpay
  unfold barPay
  icases Hp with ⟨⟨⟨%fn0, Hn0⟩, #HrN0⟩, ⟨⟨%fn1, Hn1⟩, #HrN1⟩, ⟨%fn2, Hn2⟩, #HrN2⟩
  unfold O₃
  -- copy 0: row 3 into row 0 of the device 1 places on
  iapply (wp_send_row0 m ρ K c _ (dev4_eq c) fn0 _ (tallyAt (recvCell (tgt 2 c) 2) () N + tallyAt (recvCell (tgt 1 c) 1) () N) (rfl) _) $$ [H3s0 Hn0 HO HtS0 HtV0]
  · isplitr; · iapply (inv_at m ρ K (c, 1)); iexact HI
    isplitr; · iapply (inv_at m ρ K (tgt 0 c, 4)); iexact HI
    isplitl [H3s0]; · iexact H3s0
    isplitl [Hn0]; · iexact Hn0
    isplitl [HO]; · iexact HO
    isplitl [HtS0]; · iexact HtS0
    isplitr; · iapply (reached_at (F := F) (c, 1)); iexact HR
    isplitl [HtV0]; · iexact HtV0
    iexact HrN0
  iintro ⟨HcS0, HO⟩
  -- copy 1: row 3 into row 1 of the device 2 places on
  iapply (wp_send_row1 m ρ K c _ (dev5_eq c) fn1 _ (tallyAt (recvCell (tgt 2 c) 2) () N) (rfl) _) $$ [H3s1 Hn1 HO HtS1 HtV1]
  · isplitr; · iapply (inv_at m ρ K (c, 2)); iexact HI
    isplitr; · iapply (inv_at m ρ K (tgt 1 c, 5)); iexact HI
    isplitl [H3s1]; · iexact H3s1
    isplitl [Hn1]; · iexact Hn1
    isplitl [HO]; · iexact HO
    isplitl [HtS1]; · iexact HtS1
    isplitr; · iapply (reached_at (F := F) (c, 2)); iexact HR
    isplitl [HtV1]; · iexact HtV1
    iexact HrN1
  iintro ⟨HcS1, HO⟩
  -- copy 2: row 3 into row 2 of the device 3 places on
  iapply (wp_send_row2 m ρ K c _ (dev6_eq c) fn2 _ (0) ((zero_add _).symm) _) $$ [H3s2 Hn2 HO HtS2 HtV2]
  · isplitr; · iapply (inv_at m ρ K (c, 3)); iexact HI
    isplitr; · iapply (inv_at m ρ K (tgt 2 c, 6)); iexact HI
    isplitl [H3s2]; · iexact H3s2
    isplitl [Hn2]; · iexact Hn2
    isplitl [HO]; · iexact HO
    isplitl [HtS2]; · iexact HtS2
    isplitr; · iapply (reached_at (F := F) (c, 3)); iexact HR
    isplitl [HtV2]; · iexact HtV2
    iexact HrN2
  iintro ⟨HcS2, HO⟩
  -- the wait on receive cell 0: row 0 holding the sender's partial mean
  iapply (Rounds.wp_wait_rest_token 𝒱₀ ER (meanRd m ρ) (c : Thread nD τ) none (κ := K (c, 4))
      (wpE_waitDma2_eq 𝒱₀ (c : Thread nD τ) none Set.univ) (Set.mem_univ _) () (O := 0) (R := 0) (m := 0) (T := ∅)
      (by rw [Nat.zero_add]; exact (expect_recv m ρ c 0).symm)) $$ [HcV0 HO HaV0]
  · isplitr; · iapply (inv_at m ρ K (c, 4)); iexact HI
    isplitl [HcV0]; · iexact HcV0
    isplitl [HO]; · iexact HO
    isplitr; · rw [MayWait_zero]; iempintro
    iexact HaV0
  iintro ⟨HO, HaV0, -, Hpay⟩
  ihave Hr0 := (Entails.of_eq ((rest_recv m ρ c 0).trans (show recvPay m ρ c 0 = (((ℓs c) ↦[rowSet 0]{fullShare} landed m ρ 0 c : sProp 𝕄)) from rfl))) $$ Hpay
  -- the wait on receive cell 1: row 1 holding the sender's partial mean
  iapply (Rounds.wp_wait_rest_token 𝒱₀ ER (meanRd m ρ) (c : Thread nD τ) none (κ := K (c, 5))
      (wpE_waitDma2_eq 𝒱₀ (c : Thread nD τ) none Set.univ) (Set.mem_univ _) () (O := 0) (R := 0) (m := 0) (T := ∅)
      (by rw [Nat.zero_add]; exact (expect_recv m ρ c 1).symm)) $$ [HcV1 HO HaV1]
  · isplitr; · iapply (inv_at m ρ K (c, 5)); iexact HI
    isplitl [HcV1]; · iexact HcV1
    isplitl [HO]; · iexact HO
    isplitr; · rw [MayWait_zero]; iempintro
    iexact HaV1
  iintro ⟨HO, HaV1, -, Hpay⟩
  ihave Hr1 := (Entails.of_eq ((rest_recv m ρ c 1).trans (show recvPay m ρ c 1 = (((ℓs c) ↦[rowSet 1]{fullShare} landed m ρ 1 c : sProp 𝕄)) from rfl))) $$ Hpay
  -- the wait on receive cell 2: row 2 holding the sender's partial mean
  iapply (Rounds.wp_wait_rest_token 𝒱₀ ER (meanRd m ρ) (c : Thread nD τ) none (κ := K (c, 6))
      (wpE_waitDma2_eq 𝒱₀ (c : Thread nD τ) none Set.univ) (Set.mem_univ _) () (O := 0) (R := 0) (m := 0) (T := ∅)
      (by rw [Nat.zero_add]; exact (expect_recv m ρ c 2).symm)) $$ [HcV2 HO HaV2]
  · isplitr; · iapply (inv_at m ρ K (c, 6)); iexact HI
    isplitl [HcV2]; · iexact HcV2
    isplitl [HO]; · iexact HO
    isplitr; · rw [MayWait_zero]; iempintro
    iexact HaV2
  iintro ⟨HO, HaV2, -, Hpay⟩
  ihave Hr2 := (Entails.of_eq ((rest_recv m ρ c 2).trans (show recvPay m ρ c 2 = (((ℓs c) ↦[rowSet 2]{fullShare} landed m ρ 2 c : sProp 𝕄)) from rfl))) $$ Hpay
  -- the four rows, the result buffer as it stands, and the sum stored
  unfold rowPts
  iapply (wp_load 𝒱₀ (c : Thread nD τ) none Set.univ (m := sM) load_sub0) $$ Hr0; iintro Hr0
  iapply (wp_load 𝒱₀ (c : Thread nD τ) none Set.univ (m := sM) load_sub1) $$ Hr1; iintro Hr1
  iapply (wp_load 𝒱₀ (c : Thread nD τ) none Set.univ (m := sM) load_sub2) $$ Hr2; iintro Hr2
  iapply (wp_load 𝒱₀ (c : Thread nD τ) none Set.univ (m := sM) load_sub3) $$ H3k; iintro H3k
  iapply (wp_load 𝒱₀ (c : Thread nD τ) none Set.univ (m := oM) (Finset.subset_univ _)) $$ Hout; iintro Hout
  iapply (wp_store 𝒱₀ (c : Thread nD τ) none Set.univ (m := oM) (r := r0o) (Mk := Finset.univ) (Finset.subset_univ _)) $$ Hout; iintro Hout
  rw [write_out]
  -- the wait on send cell 0: that copy's share of row 3 back
  iapply (Rounds.wp_wait_rest_token 𝒱₀ ER (meanRd m ρ) (c : Thread nD τ) none (κ := K (c, 1))
      (wpE_waitDma2_eq 𝒱₀ (c : Thread nD τ) none Set.univ) (Set.mem_univ _) () (O := 0) (R := 0) (m := 0) (T := ∅)
      (by rw [Nat.zero_add]; exact (expect_send m ρ c 0).symm)) $$ [HcS0 HO HaS0]
  · isplitr; · iapply (inv_at m ρ K (c, 1)); iexact HI
    isplitl [HcS0]; · iexact HcS0
    isplitl [HO]; · iexact HO
    isplitr; · rw [MayWait_zero]; iempintro
    iexact HaS0
  iintro ⟨HO, HaS0, -, Hpay⟩
  ihave H3s0 := (Entails.of_eq ((rest_send m ρ c 0).trans (show sendPay m ρ c 0 = (((ℓs c) ↦[rowSet 3]{qSend 0} g3 m ρ c : sProp 𝕄)) from rfl))) $$ Hpay
  -- the wait on send cell 1: that copy's share of row 3 back
  iapply (Rounds.wp_wait_rest_token 𝒱₀ ER (meanRd m ρ) (c : Thread nD τ) none (κ := K (c, 2))
      (wpE_waitDma2_eq 𝒱₀ (c : Thread nD τ) none Set.univ) (Set.mem_univ _) () (O := 0) (R := 0) (m := 0) (T := ∅)
      (by rw [Nat.zero_add]; exact (expect_send m ρ c 1).symm)) $$ [HcS1 HO HaS1]
  · isplitr; · iapply (inv_at m ρ K (c, 2)); iexact HI
    isplitl [HcS1]; · iexact HcS1
    isplitl [HO]; · iexact HO
    isplitr; · rw [MayWait_zero]; iempintro
    iexact HaS1
  iintro ⟨HO, HaS1, -, Hpay⟩
  ihave H3s1 := (Entails.of_eq ((rest_send m ρ c 1).trans (show sendPay m ρ c 1 = (((ℓs c) ↦[rowSet 3]{qSend 1} g3 m ρ c : sProp 𝕄)) from rfl))) $$ Hpay
  -- the wait on send cell 2: that copy's share of row 3 back
  iapply (Rounds.wp_wait_rest_token 𝒱₀ ER (meanRd m ρ) (c : Thread nD τ) none (κ := K (c, 3))
      (wpE_waitDma2_eq 𝒱₀ (c : Thread nD τ) none Set.univ) (Set.mem_univ _) () (O := 0) (R := 0) (m := 0) (T := ∅)
      (by rw [Nat.zero_add]; exact (expect_send m ρ c 2).symm)) $$ [HcS2 HO HaS2]
  · isplitr; · iapply (inv_at m ρ K (c, 3)); iexact HI
    isplitl [HcS2]; · iexact HcS2
    isplitl [HO]; · iexact HO
    isplitr; · rw [MayWait_zero]; iempintro
    iexact HaS2
  iintro ⟨HO, HaS2, -, Hpay⟩
  ihave H3s2 := (Entails.of_eq ((rest_send m ρ c 2).trans (show sendPay m ρ c 2 = (((ℓs c) ↦[rowSet 3]{qSend 2} g3 m ρ c : sProp 𝕄)) from rfl))) $$ Hpay
  -- the six own cells close: their counters at zero are the core's again
  imod (Rounds.cell_close ER (meanRd m ρ) (Set.mem_univ (K (c, 1))) (fun h => h) (R := 0 + 1) (duties_later m ρ (sendCell c 0))) $$ [HaS0] with HzS0
  · isplitr; · iapply (inv_at m ρ K (c, 1)); iexact HI
    iexact HaS0
  imod (Rounds.cell_close ER (meanRd m ρ) (Set.mem_univ (K (c, 2))) (fun h => h) (R := 0 + 1) (duties_later m ρ (sendCell c 1))) $$ [HaS1] with HzS1
  · isplitr; · iapply (inv_at m ρ K (c, 2)); iexact HI
    iexact HaS1
  imod (Rounds.cell_close ER (meanRd m ρ) (Set.mem_univ (K (c, 3))) (fun h => h) (R := 0 + 1) (duties_later m ρ (sendCell c 2))) $$ [HaS2] with HzS2
  · isplitr; · iapply (inv_at m ρ K (c, 3)); iexact HI
    iexact HaS2
  imod (Rounds.cell_close ER (meanRd m ρ) (Set.mem_univ (K (c, 4))) (fun h => h) (R := 0 + 1) (duties_later m ρ (recvCell c 0))) $$ [HaV0] with HzV0
  · isplitr; · iapply (inv_at m ρ K (c, 4)); iexact HI
    iexact HaV0
  imod (Rounds.cell_close ER (meanRd m ρ) (Set.mem_univ (K (c, 5))) (fun h => h) (R := 0 + 1) (duties_later m ρ (recvCell c 1))) $$ [HaV1] with HzV1
  · isplitr; · iapply (inv_at m ρ K (c, 5)); iexact HI
    iexact HaV1
  imod (Rounds.cell_close ER (meanRd m ρ) (Set.mem_univ (K (c, 6))) (fun h => h) (R := 0 + 1) (duties_later m ρ (recvCell c 2))) $$ [HaV2] with HzV2
  · isplitr; · iapply (inv_at m ρ K (c, 6)); iexact HI
    iexact HaV2
  rw [wp_ret]; imodintro
  iapply Hk
  unfold bodyPost Φ₁ ownZero Dat.owesAt Pipeline.owesWithin
  rw [show (dats m ρ 0 c).owed t₀.succ = 0 from rfl]
  isplitl [Hr0 Hr1 Hr2 H3k H3s0 H3s1 H3s2 Hoff HzS0 HzS1 HzS2 HzV0 HzV1 HzV2]
  · isplitl [Hr0 Hr1 Hr2 H3k H3s0 H3s1 H3s2 Hoff]
    · ihave H3 := (row3_shares c (g3 m ρ c)).2 $$ [H3k H3s0 H3s1 H3s2]
      · unfold rowPts
        isplitl [H3k]; · iexact H3k
        isplitl [H3s0]; · iexact H3s0
        isplitl [H3s1]; · iexact H3s1
        iexact H3s2
      iapply (scr_join c (landed m ρ 0 c) (landed m ρ 1 c) (landed m ρ 2 c) (g3 m ρ c) f0)
      unfold rowPts
      isplitl [Hr0]; · iexact Hr0
      isplitl [Hr1]; · iexact Hr1
      isplitl [Hr2]; · iexact Hr2
      isplitl [H3]; · iexact H3
      iexact Hoff
    · isplitl [HzS0]; · iexact HzS0
      isplitl [HzS1]; · iexact HzS1
      isplitl [HzS2]; · iexact HzS2
      isplitl [HzV0]; · iexact HzV0
      isplitl [HzV1]; · iexact HzV1
      iexact HzV2
  isplitl [HO]
  · iexists (insert (SemLoc.dma (sendS 2), ()) (insert (SemLoc.dma (sendS 1), ()) (insert (SemLoc.dma (sendS 0), ()) (insert (SemLoc.dma (recvS 2), ())
      (insert (SemLoc.dma (recvS 1), ()) (insert (SemLoc.dma (recvS 0), ()) (insert (SemLoc.reg barS, ()) W)))))))
    isplitr; · ipureintro; exact fun _ _ => Or.inl trivial
    iexact HO
  isplitl [Hx]
  · iexists _; isplitr; · (ipureintro; rfl)
    iexact Hx
  iexists _; isplitr; · (ipureintro; rfl)
  iexact Hout

set_option maxRecDepth 4000 in
/-- The library's body obligation on core `c`. -/
theorem body_obligation (c : Dev nD) : BodyObligation (dats (F := F) m ρ 0 c) (defs₀ (F := F)) 𝒱₀ () Set.univ := fun t => by
  rw [fin_N t]
  rw [bigSep_W, bigSep_W]
  simp only [owns_whole_eq]
  show bodyPre' m ρ c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_scratch0) (Memref.isWhole_whole _) cc0_scratch1 cc0_scratch2) (fun _ => bodyPost m ρ c)
  unfold bodyPre' Φ₀ start
  iintro ⟨⟨⟨⟨%K, Hg⟩, Hcr, Hlev⟩, Hscr⟩, Ho, Hx, Hout⟩
  iapply (sound_body m ρ K c fun _ => bodyPost m ρ c)
  unfold bodyPre
  isplitr []
  · isplitl [Hg Hcr Hlev Hscr]
    · isplitl [Hg]; · iexact Hg
      isplitl [Hcr]; · iexact Hcr
      isplitl [Hlev]; · iexact Hlev
      iexact Hscr
    isplitl [Ho]; · iexact Ho
    isplitl [Hx] <;> iassumption
  · iintro H; iexact H

end Body

end Cert.Kernel.Mean

end
-- ==== Proof.Kernel.Launch.lean ====
/-
  The launch of the four-device mean. Every device's seven cells — its barrier cell, its three send cells, its
  three receive cells — start at counter zero, round 0 reached, nothing taken. The launch mints each device the
  duty tokens of its OWN cells (nine: the barrier's three duties, one per send cell, one per receive cell) and
  deals them round the ring to the devices that PAY those duties: barrier duty d of a device goes to the device
  that receives its copy d, a receive cell's duty to the device that sends into it, a send cell's duty stays. The
  units the devices owe each other at launch come back as credit tokens: every device is owed three barrier units
  (one from each other device) and the credit of one copy on each receive cell. From these the launch theorem for
  cores that owe at launch, with the runtime's barrier semaphore handed to the global step, gives the run: every
  weakly fair execution terminates and every window's array ends at the contents the proof data name.
-/
import proofs.«900938_g7700000000000939_dist_mean_ax0_shard0_i_m1024_n512_v7x_i4_bf16_1_alg».proof.Defs
import proofs.«900938_g7700000000000939_dist_mean_ax0_shard0_i_m1024_n512_v7x_i4_bf16_1_alg».proof.Proof.Gen.Kernel
import proofs.«900938_g7700000000000939_dist_mean_ax0_shard0_i_m1024_n512_v7x_i4_bf16_1_alg».proof.Proof.Gen.Kernel.Skeleton
import proofs.«900938_g7700000000000939_dist_mean_ax0_shard0_i_m1024_n512_v7x_i4_bf16_1_alg».proof.Proof.Gen.Kernel.Launch
import proofs.«900938_g7700000000000939_dist_mean_ax0_shard0_i_m1024_n512_v7x_i4_bf16_1_alg».proof.Proof.Gen.Kernel.Points
import proofs.«900938_g7700000000000939_dist_mean_ax0_shard0_i_m1024_n512_v7x_i4_bf16_1_alg».proof.Proof.Kernel.Proto
import proofs.«900938_g7700000000000939_dist_mean_ax0_shard0_i_m1024_n512_v7x_i4_bf16_1_alg».proof.Proof.Kernel.State
import Idealize.ShloMosaic.Lib.Pipeline.Launch
import Idealize.ShloMosaic.Lib.Pipeline.Kit
import Idealize.ShloMosaic.Lib.ReshapeSlab
import Idealize.ShloMosaic.Lib.Writes
import Idealize.ShloMosaic.Lib.Tactic

noncomputable section

namespace Cert.Kernel.Mean

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The layout -/

theorem ownSemFacts : Pipeline.OwnSemFacts cfg0.spec osem := by decide

theorem share_eq (c : Dev nD) (w : Fin cfg0.W) : (dats m ρ 0 c).share w = fullShare := by unfold Dat.share; split <;> rfl

/-- The 28 cells of the protocol are pairwise distinct. -/
theorem kcell_injective : Function.Injective (kcell : Dev nD × Fin 7 → GSem nD τ sig) := by
  rintro ⟨c, k⟩ ⟨c', k'⟩ h
  have h1 : c = c' := by have := congrArg (fun g : GSem nD τ sig => g.1.1) h; exact this
  subst h1
  have h2 : csem k = csem k' := congrArg Prod.snd h
  have : k = k' := by fin_cases k <;> fin_cases k' <;> first | rfl | exact absurd h2 (by decide)
  subst this; rfl
def meanCells : Finset (GSem nD τ sig) := Finset.univ.map ⟨kcell, kcell_injective⟩

/-- A device's own cells' duty tokens as minted: (device, which of the nine) — its barrier's duties 0, 1, 2, then
    the one duty of each send cell, then of each receive cell. -/
abbrev tokOf (cj : Dev nD × Fin 9) : GSem nD τ sig × ℕ × Fin 3 := match cj.2 with
  | 0 => (barCell cj.1, 0, 0) | 1 => (barCell cj.1, 0, 1) | 2 => (barCell cj.1, 0, 2)
  | 3 => (sendCell cj.1 0, 0, 0) | 4 => (sendCell cj.1 1, 0, 0) | 5 => (sendCell cj.1 2, 0, 0)
  | 6 => (recvCell cj.1 0, 0, 0) | 7 => (recvCell cj.1 1, 0, 0) | 8 => (recvCell cj.1 2, 0, 0)
theorem tokOf_injective : Function.Injective (tokOf : Dev nD × Fin 9 → GSem nD τ sig × ℕ × Fin 3) := by
  rintro ⟨c, j⟩ ⟨c', j'⟩ h
  have h1 : c = c' := by
    have := congrArg (fun x : GSem nD τ sig × ℕ × Fin 3 => x.1.1.1) h
    fin_cases j <;> fin_cases j' <;> exact this
  subst h1
  have : j = j' := by
    fin_cases j <;> fin_cases j' <;> first | rfl | exact absurd (congrArg (fun x : GSem nD τ sig × ℕ × Fin 3 => (x.1.2, x.2.2)) h) (by decide +revert)
  subst this; rfl
def meanToks : Finset (GSem nD τ sig × ℕ × Fin 3) := Finset.univ.map ⟨tokOf, tokOf_injective⟩

/-- The launch element: the pipeline library's copy and the protocol's, side by side. -/
def u₀ : UU :=
  (initOf (Pipeline.cells cfgs cellOf_inj) (Pipeline.launchToks cfgs cellOf_inj), initOf meanCells meanToks)

/-- The duty tokens of device `c`'s own cells. -/
def toks (c : Dev nD) : sProp 𝕄 :=
  iprop(dutyTok ER (barCell c) 0 0 ∗ dutyTok ER (barCell c) 0 1 ∗ dutyTok ER (barCell c) 0 2
    ∗ dutyTok ER (sendCell c 0) 0 0 ∗ dutyTok ER (sendCell c 1) 0 0 ∗ dutyTok ER (sendCell c 2) 0 0
    ∗ dutyTok ER (recvCell c 0) 0 0 ∗ dutyTok ER (recvCell c 1) 0 0 ∗ dutyTok ER (recvCell c 2) 0 0)

/-- What the launch element deals device `c`: its seven cells' round states at counter zero, their positions and
    reached-marks, its own cells' tokens. -/
def G (c : Dev nD) : sProp 𝕄 :=
  iprop((bigSep Finset.univ fun k : Fin 7 => roundState ER (meanRd m ρ) (kcell (c, k)) 0)
    ∗ (bigSep Finset.univ fun k : Fin 7 => iprop(atPos ER (kcell (c, k)) 0 ∅ 0 ∗ reached ER (kcell (c, k)) 0)) ∗ toks c)

/-- What the global step makes of it: the ghost state device `c`'s body starts from, at some names. -/
def G' (c : Dev nD) : sProp 𝕄 := iprop(∃ K, ghost m ρ K c)

omit [FloatOps F] in
theorem bigSep_fin7 (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ
omit [FloatOps F] in
theorem bigSep_fin9 (Φ : Fin 9 → sProp 𝕄) : bigSep Finset.univ Φ = iprop(Φ 0 ∗ Φ 1 ∗ Φ 2 ∗ Φ 3 ∗ Φ 4 ∗ Φ 5 ∗ Φ 6 ∗ Φ 7 ∗ Φ 8) :=
  bigSep_univ_eq_bigSepL [0, 1, 2, 3, 4, 5, 6, 7, 8] (by decide) (by decide) Φ

/-- The protocol's launch element, device by device. -/
theorem fund_mean : BI.own (ER (initOf meanCells meanToks)) ⊢ (|==> bigSep Finset.univ (G m ρ) : sProp 𝕄) := by
  have hX (Φ : GSem nD τ sig → sProp 𝕄) : bigSep meanCells Φ = bigSep Finset.univ fun c : Dev nD => bigSep Finset.univ fun k : Fin 7 => Φ (kcell (c, k)) := by
    unfold meanCells; rw [bigSep_map, bigSep_univ_prod]; rfl
  have hT : bigSep meanToks (fun x => (dutyTok ER x.1 x.2.1 x.2.2 : sProp 𝕄)) = bigSep Finset.univ fun c : Dev nD => toks c := by
    unfold meanToks; rw [bigSep_map, bigSep_univ_prod]
    exact bigSep_congr fun c _ => by unfold toks; rw [bigSep_fin9]; rfl
  iintro HX
  imod (Rounds.fund ER (meanRd m ρ) meanCells meanToks) $$ HX with ⟨Hst, Hr, Hat, Htok⟩
  imodintro
  ihave Hst' := (Entails.of_eq (hX fun g => roundState ER (meanRd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The semaphores at zero, and the cells' invariants allocated -/

omit [FloatOps F] in
/-- The three send and the three receive semaphores are the kernel's own six; -/
theorem ownSems0_eq (c : Dev nD) : (Pipeline.ownSems0 (Ix := Unit) (Name := ℕ) (U := UU) (Lvl := ℕ) (Val := Elt F) (τ := τ) osem c : sProp 𝕄)
    = ownZero c := by
  rw [Pipeline.ownSems0_eq_of_list c osem [0, 1, 2, 3, 4, 5] (by decide) (by decide)]; rfl
omit [FloatOps F] in
/-- the barrier semaphore the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 7 => semVal (kcell (c, k)) 0 : sProp 𝕄) := by
  rw [ownSems0_eq, unscopedSems0_eq, bigSep_fin7]
  unfold ownZero
  iintro ⟨⟨S0, S1, S2, R0, R1, R2⟩, HB⟩
  isplitl [HB]; · iexact HB
  isplitl [S0]; · iexact S0
  isplitl [S1]; · iexact S1
  isplitl [S2]; · iexact S2
  isplitl [R0]; · iexact R0
  isplitl [R1]; · iexact R1
  iexact R2

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (meanRd m ρ) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 7 => semVal (kcell (c, k)) 0) ∗ bigSep Finset.univ fun k : Fin 7 => roundState ER (meanRd m ρ) (kcell (c, k)) 0)
      ⊢ (|={Set.univ}=> bigSep Finset.univ fun k => iprop(∃ κ : ℕ, cellInv ER (meanRd m ρ) κ (kcell (c, k))) : sProp 𝕄) from by
        rw [← bigSep_sep']
        exact (bigSep_mono fun k _ => (Rounds.body_intro ER (meanRd m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-! ## From the devices' own holdings to what each body starts from -/

/-- What stays linear with device `c`: its positions, and the tokens of the duties IT pays. -/
def linear (c : Dev nD) : sProp 𝕄 := iprop(positions c ∗ payToks c)

theorem ghost_intro (K : Dev nD × Fin 7 → ℕ) (c : Dev nD) : iprop(records m ρ K ∗ linear c) ⊢ G' m ρ c := by
  unfold linear G' ghost
  iintro H
  iexists K
  iexact H

omit [FloatOps F] in
/-- The tokens dealt round the ring. A barrier's duty `d` is paid by the receiver of copy `d`, so the token of
    `barCell c` duty `d` goes to `tgt d c`: summed over the devices, device `c` gets that of `barCell (src d c)`. A
    receive cell's duty is paid by the sender, so the token of `recvCell c j` goes to `src j c`: device `c` gets that
    of `recvCell (tgt j c) j`. The send cells' tokens stay. -/
theorem toks_around : (bigSep Finset.univ fun c : Dev nD => (toks c : sProp 𝕄)) ⊢ bigSep Finset.univ fun c : Dev nD => payToks c := by
  unfold toks payToks
  simp only [bigSep_sep']
  rw [bigSep_univ_equiv (srcEquiv 0) (fun c : Dev nD => (dutyTok ER (barCell c) 0 0 : sProp 𝕄)),
    bigSep_univ_equiv (srcEquiv 1) (fun c : Dev nD => (dutyTok ER (barCell c) 0 1 : sProp 𝕄)),
    bigSep_univ_equiv (srcEquiv 2) (fun c : Dev nD => (dutyTok ER (barCell c) 0 2 : sProp 𝕄)),
    bigSep_univ_equiv (tgtEquiv 0) (fun c : Dev nD => (dutyTok ER (recvCell c 0) 0 0 : sProp 𝕄)),
    bigSep_univ_equiv (tgtEquiv 1) (fun c : Dev nD => (dutyTok ER (recvCell c 1) 0 0 : sProp 𝕄)),
    bigSep_univ_equiv (tgtEquiv 2) (fun c : Dev nD => (dutyTok ER (recvCell c 2) 0 0 : sProp 𝕄))]
  iintro ⟨B0, B1, B2, S0, S1, S2, R0, R1, R2⟩
  isplitl [B2]; · iexact B2
  isplitl [B1]; · iexact B1
  isplitl [B0]; · iexact B0
  isplitl [R0]; · iexact R0
  isplitl [R1]; · iexact R1
  isplitl [R2]; · iexact R2
  isplitl [S0]; · iexact S0
  isplitl [S1]; · iexact S1
  iexact S2

omit [FloatOps F] in
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (meanRd m ρ) κ (kcell (c, k))))
          ∗ (bigSep Finset.univ fun k => iprop(atPos ER (kcell (c, k)) 0 ∅ 0 ∗ reached ER (kcell (c, k)) 0)) ∗ toks c) : sProp 𝕄)
      ⊢ bigSep Finset.univ (G' m ρ) := by
  rw [bigSep_sep', bigSep_sep', ← bigSep_univ_prod (fun ck : Dev nD × Fin 7 => iprop(∃ κ : ℕ, cellInv ER (meanRd m ρ) κ (kcell ck))),
    bigSep_congr (s := Finset.univ) (fun (c : Dev nD) _ => bigSep_sep' Finset.univ (fun k : Fin 7 => (atPos ER (kcell (c, k)) 0 ∅ 0 : sProp 𝕄)) (fun k => reached ER (kcell (c, k)) 0)),
    bigSep_sep', ← bigSep_univ_prod (fun ck : Dev nD × Fin 7 => (reached ER (kcell ck) 0 : sProp 𝕄))]
  iintro ⟨HI, ⟨Hat, #HR⟩, Htok⟩
  ihave HK := (BI.bigSep_exists_pi Finset.univ (fun (ck : Dev nD × Fin 7) (κ : ℕ) => (cellInv ER (meanRd m ρ) κ (kcell ck) : sProp 𝕄))) $$ HI
  icases HK with ⟨%K, #HI⟩
  ihave Htk := (toks_around (F := F)) $$ Htok
  iapply (bigSep_with_persistent (R := records m ρ K) fun c _ => ghost_intro m ρ K c)
  isplitr
  · unfold records; isplitl; · iexact HI
    iexact HR
  · iapply ((Entails.of_eq (bigSep_sep' Finset.univ (fun c : Dev nD => bigSep Finset.univ fun k : Fin 7 => (atPos ER (kcell (c, k)) 0 ∅ 0 : sProp 𝕄)) payToks).symm).trans
      (bigSep_mono fun c _ => show _ ⊢ linear c from Entails.of_eq (by unfold linear positions; rw [bigSep_fin7])))
    isplitl [Hat]; · iexact Hat
    iexact Htk

/-- The global step: own AND unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The launch credit -/

omit [FloatOps F] in
/-- What the other devices owe device `c`'s cells at launch, as credit tokens: one barrier unit from each of the three
    devices whose copies `c` receives, joined into three; and on each receive cell the credit of the copy into it. Each of
    the six summands of what a device owes names ONE cell of the device a fixed number of places round the ring, and
    that map of the devices is a bijection. -/
theorem creds_intro (c : Dev nD) : (Pipeline.launchCred O₀ c : sProp 𝕄) ⊢ creds c := by
  rw [show (O₀ : Dev nD → CellTallies nD τ sig Unit) = fun d => O₁ d + tallyAt (barCell (src 2 d)) () 1 from rfl, Pipeline.launchCred_add,
    show (O₁ : Dev nD → CellTallies nD τ sig Unit) = fun d => O₂ d + tallyAt (barCell (src 1 d)) () 1 from rfl, Pipeline.launchCred_add,
    show (O₂ : Dev nD → CellTallies nD τ sig Unit) = fun d => O₃ d + tallyAt (barCell (src 0 d)) () 1 from rfl, Pipeline.launchCred_add,
    show (O₃ : Dev nD → CellTallies nD τ sig Unit) = fun d => (tallyAt (recvCell (tgt 2 d) 2) () N + tallyAt (recvCell (tgt 1 d) 1) () N)
      + tallyAt (recvCell (tgt 0 d) 0) () N from rfl, Pipeline.launchCred_add, Pipeline.launchCred_add]
  iintro ⟨⟨⟨⟨⟨HR2, HR1⟩, HR0⟩, HB0⟩, HB1⟩, HB2⟩
  ihave C2 := (Pipeline.launchCred_tallyAt (SemLoc.dma (recvS 2)) (tgt 2) (src 2) (tgt_src 2) (src_tgt 2) () N c) $$ HR2
  ihave C1 := (Pipeline.launchCred_tallyAt (SemLoc.dma (recvS 1)) (tgt 1) (src 1) (tgt_src 1) (src_tgt 1) () N c) $$ HR1
  ihave C0 := (Pipeline.launchCred_tallyAt (SemLoc.dma (recvS 0)) (tgt 0) (src 0) (tgt_src 0) (src_tgt 0) () N c) $$ HR0
  ihave D0 := (Pipeline.launchCred_tallyAt (SemLoc.reg barS) (src 0) (tgt 0) (src_tgt 0) (tgt_src 0) () 1 c) $$ HB0
  ihave D1 := (Pipeline.launchCred_tallyAt (SemLoc.reg barS) (src 1) (tgt 1) (src_tgt 1) (tgt_src 1) () 1 c) $$ HB1
  ihave D2 := (Pipeline.launchCred_tallyAt (SemLoc.reg barS) (src 2) (tgt 2) (src_tgt 2) (tgt_src 2) () 1 c) $$ HB2
  unfold creds
  isplitl [D0 D1 D2]
  · have e3 : (tallyAt (barCell c) () 3 : CellTallies nD τ sig Unit)
        = tallyAt (barCell c) () 1 + tallyAt (barCell c) () 1 + tallyAt (barCell c) () 1 := by rw [tallyAt_add, tallyAt_add]
    rw [e3]
    iapply (cred_add _ _).2
    isplitl [D0 D1]
    · iapply (cred_add _ _).2
      isplitl [D0] <;> iassumption
    · iexact D2
  isplitl [C0]; · iexact C0
  isplitl [C1]; · iexact C1
  iexact C2

/-! ## The launch theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds_intro (F := F) c) $$ Hcr
  imodintro
  unfold start G'
  isplitl
  · isplitl [HG]; · iexact HG
    isplitl [Hc]; · iexact Hc
    iexact Hlev
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ scrAny
  iintro ⟨Hs, -, ⟨%f, Hr⟩⟩
  isplitl [Hs]; · iexact Hs
  iexists f; iexact Hr

theorem phi1_exit (c : Dev nD) :
    (dats m ρ 0 c).Φ (Fin.last cfg0.N) ⊢ iprop(emp ∗ Pipeline.ownSems0 osem c ∗ Pipeline.scopedRest cfg0.spec c) := by
  rw [show (dats m ρ 0 c).Φ (Fin.last cfg0.N) = Φ₁ (F := F) c from rfl, scopedRest0_eq, ownSems0_eq]
  unfold Φ₁ scrAny
  iintro ⟨Hr, Hz⟩
  isplitr; · iempintro
  isplitl [Hz]; · iexact Hz
  iexact Hr

/-- The pipeline's own waits — on the two staging cells — sit below everything a device owes. -/
theorem waits (c : Dev nD) : (levAts L lv : sProp 𝕄) ⊢ Pipeline.cellsWaits cfgs (dats m ρ) () 0 c :=
  Pipeline.cellsWaits_intro cfgs (dats m ρ) () 0 c fun w s t =>
    mayWait_low c _ (by fin_cases w <;> fin_cases s <;> decide) _ (by
      rcases t with ⟨_ | _, ht⟩
      · exact Or.inl rfl
      · exact Or.inr rfl)

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- At the compiled mesh of four devices, for any float values, from any memory with zero counters, given the body's
    obligation on every device: every weakly fair execution of @main — the four kernels meeting on the runtime's
    barrier semaphore, then copying their partial means to each other — terminates, and every final state has each
    window's array at the contents the proof data name. -/
theorem run_main (hbody : ∀ c : Dev nD, BodyObligation (dats (F := F) m ρ 0 c) (defs₀ (F := F)) 𝒱₀ () Set.univ) :
    θ_run defs (onTc (τ := τ) (main (F := F))) (s₀ m ρ) (QC m ρ) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := hbody) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_mean m ρ) $$ HX with HG
      imodintro
      isplitl [HP] <;> iassumption)
    (hglob := glob m ρ)
    (hA := fun _ _ => rfl) (hpf := fun _ k => k.elim0)
    (X := start m ρ) (Y := fun _ => iprop(emp)) (Z := fun _ => iprop(emp))
    (hX := start_intro m ρ) (hin := phi0_intro m ρ) (hout := phi1_exit m ρ)
    (QY := fun _ _ => True)
    (hY := fun c s' => by
      iintro ⟨-, -, HSI⟩
      imodintro
      isplitr; · ipureintro; trivial
      iexact HSI)
    (hQ := fun _ h c w => (h c).1 w)

/-- The input array after the run holds what it held. -/
theorem finalA_x (c : Dev nD) : finalA m ρ c (0 : Fin 2) = (s₀ m ρ).mem (win0_0.arr.view.loc (c : Thread nD τ)) :=
  (dats (F := F) m ρ 0 c).arrAt_in (0 : Fin 2) rfl _

/-- info: 'Cert.Kernel.Mean.run_main' depends on axioms: [propext, Classical.choice, Quot.sound] -/
#guard_msgs in #print axioms run_main

end Cert.Kernel.Mean

end
-- ==== Proof.lean ====
/-
  The mean over the 4096 rows of an array, computed on four devices that each hold 1024 rows: every device sums
  its rows, scales by 2^-12, sends that partial mean to the three other devices and adds the four it then holds.
  Over the extended reals, when every entry is a real number, the four scaled block sums add up, in whatever
  order, to the sum of all rows divided by 4096, which is what the reference computes on one device.

  Both printed kernel programs run the same protocol (one barrier handshake, three remote copies a device), proved
  once for any float instance; their frames are that run with the result dropped. The reference's frame is its
  run read back. The kernel's result, read off the run, is a term of the four blocks; the equation with the
  reference's term needs every entry real, which the precondition gives block by block.
-/
import proofs.«900938_g7700000000000939_dist_mean_ax0_shard0_i_m1024_n512_v7x_i4_bf16_1_alg».proof.Defs
import proofs.«900938_g7700000000000939_dist_mean_ax0_shard0_i_m1024_n512_v7x_i4_bf16_1_alg».proof.Proof.Gen.Kernel
import proofs.«900938_g7700000000000939_dist_mean_ax0_shard0_i_m1024_n512_v7x_i4_bf16_1_alg».proof.Proof.Gen.Kernel.Skeleton
import proofs.«900938_g7700000000000939_dist_mean_ax0_shard0_i_m1024_n512_v7x_i4_bf16_1_alg».proof.Proof.Gen.Kernel.Launch
import proofs.«900938_g7700000000000939_dist_mean_ax0_shard0_i_m1024_n512_v7x_i4_bf16_1_alg».proof.Proof.Gen.Kernel.Points
import proofs.«900938_g7700000000000939_dist_mean_ax0_shard0_i_m1024_n512_v7x_i4_bf16_1_alg».proof.Proof.Gen.Kernel.Frame
import proofs.«900938_g7700000000000939_dist_mean_ax0_shard0_i_m1024_n512_v7x_i4_bf16_1_alg».proof.Proof.Gen.KernelIdeal
import proofs.«900938_g7700000000000939_dist_mean_ax0_shard0_i_m1024_n512_v7x_i4_bf16_1_alg».proof.Proof.Gen.KernelIdeal.Skeleton
import proofs.«900938_g7700000000000939_dist_mean_ax0_shard0_i_m1024_n512_v7x_i4_bf16_1_alg».proof.Proof.Gen.KernelIdeal.Launch
import proofs.«900938_g7700000000000939_dist_mean_ax0_shard0_i_m1024_n512_v7x_i4_bf16_1_alg».proof.Proof.Gen.KernelIdeal.Points
import proofs.«900938_g7700000000000939_dist_mean_ax0_shard0_i_m1024_n512_v7x_i4_bf16_1_alg».proof.Proof.Gen.KernelIdeal.Frame
import proofs.«900938_g7700000000000939_dist_mean_ax0_shard0_i_m1024_n512_v7x_i4_bf16_1_alg».proof.Proof.Gen.ReferenceIdeal
import proofs.«900938_g7700000000000939_dist_mean_ax0_shard0_i_m1024_n512_v7x_i4_bf16_1_alg».proof.Proof.Gen.ReferenceIdeal.Run
import proofs.«900938_g7700000000000939_dist_mean_ax0_shard0_i_m1024_n512_v7x_i4_bf16_1_alg».proof.Proof.Gen.ReferenceIdeal.Read
import proofs.«900938_g7700000000000939_dist_mean_ax0_shard0_i_m1024_n512_v7x_i4_bf16_1_alg».proof.Proof.Gen.Pre_finite_inputs_Kernel
import proofs.«900938_g7700000000000939_dist_mean_ax0_shard0_i_m1024_n512_v7x_i4_bf16_1_alg».proof.Proof.Gen.Pre_finite_inputs_ReferenceIdeal
import proofs.«900938_g7700000000000939_dist_mean_ax0_shard0_i_m1024_n512_v7x_i4_bf16_1_alg».proof.Proof.MeanRef
import proofs.«900938_g7700000000000939_dist_mean_ax0_shard0_i_m1024_n512_v7x_i4_bf16_1_alg».proof.Proof.MeanValue
import proofs.«900938_g7700000000000939_dist_mean_ax0_shard0_i_m1024_n512_v7x_i4_bf16_1_alg».proof.Proof.KernelIdeal.Body
import proofs.«900938_g7700000000000939_dist_mean_ax0_shard0_i_m1024_n512_v7x_i4_bf16_1_alg».proof.Proof.KernelIdeal.Launch
import proofs.«900938_g7700000000000939_dist_mean_ax0_shard0_i_m1024_n512_v7x_i4_bf16_1_alg».proof.Proof.KernelIdeal.FinalOut
import proofs.«900938_g7700000000000939_dist_mean_ax0_shard0_i_m1024_n512_v7x_i4_bf16_1_alg».proof.Proof.KernelIdeal.Bridge
import proofs.«900938_g7700000000000939_dist_mean_ax0_shard0_i_m1024_n512_v7x_i4_bf16_1_alg».proof.Proof.Kernel.Body
import proofs.«900938_g7700000000000939_dist_mean_ax0_shard0_i_m1024_n512_v7x_i4_bf16_1_alg».proof.Proof.Kernel.Launch
import Idealize.ShloMosaic.Adequacy
import Idealize.ShloMosaic.Init

noncomputable section

namespace Cert.Proof

open Idealize.ShloMosaic Idealize.SL.Sem

/-- The word-level kernel runs to the end on every device and leaves its block of the array as it was. -/
theorem frame_k : Cert.frame_Kernel := fun m ρ _ =>
  (θ_run (Cert.Kernel.defs (F := Bits)) _ _).mono (fun _ h c => (h c 0).trans (Cert.Kernel.Mean.finalA_x m ρ c))
    (Cert.Kernel.Mean.run_main m ρ (Cert.Kernel.Mean.body_obligation m ρ))

/-- So does the idealized kernel. -/
theorem frame_ki : Cert.frame_KernelIdeal := fun m ρ _ =>
  (θ_run (Cert.KernelIdeal.defs (F := Ideal)) _ _).mono (fun _ h c => (h c 0).trans (Cert.KernelIdeal.Mean.finalA_x m ρ c))
    (Cert.KernelIdeal.Mean.run_main m ρ (Cert.KernelIdeal.Mean.body_obligation m ρ))

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The four devices that write a device's rows 0, 1, 2 and the device itself are the four devices. -/
theorem ring_nodup (c : Dev Cert.KernelIdeal.nD) :
    [Cert.KernelIdeal.Mean.src 0 c, Cert.KernelIdeal.Mean.src 1 c, Cert.KernelIdeal.Mean.src 2 c, c].Nodup := by
  revert c; decide

/-- Every device ends with the mean of all 4096 rows: the sum of the four partial means is the reference's quotient. -/
theorem algebraic : Cert.algebraic_KernelIdeal_ReferenceIdeal := by
  intro m ρ m' ρ' hpre hagree
  refine ⟨Cert.ReferenceIdeal.Read.val_main_v3 (F := Ideal) (m' (((0 : Dev Cert.ReferenceIdeal.nD).tc : Thread Cert.ReferenceIdeal.nD Cert.ReferenceIdeal.τ).loc Cert.ReferenceIdeal.main_arg0)), ?_, ?_⟩
  · refine (θ_run (Cert.KernelIdeal.defs (F := Ideal)) _ _).mono (fun _ h c => ⟨?_, (h c 0).trans (Cert.KernelIdeal.Mean.finalA_x m ρ c)⟩)
      (Cert.KernelIdeal.Mean.run_main m ρ (Cert.KernelIdeal.Mean.body_obligation m ρ))
    refine (h c 1).trans ?_
    rw [Cert.KernelIdeal.Mean.finalA_out, Cert.KernelIdeal.Mean.outAt_eq]
    simp only [Cert.KernelIdeal.Mean.xstg_eq]
    exact Cert.MeanValue.result_eq _ (fun d => m ((d.tc : Thread Cert.KernelIdeal.nD Cert.KernelIdeal.τ).loc Cert.KernelIdeal.main_arg0))
      hagree (fun d i => Cert.MeanValue.real_of_pre _ (hpre d) i) _ _ _ _ (ring_nodup c)
  · exact (θ_run Cert.ReferenceIdeal.defs _ _).mono (fun _ h => ⟨(h 0).1.trans (Cert.ReferenceIdeal.Read.val_main_v3_eq _), (h 0).2⟩)
      (Cert.ReferenceIdeal.Value.run (F := Ideal) m' ρ')

theorem claim : Cert.Claim := ⟨Cert.Kernel.Gen.facts, Cert.KernelIdeal.Gen.facts, Cert.ReferenceIdeal.Gen.facts, Cert.Pre_finite_inputs_Kernel.Gen.facts, Cert.Pre_finite_inputs_ReferenceIdeal.Gen.facts,
  frame_k, frame_ki, frame_ri, trivial, algebraic⟩

end Cert.Proof

end
